-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S224x4096 : S_.BroadcastsInDim S224x4096 (![] : Fin 0 → Fin S224x4096.rank)
  reducesTo_S224x4096_S_d0_1 : S224x4096.ReducesTo [0, 1] S_
  bcast_S_S64x14336 : S_.BroadcastsInDim S64x14336 (![] : Fin 0 → Fin S64x14336.rank)
  reducesTo_S64x14336_S_d0_1 : S64x14336.ReducesTo [0, 1] S_

variable [Facts]

def fn_part1 {F : FTy → Type} [FloatOps F] (main_arg6 : FVec F S64x14336 .f32) (main_arg8 : FVec F S224x4096 .f32) (main_arg9 : FVec F S224x4096 .f32) (main_v13 : IVec S_ 1) (main_v16 : IVec S64x14336 1) : IVec S_ 1 :=
  let main_c_5 : IVec S_ 1 := constantI S_ 1 1#1
  let main_v17 : IVec S_ 1 := (fun x v => Host.reduce IntOp.andi x v reducesTo_S64x14336_S_d0_1 h_S_) main_v16 main_c_5
  let main_v18 : IVec S_ 1 := andi main_v13 main_v17
  let main_v19 : FVec F S64x14336 .f32 := Host.absf main_arg6
  let main_cst_6 : FVec F S_ .f32 := constant S_ .f32 0x7F800000#32
  let main_v20 : FVec F S64x14336 .f32 := broadcastInDim S64x14336 ![] bcast_S_S64x14336 main_cst_6
  let main_v21 : IVec S64x14336 1 := cmpf .olt main_v19 main_v20
  let main_c_7 : IVec S_ 1 := constantI S_ 1 1#1
  let main_v22 : IVec S_ 1 := (fun x v => Host.reduce IntOp.andi x v reducesTo_S64x14336_S_d0_1 h_S_) main_v21 main_c_7
  let main_v23 : IVec S_ 1 := andi main_v18 main_v22
  let main_v24 : FVec F S224x4096 .f32 := Host.absf main_arg8
  let main_cst_8 : FVec F S_ .f32 := constant S_ .f32 0x7F800000#32
  let main_v25 : FVec F S224x4096 .f32 := broadcastInDim S224x4096 ![] bcast_S_S224x4096 main_cst_8
  let main_v26 : IVec S224x4096 1 := cmpf .olt main_v24 main_v25
  let main_c_9 : IVec S_ 1 := constantI S_ 1 1#1
  let main_v27 : IVec S_ 1 := (fun x v => Host.reduce IntOp.andi x v reducesTo_S224x4096_S_d0_1 h_S_) main_v26 main_c_9
  let main_v28 : IVec S_ 1 := andi main_v23 main_v27
  let main_v29 : FVec F S224x4096 .f32 := Host.absf main_arg9
  let main_cst_10 : FVec F S_ .f32 := constant S_ .f32 0x7F800000#32
  let main_v30 : FVec F S224x4096 .f32 := broadcastInDim S224x4096 ![] bcast_S_S224x4096 main_cst_10
  let main_v31 : IVec S224x4096 1 := cmpf .olt main_v29 main_v30
  let main_c_11 : IVec S_ 1 := constantI S_ 1 1#1
  let main_v32 : IVec S_ 1 := (fun x v => Host.reduce IntOp.andi x v reducesTo_S224x4096_S_d0_1 h_S_) main_v31 main_c_11
  let main_v33 : IVec S_ 1 := andi main_v28 main_v32
  main_v33

def fn {F : FTy → Type} [FloatOps F] (main_arg0 : FVec F S512x4096 .f32) (main_arg1 : IVec S14336x4096 32) (main_arg2 : FVec F S224x4096 .f32) (main_arg3 : FVec F S224x4096 .f32) (main_arg4 : IVec S4096x14336 32) (main_arg5 : FVec F S64x14336 .f32) (main_arg6 : FVec F S64x14336 .f32) (main_arg7 : IVec S14336x4096 32) (main_arg8 : FVec F S224x4096 .f32) (main_arg9 : FVec F S224x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S224x4096 .f32 := Host.absf main_arg2
  let main_cst_0 : FVec F S_ .f32 := constant S_ .f32 0x7F800000#32
  let main_v5 : FVec F S224x4096 .f32 := broadcastInDim S224x4096 ![] bcast_S_S224x4096 main_cst_0
  let main_v6 : IVec S224x4096 1 := cmpf .olt main_v4 main_v5
  let main_c_1 : IVec S_ 1 := constantI S_ 1 1#1
  let main_v7 : IVec S_ 1 := (fun x v => Host.reduce IntOp.andi x v reducesTo_S224x4096_S_d0_1 h_S_) main_v6 main_c_1
  let main_v8 : IVec S_ 1 := andi main_v3 main_v7
  let main_v9 : FVec F S224x4096 .f32 := Host.absf main_arg3
  let main_cst_2 : FVec F S_ .f32 := constant S_ .f32 0x7F800000#32
  let main_v10 : FVec F S224x4096 .f32 := broadcastInDim S224x4096 ![] bcast_S_S224x4096 main_cst_2
  let main_v11 : IVec S224x4096 1 := cmpf .olt main_v9 main_v10
  let main_c_3 : IVec S_ 1 := constantI S_ 1 1#1
  let main_v12 : IVec S_ 1 := (fun x v => Host.reduce IntOp.andi x v reducesTo_S224x4096_S_d0_1 h_S_) main_v11 main_c_3
  let main_v13 : IVec S_ 1 := andi main_v8 main_v12
  let main_v14 : FVec F S64x14336 .f32 := Host.absf main_arg5
  let main_cst_4 : FVec F S_ .f32 := constant S_ .f32 0x7F800000#32
  let main_v15 : FVec F S64x14336 .f32 := broadcastInDim S64x14336 ![] bcast_S_S64x14336 main_cst_4
  let main_v16 : IVec S64x14336 1 := cmpf .olt main_v14 main_v15
  fn_part1 (F := F) main_arg6 main_arg8 main_arg9 main_v13 main_v16
-- ==== Kernel.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S512x14336 : Shape := ⟨2, ![512, 14336]⟩
abbrev S8x4096 : Shape := ⟨2, ![8, 4096]⟩
abbrev S512x512 : Shape := ⟨2, ![512, 512]⟩
abbrev S512x1024 : Shape := ⟨2, ![512, 1024]⟩
abbrev S8x1024 : Shape := ⟨2, ![8, 1024]⟩
abbrev S8x64x1024 : Shape := ⟨3, ![8, 64, 1024]⟩
abbrev S8x1x1024 : Shape := ⟨3, ![8, 1, 1024]⟩
abbrev S512x2048 : Shape := ⟨2, ![512, 2048]⟩
abbrev S8x2048 : Shape := ⟨2, ![8, 2048]⟩
abbrev S8x64x2048 : Shape := ⟨3, ![8, 64, 2048]⟩
abbrev S8x1x2048 : Shape := ⟨3, ![8, 1, 2048]⟩

abbrev nBuf : Space → Nat
  | .hbm => 14
  | .vmem => 31
  | .smem => 0
  | _ => 0

abbrev bufTy : (tb : Table) → Fin (tcTables nBuf tb) → BufTy
  | .hbm, ⟨0, _⟩ => ⟨S512x4096, .f32⟩
  | .hbm, ⟨1, _⟩ => ⟨S14336x4096, .i32⟩
  | .hbm, ⟨2, _⟩ => ⟨S224x4096, .f32⟩
  | .hbm, ⟨3, _⟩ => ⟨S224x4096, .f32⟩
  | .hbm, ⟨4, _⟩ => ⟨S4096x14336, .i32⟩
  | .hbm, ⟨5, _⟩ => ⟨S64x14336, .f32⟩
  | .hbm, ⟨6, _⟩ => ⟨S64x14336, .f32⟩
  | .hbm, ⟨7, _⟩ => ⟨S14336x4096, .i32⟩
  | .hbm, ⟨8, _⟩ => ⟨S224x4096, .f32⟩
  | .hbm, ⟨9, _⟩ => ⟨S224x4096, .f32⟩
  | .hbm, ⟨10, _⟩ => ⟨S512x4096, .bf16⟩
  | .hbm, ⟨11, _⟩ => ⟨S512x14336, .f32⟩
  | .hbm, ⟨12, _⟩ => ⟨S512x14336, .bf16⟩
  | .hbm, ⟨13, _⟩ => ⟨S512x4096, .f32⟩
  | .local _ .vmem, ⟨0, _⟩ => ⟨S512x4096, .bf16⟩
  | .local _ .vmem, ⟨1, _⟩ => ⟨S512x4096, .i32⟩
  | .local _ .vmem, ⟨2, _⟩ => ⟨S512x4096, .i32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S512x512, .f32⟩
  | .local _ .vmem, ⟨8, _⟩ => ⟨S512x512, .f32⟩
  | .local _ .vmem, ⟨9, _⟩ => ⟨S512x4096, .bf16⟩
  | .local _ .vmem, ⟨10, _⟩ => ⟨S512x4096, .i32⟩
  | .local _ .vmem, ⟨11, _⟩ => ⟨S512x4096, .i32⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | .local _ .vmem, ⟨15, _⟩ => ⟨S8x4096, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .i32⟩
  | .local _ .vmem, ⟨23, _⟩ => ⟨S512x2048, .i32⟩
  | .local _ .vmem, ⟨24, _⟩ => ⟨S8x2048, .f32⟩
  | .local _ .vmem, ⟨25, _⟩ => ⟨S8x2048, .f32⟩
  | .local _ .vmem, ⟨26, _⟩ => ⟨S8x2048, .f32⟩
  | .local _ .vmem, ⟨27, _⟩ => ⟨S8x2048, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_scratch0 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![28], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_off2 (c0_i32 : BitVec 32) : Fin 2 → Nat :=
  let c0_1 : Index := 0#32
  let c1024_i32 : BitVec 32 := 1024#32
  let v1 : BitVec 32 := Scalar.muli c0_i32 c1024_i32
  let v2 : BitVec 32 := v1
  let v8 : Index := Scalar.indexCast v2
  ![0, v8.toNat]
def k0_mult2 : BitVec 32 :=
  let c1_i32 : BitVec 32 := 1#32
  let c1024_i32_4 : BitVec 32 := 1024#32
  let v24 : BitVec 32 := Scalar.muli c1_i32 c1024_i32_4
  v24
def k0_mult3 : BitVec 32 :=
  let c2_i32 : BitVec 32 := 2#32
  let c1024_i32_10 : BitVec 32 := 1024#32
  let v47 : BitVec 32 := Scalar.muli c2_i32 c1024_i32_10
  v47
def k0_mult4 : BitVec 32 :=
  let c3_i32 : BitVec 32 := 3#32
  let c1024_i32_16 : BitVec 32 := 1024#32
  let v70 : BitVec 32 := Scalar.muli c3_i32 c1024_i32_16
  v70
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![28], ![false]⟩

def k1_mult1 : BitVec 32 :=
  let c0_i32 : BitVec 32 := 0#32
  let c1024_i32 : BitVec 32 := 1024#32
  let v1 : BitVec 32 := Scalar.muli c0_i32 c1024_i32
  v1
def k1_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k1_off2 (c0_i32 : BitVec 32) : Fin 2 → Nat :=
  let c0_1 : Index := 0#32
  let c1024_i32 : BitVec 32 := 1024#32
  let v1 : BitVec 32 := Scalar.muli c0_i32 c1024_i32
  let v2 : BitVec 32 := v1
  let v8 : Index := Scalar.indexCast v2
  ![0, v8.toNat]
def k1_mult2 : BitVec 32 :=
  let c1_i32 : BitVec 32 := 1#32
  let c1024_i32_4 : BitVec 32 := 1024#32
  let v24 : BitVec 32 := Scalar.muli c1_i32 c1024_i32_4
  v24
def k1_mult3 : BitVec 32 :=
  let c2_i32 : BitVec 32 := 2#32
  let c1024_i32_10 : BitVec 32 := 1024#32
  let v47 : BitVec 32 := Scalar.muli c2_i32 c1024_i32_10
  v47
def k1_mult4 : BitVec 32 :=
  let c3_i32 : BitVec 32 := 3#32
  let c1024_i32_16 : BitVec 32 := 1024#32
  let v70 : BitVec 32 := Scalar.muli c3_i32 c1024_i32_16
  v70
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 7], ![false, false]⟩

def k2_cond2 (i : grid2.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_12 : BitVec 32 := 0#32
  let v26 : BitVec 1 := Scalar.cmpi .ne v25 c0_i32_12
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bitsLt_bf16_f32 : FTy.bits .bf16 < FTy.bits .f32
  h_S512x1024 : 0 < S512x1024.numel
  shapeCasts_S512x1024_S512x1024 : S512x1024.ShapeCasts S512x1024
  h_S8x1024 : 0 < S8x1024.numel
  shapeCasts_S512x1024_S8x64x1024 : S512x1024.ShapeCasts S8x64x1024
  shapeCasts_S8x1024_S8x1x1024 : S8x1024.ShapeCasts S8x1x1024
  broadcasts_S8x1x1024_S8x64x1024 : S8x1x1024.Broadcasts S8x64x1024
  shapeCasts_S8x64x1024_S512x1024 : S8x64x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S512x2048_S512x2048_0_0 : ∀ a, (![0, 0] : Fin 2 → Nat) a + S512x2048.size a ≤ S512x2048.size a
  h_S512x2048 : 0 < S512x2048.numel
  inb_S8x2048_S8x2048_0_0 : ∀ a, (![0, 0] : Fin 2 → Nat) a + S8x2048.size a ≤ S8x2048.size a
  h_S8x2048 : 0 < S8x2048.numel
  shapeCasts_S512x2048_S8x64x2048 : S512x2048.ShapeCasts S8x64x2048
  shapeCasts_S8x2048_S8x1x2048 : S8x2048.ShapeCasts S8x1x2048
  broadcasts_S8x1x2048_S8x64x2048 : S8x1x2048.Broadcasts S8x64x2048
  shapeCasts_S8x64x2048_S512x2048 : S8x64x2048.ShapeCasts S512x2048
  shapeCasts_S512x2048_S512x2048 : S512x2048.ShapeCasts S512x2048
  dot_S512x1024_S512x1024_S512x512_1_1_0_0_n_n_wf : DotDims.WF S512x1024 S512x1024 S512x512 [1] [1] [0] [0] [] []
  dot_S512x2048_S512x2048_S512x512_1_1_0_0_n_n_wf : DotDims.WF S512x2048 S512x2048 S512x512 [1] [1] [0] [0] [] []
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_off2_inb : ∀ (r : Fin 4), ∀ a, (k0_off2 (BitVec.ofNat 32 r.val)) a + S8x1024.size a ≤ S8x4096.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .i32 = 32 ∨ (Rect.block (s := S14336x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S224x4096.size a
  hwx0_2 : ∀ i : grid0.Coords, EltTy.bits .f32 = 32 ∨ (Rect.block (s := S224x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S224x4096.size a
  hwx0_3 : ∀ i : grid0.Coords, EltTy.bits .f32 = 32 ∨ (Rect.block (s := S224x4096) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x14336.size a
  hwx0_4 : ∀ i : grid0.Coords, EltTy.bits .f32 = 32 ∨ (Rect.block (s := S512x14336) S512x512.size (cc0_transform_4 i) (hinb0_4 i)).WholeWords (EltTy.packing .f32)
  hrank1 : 0 < grid1.rank
  k1_mult1_dvd : 1024 ∣ k1_mult1.toNat
  k1_off1_inb : ∀ (r : Fin 4), ∀ a, (k1_off1 (BitVec.ofNat 32 r.val)) a + S512x1024.size a ≤ S512x4096.size a
  k1_off2_inb : ∀ (r : Fin 4), ∀ a, (k1_off2 (BitVec.ofNat 32 r.val)) a + S8x1024.size a ≤ S8x4096.size a
  k1_mult2_dvd : 1024 ∣ k1_mult2.toNat
  k1_mult3_dvd : 1024 ∣ k1_mult3.toNat
  k1_mult4_dvd : 1024 ∣ k1_mult4.toNat
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .bf16 = 32 ∨ (Rect.block (s := S512x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S14336x4096.size a
  hwx1_1 : ∀ i : grid1.Coords, EltTy.bits .i32 = 32 ∨ (Rect.block (s := S14336x4096) S512x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x4096.size a ≤ S224x4096.size a
  hwx1_2 : ∀ i : grid1.Coords, EltTy.bits .f32 = 32 ∨ (Rect.block (s := S224x4096) S8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S224x4096.size a
  hwx1_3 : ∀ i : grid1.Coords, EltTy.bits .f32 = 32 ∨ (Rect.block (s := S224x4096) S8x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x14336.size a
  hwx1_4 : ∀ i : grid1.Coords, EltTy.bits .f32 = 32 ∨ (Rect.block (s := S512x14336) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x14336.size a
  hwx1_5 : ∀ i : grid1.Coords, EltTy.bits .bf16 = 32 ∨ (Rect.block (s := S512x14336) S512x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S512x14336.size a
  hwx2_0 : ∀ i : grid2.Coords, EltTy.bits .bf16 = 32 ∨ (Rect.block (s := S512x14336) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x14336.size a
  hwx2_1 : ∀ i : grid2.Coords, EltTy.bits .i32 = 32 ∨ (Rect.block (s := S4096x14336) S512x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x2048.size a ≤ S64x14336.size a
  hwx2_2 : ∀ i : grid2.Coords, EltTy.bits .f32 = 32 ∨ (Rect.block (s := S64x14336) S8x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x2048.size a ≤ S64x14336.size a
  hwx2_3 : ∀ i : grid2.Coords, EltTy.bits .f32 = 32 ∨ (Rect.block (s := S64x14336) S8x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x4096.size a
  hwx2_4 : ∀ i : grid2.Coords, EltTy.bits .f32 = 32 ∨ (Rect.block (s := S512x4096) S512x512.size (cc2_transform_4 i) (hinb2_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S8x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S8x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S8x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S512x4096 : Shape := ⟨2, ![512, 4096]⟩
abbrev S14336x4096 : Shape := ⟨2, ![14336, 4096]⟩
abbrev S224x4096 : Shape := ⟨2, ![224, 4096]⟩
abbrev S4096x14336 : Shape := ⟨2, ![4096, 14336]⟩
abbrev S64x14336 : Shape := ⟨2, ![64, 14336]⟩
abbrev S224x64x4096 : Shape := ⟨3, ![224, 64, 4096]⟩
abbrev S224x1x4096 : Shape := ⟨3, ![224, 1, 4096]⟩
abbrev S512x14336 : Shape := ⟨2, ![512, 14336]⟩
abbrev S_ : Shape := ⟨0, ![]⟩
abbrev S64x64x14336 : Shape := ⟨3, ![64, 64, 14336]⟩
abbrev S64x1x14336 : Shape := ⟨3, ![64, 1, 14336]⟩

abbrev nBuf : Space → Nat
  | .hbm => 53
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S14336x4096, .i32⟩
  | .hbm, ⟨2, _⟩ => ⟨S224x4096, .f32⟩
  | .hbm, ⟨3, _⟩ => ⟨S224x4096, .f32⟩
  | .hbm, ⟨4, _⟩ => ⟨S4096x14336, .i32⟩
  | .hbm, ⟨5, _⟩ => ⟨S64x14336, .f32⟩
  | .hbm, ⟨6, _⟩ => ⟨S64x14336, .f32⟩
  | .hbm, ⟨7, _⟩ => ⟨S14336x4096, .i32⟩
  | .hbm, ⟨8, _⟩ => ⟨S224x4096, .f32⟩
  | .hbm, ⟨9, _⟩ => ⟨S224x4096, .f32⟩
  | .hbm, ⟨10, _⟩ => ⟨S224x64x4096, .i32⟩
  | .hbm, ⟨11, _⟩ => ⟨S224x64x4096, .f32⟩
  | .hbm, ⟨12, _⟩ => ⟨S224x1x4096, .f32⟩
  | .hbm, ⟨13, _⟩ => ⟨S224x64x4096, .f32⟩
  | .hbm, ⟨14, _⟩ => ⟨S224x64x4096, .f32⟩
  | .hbm, ⟨15, _⟩ => ⟨S224x1x4096, .f32⟩
  | .hbm, ⟨16, _⟩ => ⟨S224x64x4096, .f32⟩
  | .hbm, ⟨17, _⟩ => ⟨S224x64x4096, .f32⟩
  | .hbm, ⟨18, _⟩ => ⟨S14336x4096, .f32⟩
  | .hbm, ⟨19, _⟩ => ⟨S4096x14336, .f32⟩
  | .hbm, ⟨20, _⟩ => ⟨S512x14336, .f32⟩
  | .hbm, ⟨21, _⟩ => ⟨S224x64x4096, .i32⟩
  | .hbm, ⟨22, _⟩ => ⟨S224x64x4096, .f32⟩
  | .hbm, ⟨23, _⟩ => ⟨S224x1x4096, .f32⟩
  | .hbm, ⟨24, _⟩ => ⟨S224x64x4096, .f32⟩
  | .hbm, ⟨25, _⟩ => ⟨S224x64x4096, .f32⟩
  | .hbm, ⟨26, _⟩ => ⟨S224x1x4096, .f32⟩
  | .hbm, ⟨27, _⟩ => ⟨S224x64x4096, .f32⟩
  | .hbm, ⟨28, _⟩ => ⟨S224x64x4096, .f32⟩
  | .hbm, ⟨29, _⟩ => ⟨S14336x4096, .f32⟩
  | .hbm, ⟨30, _⟩ => ⟨S4096x14336, .f32⟩
  | .hbm, ⟨31, _⟩ => ⟨S512x14336, .f32⟩
  | .hbm, ⟨32, _⟩ => ⟨S512x14336, .f32⟩
  | .hbm, ⟨33, _⟩ => ⟨S512x14336, .f32⟩
  | .hbm, ⟨34, _⟩ => ⟨S_, .f32⟩
  | .hbm, ⟨35, _⟩ => ⟨S512x14336, .f32⟩
  | .hbm, ⟨36, _⟩ => ⟨S512x14336, .f32⟩
  | .hbm, ⟨37, _⟩ => ⟨S_, .f32⟩
  | .hbm, ⟨38, _⟩ => ⟨S512x14336, .f32⟩
  | .hbm, ⟨39, _⟩ => ⟨S512x14336, .f32⟩
  | .hbm, ⟨40, _⟩ => ⟨S512x14336, .f32⟩
  | .hbm, ⟨41, _⟩ => ⟨S512x14336, .f32⟩
  | .hbm, ⟨42, _⟩ => ⟨S64x64x14336, .i32⟩
  | .hbm, ⟨43, _⟩ => ⟨S64x64x14336, .f32⟩
  | .hbm, ⟨44, _⟩ => ⟨S64x1x14336, .f32⟩
  | .hbm, ⟨45, _⟩ => ⟨S64x64x14336, .f32⟩
  | .hbm, ⟨46, _⟩ => ⟨S64x64x14336, .f32⟩
  | .hbm, ⟨47, _⟩ => ⟨S64x1x14336, .f32⟩
  | .hbm, ⟨48, _⟩ => ⟨S64x64x14336, .f32⟩
  | .hbm, ⟨49, _⟩ => ⟨S64x64x14336, .f32⟩
  | .hbm, ⟨50, _⟩ => ⟨S4096x14336, .f32⟩
  | .hbm, ⟨51, _⟩ => ⟨S14336x4096, .f32⟩
  | .hbm, ⟨52, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S14336x4096_S224x64x4096 : S14336x4096.ShapeCasts S224x64x4096
  bcast_S224x4096_S224x1x4096_0_2 : S224x4096.BroadcastsInDim S224x1x4096 (![0, 2] : Fin 2 → Fin S224x1x4096.rank)
  bcast_S224x1x4096_S224x64x4096_0_1_2 : S224x1x4096.BroadcastsInDim S224x64x4096 (![0, 1, 2] : Fin 3 → Fin S224x64x4096.rank)
  shapeCasts_S224x64x4096_S14336x4096 : S224x64x4096.ShapeCasts S14336x4096
  transposes_S14336x4096_S4096x14336_1_0 : S14336x4096.Transposes [1, 0] S4096x14336
  bcast_S_S512x14336 : S_.BroadcastsInDim S512x14336 (![] : Fin 0 → Fin S512x14336.rank)
  shapeCasts_S4096x14336_S64x64x14336 : S4096x14336.ShapeCasts S64x64x14336
  bcast_S64x14336_S64x1x14336_0_2 : S64x14336.BroadcastsInDim S64x1x14336 (![0, 2] : Fin 2 → Fin S64x1x14336.rank)
  bcast_S64x1x14336_S64x64x14336_0_1_2 : S64x1x14336.BroadcastsInDim S64x64x14336 (![0, 1, 2] : Fin 3 → Fin S64x64x14336.rank)
  shapeCasts_S64x64x14336_S4096x14336 : S64x64x14336.ShapeCasts S4096x14336
  transposes_S4096x14336_S14336x4096_1_0 : S4096x14336.Transposes [1, 0] S14336x4096
  dot_S512x4096_S4096x14336_S512x14336_1_0_0_1_n_n_wf : DotDims.WF S512x4096 S4096x14336 S512x14336 [1] [0] [0] [1] [] []
  dot_S512x14336_S14336x4096_S512x4096_1_0_0_1_n_n_wf : DotDims.WF S512x14336 S14336x4096 S512x4096 [1] [0] [0] [1] [] []

variable [Facts₀]

def dot_S512x4096_S4096x14336_S512x14336_1_0_0_1_n_n : DotDims S512x4096 S4096x14336 S512x14336 where
  lhsContracting := [1]
  rhsContracting := [0]
  lhsNonContracting := [0]
  rhsNonContracting := [1]
  lhsBatch := []
  rhsBatch := []
  wf := dot_S512x4096_S4096x14336_S512x14336_1_0_0_1_n_n_wf
def dot_S512x14336_S14336x4096_S512x4096_1_0_0_1_n_n : DotDims S512x14336 S14336x4096 S512x4096 where
  lhsContracting := [1]
  rhsContracting := [0]
  lhsNonContracting := [0]
  rhsNonContracting := [1]
  lhsBatch := []
  rhsBatch := []
  wf := dot_S512x14336_S14336x4096_S512x4096_1_0_0_1_n_n_wf

class Facts : Prop extends Facts₀ where

variable [Facts]
-- ==== Proof.K.Run0.lean ====
/- The gate projection's kernel body, run once on whole staging buffers: the four input blocks are read (the activations and the integer weights in four column strips of 1024, the scale and zero tables likewise), the output block is overwritten by one whole store. The list of pieces the output buffer ends with is the run's witness. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The gate kernel's body on whole staging buffers: inputs at given contents, the output buffer at anything; it ends with the
    inputs as they were and the output buffer overwritten by the pieces `L4` (last store first). -/
noncomputable def kernelRun0 (c : Dev nD) (i : grid0.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .f32) (harg5 : arg5.IsWhole)
    (x0 : Vec F S512x4096 .bf16) (x1 : Vec F S512x4096 .i32) (x2 : Vec F S8x4096 .f32) (x3 : Vec F S8x4096 .f32) :
    { L4 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc0__gate_kernel i arg1 harg1 arg2 harg2 arg3 harg3 arg4 harg4 arg5 harg5) K } := by
  refine ⟨?_, fun E K => ?run⟩
  case run =>
    simp only [cc0__gate_kernel_eq_skeleton]; unfold cc0__gate_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.Data0.lean ====
/- The gate projection's region: its windows' blocks, what the body leaves in the output block, the proof data and the body obligation, at any contents the region may be entered from. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import proofs.«180202_j18279380812578_1_alg».proof.Proof.K.Run0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the index has not
    moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers at a point -/

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
/-- One staging buffer of the output window, through which its contents are stated. -/
abbrev VO0_4 : View sig .tc .vmem S512x512 .f32 := (Memref.whole cc0_stg4_0 : Memref sig .tc .vmem S512x512 .f32).view

/-! ## What the body leaves in the output window's buffer -/

/-- The run's pieces tile the output block (one whole store), so they cover it. -/
theorem cover0_4 (c : Dev nD) (i : grid0.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole)
    (x0 : Vec F S512x4096 .bf16) (x1 : Vec F S512x4096 .i32) (x2 : Vec F S8x4096 .f32) (x3 : Vec F S8x4096 .f32) (y : S512x512.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1 S512x512.size (by sl_kernel_rfl) y

/-- The output block the body leaves: the run's pieces read back. -/
def out0_4 (c : Dev nD) (i : grid0.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole)
    (x0 : Vec F S512x4096 .bf16) (x1 : Vec F S512x4096 .i32) (x2 : Vec F S8x4096 .f32) (x3 : Vec F S8x4096 .f32) : Vec F S512x512 .f32 :=
  VO0_4.read (Elt F) (VO0_4.writes (Elt F) VO0_4.junk (kernelRun0 c i arg1 harg1 arg2 harg2 arg3 harg3 arg4 harg4 arg5 harg5 x0 x1 x2 x3).1)

/-! ## The proof data -/

/-- The region's proof data on core `c`: the arrays as the region finds them; after the body at point `t` each input buffer
    holds its block and the output buffer what the run leaves of the input blocks; the invariant is the untouched scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the input buffers hold their blocks, so the run applies; the invariant and the core's dues pass
    through unread; the output buffer ends at the run's pieces, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Run1.lean ====
/- The up projection's kernel body with the gating, run once on whole staging buffers: the activations, the integer weights and their scale and zero tables are read in four column strips, the gate block is read whole, and the output block is overwritten by one whole store. The list of pieces the output buffer ends with is the run's witness. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The up-and-combine kernel's body on whole staging buffers: inputs at given contents, the output buffer at anything; it ends
    with the inputs as they were and the output buffer overwritten by the pieces `L5` (last store first). -/
noncomputable def kernelRun1 (c : Dev nD) (i : grid1.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) :
    { L5 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__up_combine_kernel i arg1 harg1 arg2 harg2 arg3 harg3 arg4 harg4 arg5 harg5 arg6 harg6) K } := by
  refine ⟨?_, fun E K => ?run⟩
  case run =>
    simp only [cc1__up_combine_kernel_eq_skeleton]; unfold cc1__up_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Hand

end
-- ==== Proof.K.Data1.lean ====
/- The up projection and gating region: its windows' blocks, what the body leaves in the output block, the proof data and the body obligation, at any contents the region may be entered from. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import proofs.«180202_j18279380812578_1_alg».proof.Proof.K.Run1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the index has not
    moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point -/

abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
/-- One staging buffer of the output window, through which its contents are stated. -/
abbrev VO1_5 : View sig .tc .vmem S512x512 .bf16 := (Memref.whole cc1_stg5_0 : Memref sig .tc .vmem S512x512 .bf16).view

/-! ## What the body leaves in the output window's buffer -/

/-- The run's pieces tile the output block (one whole store), so they cover it. -/
theorem cover1_5 (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) (y : S512x512.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S512x512.size (by sl_kernel_rfl) y

/-- The output block the body leaves: the run's pieces read back. -/
def out1_5 (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) : Vec F S512x512 .bf16 :=
  VO1_5.read (Elt F) (VO1_5.writes (Elt F) VO1_5.junk (kernelRun1 c i arg1 harg1 arg2 harg2 arg3 harg3 arg4 harg4 arg5 harg5 arg6 harg6 x0 x1 x2 x3 x4).1)

/-! ## The proof data -/

/-- The region's proof data on core `c`: the arrays as the region finds them; after the body at point `t` each input buffer
    holds its block and the output buffer what the run leaves of the input blocks; the invariant is the untouched scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the input buffers hold their blocks, so the run applies; the invariant and the core's dues pass
    through unread; the output buffer ends at the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run2.lean ====
/- The down projection's kernel body, run once on whole staging buffers, in each of the three control cases its two conditionals meet on the grid: the first reduction step of an output block (the accumulator is zeroed, then the step's partial product is added), a middle step (the partial product is added to what the step before left), and the last step (the same, then the accumulator is copied to the output block). The accumulator is a scratch buffer carried from point to point. Also here: the two conditions decided over the grid, and where the output window is idle. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first conditional: the reduction coordinate is zero. -/
abbrev cond2_0 (i : grid2.Coords) : Prop := (Scalar.cmpi .ne (Scalar.extui (Scalar.cmpi .eq (BitVec.ofNat 32 (i 1).val) 0#32)) 0#32) = 1#1
/-- It holds at the points ≡ 0 (mod 7): the first of each output block's seven reduction steps. -/
theorem hcond2_0 : ∀ t : Fin cfg2.N, cond2_0 (grid2.coords t) ↔ t.val % 7 = 0 :=
  (by decide +kernel : ∀ t : Fin grid2.N, cond2_0 (grid2.coords t) ↔ t.val % 7 = 0)
/-- The second conditional: the reduction coordinate is the last. -/
abbrev cond2_1 (i : grid2.Coords) : Prop := k2_cond2 i = 1#1
/-- It holds at the points ≡ 6 (mod 7). -/
theorem hcond2_1 : ∀ t : Fin cfg2.N, cond2_1 (grid2.coords t) ↔ t.val % 7 = 6 :=
  (by decide +kernel : ∀ t : Fin grid2.N, cond2_1 (grid2.coords t) ↔ t.val % 7 = 6)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second conditional fails the output window is idle (nothing is stored into it) and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- Where it holds the window is live. -/
theorem liveAt2_4 : ∀ t : Fin cfg2.N, cond2_1 (grid2.coords t) → cfg2.idle 4 (grid2.coords t) = false := by decide +kernel

/-! ## The three runs -/

set_option maxHeartbeats 4000000 in
/-- FIRST STEP (the first conditional taken, the second not): the accumulator, found at anything, ends overwritten by the
    pieces `LS`; the output buffer is handed back untouched. -/
noncomputable def kernelRun2_A (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x2048 .bf16) (x1 : Vec F S512x2048 .i32) (x2 : Vec F S8x2048 .f32) (x3 : Vec F S8x2048 .f32) :
    { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- MIDDLE STEP (neither conditional taken): the accumulator, found at `xs`, ends overwritten by the pieces `LS`; the output
    buffer is handed back untouched. -/
noncomputable def kernelRun2_B (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x2048 .bf16) (x1 : Vec F S512x2048 .i32) (x2 : Vec F S8x2048 .f32) (x3 : Vec F S8x2048 .f32) (xs : Vec F S512x512 .f32) :
    { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- LAST STEP (the first conditional not taken, the second taken): the accumulator, found at `xs`, ends overwritten by the
    pieces `LS`, and the output buffer, found at anything, by the pieces `L4`. -/
noncomputable def kernelRun2_C (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x2048 .bf16) (x1 : Vec F S512x2048 .i32) (x2 : Vec F S8x2048 .f32) (x3 : Vec F S8x2048 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.Data2.lean ====
/- The down projection's region: its windows' blocks; what each of the three control cases leaves in the accumulator and in the output block; what they hold point by point along the grid (the accumulation over the seven reduction steps of an output block); the invariant carrying the accumulator from point to point; the proof data and the body obligation — at any contents the region may be entered from. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import proofs.«180202_j18279380812578_1_alg».proof.Proof.K.Run2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers at a point, and the accumulator -/

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- One staging buffer of the output window, through which its contents are stated. -/
abbrev VO2_4 : View sig .tc .vmem S512x512 .f32 := (Memref.whole cc2_stg4_0 : Memref sig .tc .vmem S512x512 .f32).view
/-- The accumulator: a whole scoped buffer of the kernel's own, passed beside the windows. -/
abbrev scM2 : Memref sig .tc .vmem S512x512 .f32 := Memref.whole cc2_scratch0
abbrev VS2 : View sig .tc .vmem S512x512 .f32 := scM2.view

/-- The core's scoped buffers other than this call's staging buffers, split at the accumulator: the accumulator whole at some
    contents, every other one (the other calls' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What rides along untouched through this region: every scoped buffer that is neither a staging buffer of this call nor the
    accumulator. -/
abbrev rest2 (c : Dev nD) : sProp 𝕄 :=
  Pipeline.scopedRestBut (Ix := Unit) (Name := ℕ) (U := UR sig nD τ) (Lvl := ℕ) (Val := Elt F) spec2 c [cc2_scratch0]

/-- The region's plain invariant with the accumulator as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-! ## The three cases at a point of the grid -/

/-- The first-step run at a point `t` ≡ 0 (mod 7), on the point's staging buffers and input blocks. -/
abbrev runA (c : Dev nD) (t : Fin cfg2.N) (h0 : t.val % 7 = 0) (h1 : ¬t.val % 7 = 6) :=
  kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)
/-- The middle-step run at a point `t` with residue 1 to 5, the accumulator found at `xs`. -/
abbrev runB (c : Dev nD) (t : Fin cfg2.N) (h0 : ¬t.val % 7 = 0) (h1 : ¬t.val % 7 = 6) (xs : Vec F S512x512 .f32) :=
  kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
/-- The last-step run at a point `t` ≡ 6 (mod 7), the accumulator found at `xs`. -/
abbrev runC (c : Dev nD) (t : Fin cfg2.N) (h0 : ¬t.val % 7 = 0) (h1 : t.val % 7 = 6) (xs : Vec F S512x512 .f32) :=
  kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- Each case's pieces for the accumulator tile it, so they cover it. -/
theorem scover2_A (c : Dev nD) (t : Fin cfg2.N) (h0 : t.val % 7 = 0) (h1 : ¬t.val % 7 = 6) (y : S512x512.Idx) :
    ∃ pc ∈ (runA V c t h0 h1).1, y ∈ pc.1.set :=
  View.cover_of_tiledL (runA V c t h0 h1).1 S512x512.size (by sl_kernel_rfl) y
theorem scover2_B (c : Dev nD) (t : Fin cfg2.N) (h0 : ¬t.val % 7 = 0) (h1 : ¬t.val % 7 = 6) (xs : Vec F S512x512 .f32) (y : S512x512.Idx) :
    ∃ pc ∈ (runB V c t h0 h1 xs).1, y ∈ pc.1.set :=
  View.cover_of_tiledL (runB V c t h0 h1 xs).1 S512x512.size (by sl_kernel_rfl) y
theorem scover2_C (c : Dev nD) (t : Fin cfg2.N) (h0 : ¬t.val % 7 = 0) (h1 : t.val % 7 = 6) (xs : Vec F S512x512 .f32) (y : S512x512.Idx) :
    ∃ pc ∈ (runC V c t h0 h1 xs).2.1, y ∈ pc.1.set :=
  View.cover_of_tiledL (runC V c t h0 h1 xs).2.1 S512x512.size (by sl_kernel_rfl) y
/-- The last step's pieces for the output block tile it. -/
theorem cover2_C_4 (c : Dev nD) (t : Fin cfg2.N) (h0 : ¬t.val % 7 = 0) (h1 : t.val % 7 = 6) (xs : Vec F S512x512 .f32) (y : S512x512.Idx) :
    ∃ pc ∈ (runC V c t h0 h1 xs).1, y ∈ pc.1.set :=
  View.cover_of_tiledL (runC V c t h0 h1 xs).1 S512x512.size (by sl_kernel_rfl) y

/-- What each case leaves in the accumulator: its pieces read back. -/
def soutA (c : Dev nD) (t : Fin cfg2.N) (h0 : t.val % 7 = 0) (h1 : ¬t.val % 7 = 6) : Vec F S512x512 .f32 :=
  VS2.read (Elt F) (VS2.writes (Elt F) VS2.junk (runA V c t h0 h1).1)
def soutB (c : Dev nD) (t : Fin cfg2.N) (h0 : ¬t.val % 7 = 0) (h1 : ¬t.val % 7 = 6) (xs : Vec F S512x512 .f32) : Vec F S512x512 .f32 :=
  VS2.read (Elt F) (VS2.writes (Elt F) VS2.junk (runB V c t h0 h1 xs).1)
def soutC (c : Dev nD) (t : Fin cfg2.N) (h0 : ¬t.val % 7 = 0) (h1 : t.val % 7 = 6) (xs : Vec F S512x512 .f32) : Vec F S512x512 .f32 :=
  VS2.read (Elt F) (VS2.writes (Elt F) VS2.junk (runC V c t h0 h1 xs).2.1)
/-- What the last step leaves in the output block. -/
def outC (c : Dev nD) (t : Fin cfg2.N) (h0 : ¬t.val % 7 = 0) (h1 : t.val % 7 = 6) (xs : Vec F S512x512 .f32) : Vec F S512x512 .f32 :=
  VO2_4.read (Elt F) (VO2_4.writes (Elt F) VO2_4.junk (runC V c t h0 h1 xs).1)
/-- At a point that stores nothing into the output block: a placeholder nothing consults (the window is idle there and is not
    written back). -/
def outIdle : Vec F S512x512 .f32 :=
  VO2_4.read (Elt F) (VO2_4.writes (Elt F) VO2_4.junk ([] : List (View.Piece (Elt F) S512x512 .f32)))

/-! ## What the output block and the accumulator hold after each point -/

/-- THE ACCUMULATION: the pair (output block, accumulator) after the body at position `n`: the case the residue of `n` modulo 7
    selects, the accumulator it finds being what position `n - 1` left. -/
def outsAt2 (c : Dev nD) : (n : ℕ) → n < cfg2.N → Vec F S512x512 .f32 × Vec F S512x512 .f32
  | 0, hn => (outIdle, soutA V c ⟨0, hn⟩ (Nat.zero_mod _) (by show ¬(0 % 7 = 6); decide))
  | n + 1, hn =>
    if h0 : (n + 1) % 7 = 0 then
      if h1 : (n + 1) % 7 = 6 then False.elim (by omega)
      else (outIdle, soutA V c ⟨n + 1, hn⟩ h0 h1)
    else
      if h1 : (n + 1) % 7 = 6 then
        (outC V c ⟨n + 1, hn⟩ h0 h1 (outsAt2 c n (Nat.lt_of_succ_lt hn)).2, soutC V c ⟨n + 1, hn⟩ h0 h1 (outsAt2 c n (Nat.lt_of_succ_lt hn)).2)
      else
        (outIdle, soutB V c ⟨n + 1, hn⟩ h0 h1 (outsAt2 c n (Nat.lt_of_succ_lt hn)).2)

theorem outsAt2_A (c : Dev nD) (t : Fin cfg2.N) (h0 : t.val % 7 = 0) (h1 : ¬t.val % 7 = 6) :
    outsAt2 V c t.val t.isLt = (outIdle, soutA V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 7 = 0) (h1 : ¬t.val % 7 = 6) :
    outsAt2 V c t.val t.isLt = (outIdle, soutB V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 7 = 0) (h1 : t.val % 7 = 6) :
    outsAt2 V c t.val t.isLt = (outC V c t h0 h1 (outsAt2 V c (t.val - 1) (Nat.lt_of_le_of_lt (Nat.sub_le _ _) t.isLt)).2,
      soutC V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carrying the accumulator -/

/-- Before position `n`: at the start the plain invariant (the accumulator at anything); afterwards the accumulator at what
    the position before left, the other scoped buffers untouched, the generator register at some state. -/
def PhiS (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare ((outsAt2 V c n hn).2) ∗ rest2 c) ∗ (∃ r, prngReg c r)) := rfl
theorem PhiS_pos (c : Dev nD) (n : ℕ) (h : n ≤ cfg2.N) (hz : n ≠ 0) :
    PhiS V c n h = iprop(iprop(owns (c : Thread nD τ) scM2 fullShare ((outsAt2 V c (n - 1) (by omega)).2) ∗ rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 6400000 in
/-- The body at any point: the input buffers hold their blocks; the residue of the point modulo 7 says which case it is in;
    the invariant hands the body the accumulator at what the point before left (at anything at the very first point, and a first
    step does not read it before zeroing it), and takes it back at this point's contents; where nothing is stored into the
    output block its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 56 := lt_of_lt_of_eq t.isLt (show cfg2.N = 56 from N_2)
  by_cases h0 : t.val % 7 = 0
  · have h1 : ¬t.val % 7 = 6 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold soutA; (try dsimp only)
    by_cases hz : t.val = 0
    · rw [PhiS_castSucc V c t, PhiS_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩⟩
      iapply ((runA V c t h0 h1).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_A V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runA V c t h0 h1).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_A V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 7 = 6
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold outC soutC; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg Hrest]
      · isplitl [HS Hrest]
        · isplitl [HS]
          · unfold owns; iexists _; isplitr
            swap; · iexact HS
            ipureintro; exact View.read_writes_of_cover _ _ _ _ _ (scover2_C V c t h0 h1 _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 V c t h0 h1 _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold soutB; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_B V c t h0 h1 _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 56 := N_2; omega), PhiA2_eq]
  iintro ⟨⟨HS, Hrest⟩, Hg⟩
  isplitl [HS Hrest]
  · isplitl [HS]
    · iexists _; iexact HS
    iexact Hrest
  iexact Hg

end Cert.Kernel.Hand

end
-- ==== Proof.K.Main.lean ====
/- The whole program's run: the contents of the core's buffers at each boundary between the program's items (the cast of the activations on the host, then the three kernel regions), each region's proof data at the contents it is entered from, each region as a segment of the run, and the run itself: every weakly fair execution terminates, faults nowhere, and ends with every unscoped buffer at the last boundary's contents. Read at the argument arrays this is the frame; read at the result array it names what the program computes. -/
import proofs.«180202_j18279380812578_1_alg».proof.Proof.Gen.Kernel.Launch
import proofs.«180202_j18279380812578_1_alg».proof.Proof.Gen.Kernel.Skeleton
import proofs.«180202_j18279380812578_1_alg».proof.Proof.Gen.Kernel.Points
import proofs.«180202_j18279380812578_1_alg».proof.Proof.K.Data0
import proofs.«180202_j18279380812578_1_alg».proof.Proof.K.Data1
import proofs.«180202_j18279380812578_1_alg».proof.Proof.K.Data2
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev U0 : Dev nD → Valuation τ sig (Elt F) := fun c b => (s₀ m ρ).mem ((c : Dev nD), b)
/-- After the host's cast of the activations (region 0's entry). -/
abbrev U1 : Dev nD → Valuation τ sig (Elt F) := fun c => StableHlo.after hostOps0 (U0 m ρ c)
abbrev Vr1 : (c : Dev nD) → (b : Ref sig .tc) → Buf (Elt F) ((c : Thread nD τ).loc b) := fun c b => U1 m ρ c b
/-- At region 0's exit: its arrays at what the pipeline leaves (the inputs as entered, the output's write-backs folded in),
    every other buffer as entered. -/
def U2 (c : Dev nD) : Valuation τ sig (Elt F) :=
  Pipeline.withArrays spec0 c (U1 m ρ c) fun w => (dat0 (Vr1 m ρ) c).arrAt w cfg0.N
theorem U2_arr (c : Dev nD) (w : Fin cfg0.W) :
    U2 m ρ c (Proc.devRef .tc (Pipeline.arrRef spec0 w)) = (dat0 (Vr1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the TensorCore's references. -/
abbrev Vr2 : (c : Dev nD) → (b : Ref sig .tc) → Buf (Elt F) ((c : Thread nD τ).loc b) := fun c b => U2 m ρ c b
theorem hF0 (c : Dev nD) (w : Fin cfg0.W) : (dat0 (Vr1 m ρ) c).arrAt w cfg0.N = Vr2 m ρ c (Pipeline.arrRef spec0 w) :=
  (U2_arr m ρ c w).symm
theorem hrest0 (c : Dev nD) : ∀ b, b ∉ Finset.univ.image (Pipeline.arrRef spec0) → Vr2 m ρ c b = Vr1 m ρ c b :=
  fun b hb => U2_of_ne m ρ c b fun w e => hb (Finset.mem_image.mpr ⟨w, Finset.mem_univ _, e⟩)

/-- At region 1's exit: its arrays at what the pipeline leaves (the inputs as entered, the output's write-backs folded in),
    every other buffer as entered. -/
def U3 (c : Dev nD) : Valuation τ sig (Elt F) :=
  Pipeline.withArrays spec1 c (U2 m ρ c) fun w => (dat1 (Vr2 m ρ) c).arrAt w cfg1.N
theorem U3_arr (c : Dev nD) (w : Fin cfg1.W) :
    U3 m ρ c (Proc.devRef .tc (Pipeline.arrRef spec1 w)) = (dat1 (Vr2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
/-- The same read at the TensorCore's references. -/
abbrev Vr3 : (c : Dev nD) → (b : Ref sig .tc) → Buf (Elt F) ((c : Thread nD τ).loc b) := fun c b => U3 m ρ c b
theorem hF1 (c : Dev nD) (w : Fin cfg1.W) : (dat1 (Vr2 m ρ) c).arrAt w cfg1.N = Vr3 m ρ c (Pipeline.arrRef spec1 w) :=
  (U3_arr m ρ c w).symm
theorem hrest1 (c : Dev nD) : ∀ b, b ∉ Finset.univ.image (Pipeline.arrRef spec1) → Vr3 m ρ c b = Vr2 m ρ c b :=
  fun b hb => U3_of_ne m ρ c b fun w e => hb (Finset.mem_image.mpr ⟨w, Finset.mem_univ _, e⟩)

/-- At region 2's exit: its arrays at what the pipeline leaves (the inputs as entered, the output's write-backs folded in),
    every other buffer as entered. -/
def U4 (c : Dev nD) : Valuation τ sig (Elt F) :=
  Pipeline.withArrays spec2 c (U3 m ρ c) fun w => (dat2 (Vr3 m ρ) c).arrAt w cfg2.N
theorem U4_arr (c : Dev nD) (w : Fin cfg2.W) :
    U4 m ρ c (Proc.devRef .tc (Pipeline.arrRef spec2 w)) = (dat2 (Vr3 m ρ) c).arrAt w cfg2.N := by
  unfold U4; exact Pipeline.withArrays_arr spec2 launch2.win.arr_inj c _ _ w
theorem U4_of_ne (c : Dev nD) (b : Ref sig .tc) (hb : ∀ w, Pipeline.arrRef spec2 w ≠ b) :
    U4 m ρ c (Proc.devRef .tc b) = U3 m ρ c (Proc.devRef .tc b) := by
  unfold U4; exact Pipeline.withArrays_of_ne spec2 c _ _ b hb
/-- The same read at the TensorCore's references. -/
abbrev Vr4 : (c : Dev nD) → (b : Ref sig .tc) → Buf (Elt F) ((c : Thread nD τ).loc b) := fun c b => U4 m ρ c b
theorem hF2 (c : Dev nD) (w : Fin cfg2.W) : (dat2 (Vr3 m ρ) c).arrAt w cfg2.N = Vr4 m ρ c (Pipeline.arrRef spec2 w) :=
  (U4_arr m ρ c w).symm
theorem hrest2 (c : Dev nD) : ∀ b, b ∉ Finset.univ.image (Pipeline.arrRef spec2) → Vr4 m ρ c b = Vr3 m ρ c b :=
  fun b hb => U4_of_ne m ρ c b fun w e => hb (Finset.mem_image.mpr ⟨w, Finset.mem_univ _, e⟩)

/-! ## What each item leaves unchanged -/

theorem U1_main_arg0 (c : Dev nD) : U1 m ρ c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem U1_main_arg1 (c : Dev nD) : U1 m ρ c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem U1_main_arg2 (c : Dev nD) : U1 m ρ c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
theorem U1_main_arg3 (c : Dev nD) : U1 m ρ c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))
theorem U1_main_arg4 (c : Dev nD) : U1 m ρ c (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    exact StableHlo.devRef_ne_of_ne (by decide)))
theorem U1_main_arg5 (c : Dev nD) : U1 m ρ c (Proc.devRef .tc main_arg5) = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    exact StableHlo.devRef_ne_of_ne (by decide)))
theorem U1_main_arg6 (c : Dev nD) : U1 m ρ c (Proc.devRef .tc main_arg6) = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    exact StableHlo.devRef_ne_of_ne (by decide)))
theorem U1_main_arg7 (c : Dev nD) : U1 m ρ c (Proc.devRef .tc main_arg7) = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    exact StableHlo.devRef_ne_of_ne (by decide)))
theorem U1_main_arg8 (c : Dev nD) : U1 m ρ c (Proc.devRef .tc main_arg8) = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    exact StableHlo.devRef_ne_of_ne (by decide)))
theorem U1_main_arg9 (c : Dev nD) : U1 m ρ c (Proc.devRef .tc main_arg9) = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    exact StableHlo.devRef_ne_of_ne (by decide)))
theorem U2_main_arg0 (c : Dev nD) : U2 m ρ c (Proc.devRef .tc main_arg0) = U1 m ρ c (Proc.devRef .tc main_arg0) := U2_of_ne m ρ c main_arg0 (by decide)
theorem U2_main_arg1 (c : Dev nD) : U2 m ρ c (Proc.devRef .tc main_arg1) = U1 m ρ c (Proc.devRef .tc main_arg1) :=
  (U2_arr m ρ c 1).trans (((dat0 (Vr1 m ρ) c).arrAt_in 1 rfl _).trans (A_eq0 (Vr1 m ρ) c 1))
theorem U2_main_arg2 (c : Dev nD) : U2 m ρ c (Proc.devRef .tc main_arg2) = U1 m ρ c (Proc.devRef .tc main_arg2) :=
  (U2_arr m ρ c 2).trans (((dat0 (Vr1 m ρ) c).arrAt_in 2 rfl _).trans (A_eq0 (Vr1 m ρ) c 2))
theorem U2_main_arg3 (c : Dev nD) : U2 m ρ c (Proc.devRef .tc main_arg3) = U1 m ρ c (Proc.devRef .tc main_arg3) :=
  (U2_arr m ρ c 3).trans (((dat0 (Vr1 m ρ) c).arrAt_in 3 rfl _).trans (A_eq0 (Vr1 m ρ) c 3))
theorem U2_main_arg4 (c : Dev nD) : U2 m ρ c (Proc.devRef .tc main_arg4) = U1 m ρ c (Proc.devRef .tc main_arg4) := U2_of_ne m ρ c main_arg4 (by decide)
theorem U2_main_arg5 (c : Dev nD) : U2 m ρ c (Proc.devRef .tc main_arg5) = U1 m ρ c (Proc.devRef .tc main_arg5) := U2_of_ne m ρ c main_arg5 (by decide)
theorem U2_main_arg6 (c : Dev nD) : U2 m ρ c (Proc.devRef .tc main_arg6) = U1 m ρ c (Proc.devRef .tc main_arg6) := U2_of_ne m ρ c main_arg6 (by decide)
theorem U2_main_arg7 (c : Dev nD) : U2 m ρ c (Proc.devRef .tc main_arg7) = U1 m ρ c (Proc.devRef .tc main_arg7) := U2_of_ne m ρ c main_arg7 (by decide)
theorem U2_main_arg8 (c : Dev nD) : U2 m ρ c (Proc.devRef .tc main_arg8) = U1 m ρ c (Proc.devRef .tc main_arg8) := U2_of_ne m ρ c main_arg8 (by decide)
theorem U2_main_arg9 (c : Dev nD) : U2 m ρ c (Proc.devRef .tc main_arg9) = U1 m ρ c (Proc.devRef .tc main_arg9) := U2_of_ne m ρ c main_arg9 (by decide)
theorem U2_main_v0 (c : Dev nD) : U2 m ρ c (Proc.devRef .tc main_v0) = U1 m ρ c (Proc.devRef .tc main_v0) :=
  (U2_arr m ρ c 0).trans (((dat0 (Vr1 m ρ) c).arrAt_in 0 rfl _).trans (A_eq0 (Vr1 m ρ) c 0))
theorem U2_main_v2 (c : Dev nD) : U2 m ρ c (Proc.devRef .tc main_v2) = U1 m ρ c (Proc.devRef .tc main_v2) := U2_of_ne m ρ c main_v2 (by decide)
theorem U3_main_arg0 (c : Dev nD) : U3 m ρ c (Proc.devRef .tc main_arg0) = U2 m ρ c (Proc.devRef .tc main_arg0) := U3_of_ne m ρ c main_arg0 (by decide)
theorem U3_main_arg1 (c : Dev nD) : U3 m ρ c (Proc.devRef .tc main_arg1) = U2 m ρ c (Proc.devRef .tc main_arg1) := U3_of_ne m ρ c main_arg1 (by decide)
theorem U3_main_arg2 (c : Dev nD) : U3 m ρ c (Proc.devRef .tc main_arg2) = U2 m ρ c (Proc.devRef .tc main_arg2) := U3_of_ne m ρ c main_arg2 (by decide)
theorem U3_main_arg3 (c : Dev nD) : U3 m ρ c (Proc.devRef .tc main_arg3) = U2 m ρ c (Proc.devRef .tc main_arg3) := U3_of_ne m ρ c main_arg3 (by decide)
theorem U3_main_arg4 (c : Dev nD) : U3 m ρ c (Proc.devRef .tc main_arg4) = U2 m ρ c (Proc.devRef .tc main_arg4) := U3_of_ne m ρ c main_arg4 (by decide)
theorem U3_main_arg5 (c : Dev nD) : U3 m ρ c (Proc.devRef .tc main_arg5) = U2 m ρ c (Proc.devRef .tc main_arg5) := U3_of_ne m ρ c main_arg5 (by decide)
theorem U3_main_arg6 (c : Dev nD) : U3 m ρ c (Proc.devRef .tc main_arg6) = U2 m ρ c (Proc.devRef .tc main_arg6) := U3_of_ne m ρ c main_arg6 (by decide)
theorem U3_main_arg7 (c : Dev nD) : U3 m ρ c (Proc.devRef .tc main_arg7) = U2 m ρ c (Proc.devRef .tc main_arg7) :=
  (U3_arr m ρ c 1).trans (((dat1 (Vr2 m ρ) c).arrAt_in 1 rfl _).trans (A_eq1 (Vr2 m ρ) c 1))
theorem U3_main_arg8 (c : Dev nD) : U3 m ρ c (Proc.devRef .tc main_arg8) = U2 m ρ c (Proc.devRef .tc main_arg8) :=
  (U3_arr m ρ c 2).trans (((dat1 (Vr2 m ρ) c).arrAt_in 2 rfl _).trans (A_eq1 (Vr2 m ρ) c 2))
theorem U3_main_arg9 (c : Dev nD) : U3 m ρ c (Proc.devRef .tc main_arg9) = U2 m ρ c (Proc.devRef .tc main_arg9) :=
  (U3_arr m ρ c 3).trans (((dat1 (Vr2 m ρ) c).arrAt_in 3 rfl _).trans (A_eq1 (Vr2 m ρ) c 3))
theorem U3_main_v0 (c : Dev nD) : U3 m ρ c (Proc.devRef .tc main_v0) = U2 m ρ c (Proc.devRef .tc main_v0) :=
  (U3_arr m ρ c 0).trans (((dat1 (Vr2 m ρ) c).arrAt_in 0 rfl _).trans (A_eq1 (Vr2 m ρ) c 0))
theorem U3_main_v1 (c : Dev nD) : U3 m ρ c (Proc.devRef .tc main_v1) = U2 m ρ c (Proc.devRef .tc main_v1) :=
  (U3_arr m ρ c 4).trans (((dat1 (Vr2 m ρ) c).arrAt_in 4 rfl _).trans (A_eq1 (Vr2 m ρ) c 4))
theorem U4_main_arg0 (c : Dev nD) : U4 m ρ c (Proc.devRef .tc main_arg0) = U3 m ρ c (Proc.devRef .tc main_arg0) := U4_of_ne m ρ c main_arg0 (by decide)
theorem U4_main_arg1 (c : Dev nD) : U4 m ρ c (Proc.devRef .tc main_arg1) = U3 m ρ c (Proc.devRef .tc main_arg1) := U4_of_ne m ρ c main_arg1 (by decide)
theorem U4_main_arg2 (c : Dev nD) : U4 m ρ c (Proc.devRef .tc main_arg2) = U3 m ρ c (Proc.devRef .tc main_arg2) := U4_of_ne m ρ c main_arg2 (by decide)
theorem U4_main_arg3 (c : Dev nD) : U4 m ρ c (Proc.devRef .tc main_arg3) = U3 m ρ c (Proc.devRef .tc main_arg3) := U4_of_ne m ρ c main_arg3 (by decide)
theorem U4_main_arg4 (c : Dev nD) : U4 m ρ c (Proc.devRef .tc main_arg4) = U3 m ρ c (Proc.devRef .tc main_arg4) :=
  (U4_arr m ρ c 1).trans (((dat2 (Vr3 m ρ) c).arrAt_in 1 rfl _).trans (A_eq2 (Vr3 m ρ) c 1))
theorem U4_main_arg5 (c : Dev nD) : U4 m ρ c (Proc.devRef .tc main_arg5) = U3 m ρ c (Proc.devRef .tc main_arg5) :=
  (U4_arr m ρ c 2).trans (((dat2 (Vr3 m ρ) c).arrAt_in 2 rfl _).trans (A_eq2 (Vr3 m ρ) c 2))
theorem U4_main_arg6 (c : Dev nD) : U4 m ρ c (Proc.devRef .tc main_arg6) = U3 m ρ c (Proc.devRef .tc main_arg6) :=
  (U4_arr m ρ c 3).trans (((dat2 (Vr3 m ρ) c).arrAt_in 3 rfl _).trans (A_eq2 (Vr3 m ρ) c 3))
theorem U4_main_arg7 (c : Dev nD) : U4 m ρ c (Proc.devRef .tc main_arg7) = U3 m ρ c (Proc.devRef .tc main_arg7) := U4_of_ne m ρ c main_arg7 (by decide)
theorem U4_main_arg8 (c : Dev nD) : U4 m ρ c (Proc.devRef .tc main_arg8) = U3 m ρ c (Proc.devRef .tc main_arg8) := U4_of_ne m ρ c main_arg8 (by decide)
theorem U4_main_arg9 (c : Dev nD) : U4 m ρ c (Proc.devRef .tc main_arg9) = U3 m ρ c (Proc.devRef .tc main_arg9) := U4_of_ne m ρ c main_arg9 (by decide)
theorem U4_main_v0 (c : Dev nD) : U4 m ρ c (Proc.devRef .tc main_v0) = U3 m ρ c (Proc.devRef .tc main_v0) := U4_of_ne m ρ c main_v0 (by decide)
theorem U4_main_v1 (c : Dev nD) : U4 m ρ c (Proc.devRef .tc main_v1) = U3 m ρ c (Proc.devRef .tc main_v1) := U4_of_ne m ρ c main_v1 (by decide)
theorem U4_main_v2 (c : Dev nD) : U4 m ρ c (Proc.devRef .tc main_v2) = U3 m ρ c (Proc.devRef .tc main_v2) :=
  (U4_arr m ρ c 0).trans (((dat2 (Vr3 m ρ) c).arrAt_in 0 rfl _).trans (A_eq2 (Vr3 m ρ) c 0))
theorem U4_end_main_arg0 (c : Dev nD) : U4 m ρ c (Proc.devRef .tc main_arg0) = m ((c : Thread nD τ).loc main_arg0) :=
  (U4_main_arg0 m ρ c).trans ((U3_main_arg0 m ρ c).trans ((U2_main_arg0 m ρ c).trans (U1_main_arg0 m ρ c)))
theorem U4_end_main_arg1 (c : Dev nD) : U4 m ρ c (Proc.devRef .tc main_arg1) = m ((c : Thread nD τ).loc main_arg1) :=
  (U4_main_arg1 m ρ c).trans ((U3_main_arg1 m ρ c).trans ((U2_main_arg1 m ρ c).trans (U1_main_arg1 m ρ c)))
theorem U4_end_main_arg2 (c : Dev nD) : U4 m ρ c (Proc.devRef .tc main_arg2) = m ((c : Thread nD τ).loc main_arg2) :=
  (U4_main_arg2 m ρ c).trans ((U3_main_arg2 m ρ c).trans ((U2_main_arg2 m ρ c).trans (U1_main_arg2 m ρ c)))
theorem U4_end_main_arg3 (c : Dev nD) : U4 m ρ c (Proc.devRef .tc main_arg3) = m ((c : Thread nD τ).loc main_arg3) :=
  (U4_main_arg3 m ρ c).trans ((U3_main_arg3 m ρ c).trans ((U2_main_arg3 m ρ c).trans (U1_main_arg3 m ρ c)))
theorem U4_end_main_arg4 (c : Dev nD) : U4 m ρ c (Proc.devRef .tc main_arg4) = m ((c : Thread nD τ).loc main_arg4) :=
  (U4_main_arg4 m ρ c).trans ((U3_main_arg4 m ρ c).trans ((U2_main_arg4 m ρ c).trans (U1_main_arg4 m ρ c)))
theorem U4_end_main_arg5 (c : Dev nD) : U4 m ρ c (Proc.devRef .tc main_arg5) = m ((c : Thread nD τ).loc main_arg5) :=
  (U4_main_arg5 m ρ c).trans ((U3_main_arg5 m ρ c).trans ((U2_main_arg5 m ρ c).trans (U1_main_arg5 m ρ c)))
theorem U4_end_main_arg6 (c : Dev nD) : U4 m ρ c (Proc.devRef .tc main_arg6) = m ((c : Thread nD τ).loc main_arg6) :=
  (U4_main_arg6 m ρ c).trans ((U3_main_arg6 m ρ c).trans ((U2_main_arg6 m ρ c).trans (U1_main_arg6 m ρ c)))
theorem U4_end_main_arg7 (c : Dev nD) : U4 m ρ c (Proc.devRef .tc main_arg7) = m ((c : Thread nD τ).loc main_arg7) :=
  (U4_main_arg7 m ρ c).trans ((U3_main_arg7 m ρ c).trans ((U2_main_arg7 m ρ c).trans (U1_main_arg7 m ρ c)))
theorem U4_end_main_arg8 (c : Dev nD) : U4 m ρ c (Proc.devRef .tc main_arg8) = m ((c : Thread nD τ).loc main_arg8) :=
  (U4_main_arg8 m ρ c).trans ((U3_main_arg8 m ρ c).trans ((U2_main_arg8 m ρ c).trans (U1_main_arg8 m ρ c)))
theorem U4_end_main_arg9 (c : Dev nD) : U4 m ρ c (Proc.devRef .tc main_arg9) = m ((c : Thread nD τ).loc main_arg9) :=
  (U4_main_arg9 m ρ c).trans ((U3_main_arg9 m ρ c).trans ((U2_main_arg9 m ρ c).trans (U1_main_arg9 m ρ c)))

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- REGION 0 over the thread state: entered from every unscoped buffer at `U1`, left at `U2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `U2`, left at `U3`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(StableHlo.held (c : Thread nD τ) (Pipeline.ucRefs τ sig) (U3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `U3`, left at `U4`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (U3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hin2 (Vr3 m ρ) c)
  hout c := (hout2 (Vr3 m ρ) c).trans (show Pipeline.ΦA spec2 c ⊢ _ from by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (U0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = U4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 (by decide)).trans (U4_end_main_arg0 m ρ c),
    (h c main_arg1 (by decide)).trans (U4_end_main_arg1 m ρ c),
    (h c main_arg2 (by decide)).trans (U4_end_main_arg2 m ρ c),
    (h c main_arg3 (by decide)).trans (U4_end_main_arg3 m ρ c),
    (h c main_arg4 (by decide)).trans (U4_end_main_arg4 m ρ c),
    (h c main_arg5 (by decide)).trans (U4_end_main_arg5 m ρ c),
    (h c main_arg6 (by decide)).trans (U4_end_main_arg6 m ρ c),
    (h c main_arg7 (by decide)).trans (U4_end_main_arg7 m ρ c),
    (h c main_arg8 (by decide)).trans (U4_end_main_arg8 m ρ c),
    (h c main_arg9 (by decide)).trans (U4_end_main_arg9 m ρ c)⟩) (run_all m ρ)

end Cert.Kernel.Hand

end
-- ==== Proof.KI.Run0.lean ====
/- The gate projection's kernel body, run once on whole staging buffers: the four input blocks are read (the activations and the integer weights in four column strips of 1024, the scale and zero tables likewise), the output block is overwritten by one whole store. The list of pieces the output buffer ends with is the run's witness. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The gate kernel's body on whole staging buffers: inputs at given contents, the output buffer at anything; it ends with the
    inputs as they were and the output buffer overwritten by the pieces `L4` (last store first). -/
noncomputable def kernelRun0 (c : Dev nD) (i : grid0.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .f32) (harg5 : arg5.IsWhole)
    (x0 : Vec F S512x4096 .bf16) (x1 : Vec F S512x4096 .i32) (x2 : Vec F S8x4096 .f32) (x3 : Vec F S8x4096 .f32) :
    { L4 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc0__gate_kernel i arg1 harg1 arg2 harg2 arg3 harg3 arg4 harg4 arg5 harg5) K } := by
  refine ⟨?_, fun E K => ?run⟩
  case run =>
    simp only [cc0__gate_kernel_eq_skeleton]; unfold cc0__gate_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Data0.lean ====
/- The gate projection's region: its windows' blocks, what the body leaves in the output block, the proof data and the body obligation, at any contents the region may be entered from. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import proofs.«180202_j18279380812578_1_alg».proof.Proof.KI.Run0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the index has not
    moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers at a point -/

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
/-- One staging buffer of the output window, through which its contents are stated. -/
abbrev VO0_4 : View sig .tc .vmem S512x512 .f32 := (Memref.whole cc0_stg4_0 : Memref sig .tc .vmem S512x512 .f32).view

/-! ## What the body leaves in the output window's buffer -/

/-- The run's pieces tile the output block (one whole store), so they cover it. -/
theorem cover0_4 (c : Dev nD) (i : grid0.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole)
    (x0 : Vec F S512x4096 .bf16) (x1 : Vec F S512x4096 .i32) (x2 : Vec F S8x4096 .f32) (x3 : Vec F S8x4096 .f32) (y : S512x512.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1 S512x512.size (by sl_kernel_rfl) y

/-- The output block the body leaves: the run's pieces read back. -/
def out0_4 (c : Dev nD) (i : grid0.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole)
    (x0 : Vec F S512x4096 .bf16) (x1 : Vec F S512x4096 .i32) (x2 : Vec F S8x4096 .f32) (x3 : Vec F S8x4096 .f32) : Vec F S512x512 .f32 :=
  VO0_4.read (Elt F) (VO0_4.writes (Elt F) VO0_4.junk (kernelRun0 c i arg1 harg1 arg2 harg2 arg3 harg3 arg4 harg4 arg5 harg5 x0 x1 x2 x3).1)

/-! ## The proof data -/

/-- The region's proof data on core `c`: the arrays as the region finds them; after the body at point `t` each input buffer
    holds its block and the output buffer what the run leaves of the input blocks; the invariant is the untouched scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body at any point: the input buffers hold their blocks, so the run applies; the invariant and the core's dues pass
    through unread; the output buffer ends at the run's pieces, which cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Run1.lean ====
/- The up projection's kernel body with the gating, run once on whole staging buffers: the activations, the integer weights and their scale and zero tables are read in four column strips, the gate block is read whole, and the output block is overwritten by one whole store. The list of pieces the output buffer ends with is the run's witness. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The up-and-combine kernel's body on whole staging buffers: inputs at given contents, the output buffer at anything; it ends
    with the inputs as they were and the output buffer overwritten by the pieces `L5` (last store first). -/
noncomputable def kernelRun1 (c : Dev nD) (i : grid1.Coords)
    (arg1 : Memref sig .tc .vmem S512x4096 .bf16) (harg1 : arg1.IsWhole) (arg2 : Memref sig .tc .vmem S512x4096 .i32) (harg2 : arg2.IsWhole)
    (arg3 : Memref sig .tc .vmem S8x4096 .f32) (harg3 : arg3.IsWhole) (arg4 : Memref sig .tc .vmem S8x4096 .f32) (harg4 : arg4.IsWhole)
    (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) :
    { L5 : List (View.Piece (Elt F) S512x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__up_combine_kernel i arg1 harg1 arg2 harg2 arg3 harg3 arg4 harg4 arg5 harg5 arg6 harg6) K } := by
  refine ⟨?_, fun E K => ?run⟩
  case run =>
    simp only [cc1__up_combine_kernel_eq_skeleton]; unfold cc1__up_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Hand

end
-- ==== Proof.KI.Data1.lean ====
/- The up projection and gating region: its windows' blocks, what the body leaves in the output block, the proof data and the body obligation, at any contents the region may be entered from. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import proofs.«180202_j18279380812578_1_alg».proof.Proof.KI.Run1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the index has not
    moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point -/

abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
/-- One staging buffer of the output window, through which its contents are stated. -/
abbrev VO1_5 : View sig .tc .vmem S512x512 .bf16 := (Memref.whole cc1_stg5_0 : Memref sig .tc .vmem S512x512 .bf16).view

/-! ## What the body leaves in the output window's buffer -/

/-- The run's pieces tile the output block (one whole store), so they cover it. -/
theorem cover1_5 (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) (y : S512x512.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S512x512.size (by sl_kernel_rfl) y

/-- The output block the body leaves: the run's pieces read back. -/
def out1_5 (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) : Vec F S512x512 .bf16 :=
  VO1_5.read (Elt F) (VO1_5.writes (Elt F) VO1_5.junk (kernelRun1 c i arg1 harg1 arg2 harg2 arg3 harg3 arg4 harg4 arg5 harg5 arg6 harg6 x0 x1 x2 x3 x4).1)

/-! ## The proof data -/

/-- The region's proof data on core `c`: the arrays as the region finds them; after the body at point `t` each input buffer
    holds its block and the output buffer what the run leaves of the input blocks; the invariant is the untouched scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the input buffers hold their blocks, so the run applies; the invariant and the core's dues pass
    through unread; the output buffer ends at the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run2.lean ====
/- The down projection's kernel body, run once on whole staging buffers, in each of the three control cases its two conditionals meet on the grid: the first reduction step of an output block (the accumulator is zeroed, then the step's partial product is added), a middle step (the partial product is added to what the step before left), and the last step (the same, then the accumulator is copied to the output block). The accumulator is a scratch buffer carried from point to point. Also here: the two conditions decided over the grid, and where the output window is idle. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first conditional: the reduction coordinate is zero. -/
abbrev cond2_0 (i : grid2.Coords) : Prop := (Scalar.cmpi .ne (Scalar.extui (Scalar.cmpi .eq (BitVec.ofNat 32 (i 1).val) 0#32)) 0#32) = 1#1
/-- It holds at the points ≡ 0 (mod 7): the first of each output block's seven reduction steps. -/
theorem hcond2_0 : ∀ t : Fin cfg2.N, cond2_0 (grid2.coords t) ↔ t.val % 7 = 0 :=
  (by decide +kernel : ∀ t : Fin grid2.N, cond2_0 (grid2.coords t) ↔ t.val % 7 = 0)
/-- The second conditional: the reduction coordinate is the last. -/
abbrev cond2_1 (i : grid2.Coords) : Prop := k2_cond2 i = 1#1
/-- It holds at the points ≡ 6 (mod 7). -/
theorem hcond2_1 : ∀ t : Fin cfg2.N, cond2_1 (grid2.coords t) ↔ t.val % 7 = 6 :=
  (by decide +kernel : ∀ t : Fin grid2.N, cond2_1 (grid2.coords t) ↔ t.val % 7 = 6)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second conditional fails the output window is idle (nothing is stored into it) and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- Where it holds the window is live. -/
theorem liveAt2_4 : ∀ t : Fin cfg2.N, cond2_1 (grid2.coords t) → cfg2.idle 4 (grid2.coords t) = false := by decide +kernel

/-! ## The three runs -/

set_option maxHeartbeats 4000000 in
/-- FIRST STEP (the first conditional taken, the second not): the accumulator, found at anything, ends overwritten by the
    pieces `LS`; the output buffer is handed back untouched. -/
noncomputable def kernelRun2_A (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : cond2_0 i) (hc1 : ¬cond2_1 i)
    (x0 : Vec F S512x2048 .bf16) (x1 : Vec F S512x2048 .i32) (x2 : Vec F S8x2048 .f32) (x3 : Vec F S8x2048 .f32) :
    { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- MIDDLE STEP (neither conditional taken): the accumulator, found at `xs`, ends overwritten by the pieces `LS`; the output
    buffer is handed back untouched. -/
noncomputable def kernelRun2_B (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : ¬cond2_0 i) (hc1 : ¬cond2_1 i)
    (x0 : Vec F S512x2048 .bf16) (x1 : Vec F S512x2048 .i32) (x2 : Vec F S8x2048 .f32) (x3 : Vec F S8x2048 .f32) (xs : Vec F S512x512 .f32) :
    { LS : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, fun xi4 E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- LAST STEP (the first conditional not taken, the second taken): the accumulator, found at `xs`, ends overwritten by the
    pieces `LS`, and the output buffer, found at anything, by the pieces `L4`. -/
noncomputable def kernelRun2_C (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole) (hc0 : ¬cond2_0 i) (hc1 : cond2_1 i)
    (x0 : Vec F S512x2048 .bf16) (x1 : Vec F S512x2048 .i32) (x2 : Vec F S8x2048 .f32) (x3 : Vec F S8x2048 .f32) (xs : Vec F S512x512 .f32) :
    Σ' (L4 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc2__down_kernel i arg2 harg2 arg3 harg3 arg4 harg4 arg5 harg5 arg6 harg6 arg7 harg7) K } := by
  refine ⟨?_, ?_, fun E K => ?run⟩
  case run =>
    simp only [cc2__down_kernel_eq_skeleton]; unfold cc2__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Data2.lean ====
/- The down projection's region: its windows' blocks; what each of the three control cases leaves in the accumulator and in the output block; what they hold point by point along the grid (the accumulation over the seven reduction steps of an output block); the invariant carrying the accumulator from point to point; the proof data and the body obligation — at any contents the region may be entered from. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import proofs.«180202_j18279380812578_1_alg».proof.Proof.KI.Run2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of the core's buffers: the parameter this region's proof data are stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers at a point, and the accumulator -/

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
/-- One staging buffer of the output window, through which its contents are stated. -/
abbrev VO2_4 : View sig .tc .vmem S512x512 .f32 := (Memref.whole cc2_stg4_0 : Memref sig .tc .vmem S512x512 .f32).view
/-- The accumulator: a whole scoped buffer of the kernel's own, passed beside the windows. -/
abbrev scM2 : Memref sig .tc .vmem S512x512 .f32 := Memref.whole cc2_scratch0
abbrev VS2 : View sig .tc .vmem S512x512 .f32 := scM2.view

/-- The core's scoped buffers other than this call's staging buffers, split at the accumulator: the accumulator whole at some
    contents, every other one (the other calls' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What rides along untouched through this region: every scoped buffer that is neither a staging buffer of this call nor the
    accumulator. -/
abbrev rest2 (c : Dev nD) : sProp 𝕄 :=
  Pipeline.scopedRestBut (Ix := Unit) (Name := ℕ) (U := UR sig nD τ) (Lvl := ℕ) (Val := Elt F) spec2 c [cc2_scratch0]

/-- The region's plain invariant with the accumulator as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-! ## The three cases at a point of the grid -/

/-- The first-step run at a point `t` ≡ 0 (mod 7), on the point's staging buffers and input blocks. -/
abbrev runA (c : Dev nD) (t : Fin cfg2.N) (h0 : t.val % 7 = 0) (h1 : ¬t.val % 7 = 6) :=
  kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)
/-- The middle-step run at a point `t` with residue 1 to 5, the accumulator found at `xs`. -/
abbrev runB (c : Dev nD) (t : Fin cfg2.N) (h0 : ¬t.val % 7 = 0) (h1 : ¬t.val % 7 = 6) (xs : Vec F S512x512 .f32) :=
  kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs
/-- The last-step run at a point `t` ≡ 6 (mod 7), the accumulator found at `xs`. -/
abbrev runC (c : Dev nD) (t : Fin cfg2.N) (h0 : ¬t.val % 7 = 0) (h1 : t.val % 7 = 6) (xs : Vec F S512x512 .f32) :=
  kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs

/-- Each case's pieces for the accumulator tile it, so they cover it. -/
theorem scover2_A (c : Dev nD) (t : Fin cfg2.N) (h0 : t.val % 7 = 0) (h1 : ¬t.val % 7 = 6) (y : S512x512.Idx) :
    ∃ pc ∈ (runA V c t h0 h1).1, y ∈ pc.1.set :=
  View.cover_of_tiledL (runA V c t h0 h1).1 S512x512.size (by sl_kernel_rfl) y
theorem scover2_B (c : Dev nD) (t : Fin cfg2.N) (h0 : ¬t.val % 7 = 0) (h1 : ¬t.val % 7 = 6) (xs : Vec F S512x512 .f32) (y : S512x512.Idx) :
    ∃ pc ∈ (runB V c t h0 h1 xs).1, y ∈ pc.1.set :=
  View.cover_of_tiledL (runB V c t h0 h1 xs).1 S512x512.size (by sl_kernel_rfl) y
theorem scover2_C (c : Dev nD) (t : Fin cfg2.N) (h0 : ¬t.val % 7 = 0) (h1 : t.val % 7 = 6) (xs : Vec F S512x512 .f32) (y : S512x512.Idx) :
    ∃ pc ∈ (runC V c t h0 h1 xs).2.1, y ∈ pc.1.set :=
  View.cover_of_tiledL (runC V c t h0 h1 xs).2.1 S512x512.size (by sl_kernel_rfl) y
/-- The last step's pieces for the output block tile it. -/
theorem cover2_C_4 (c : Dev nD) (t : Fin cfg2.N) (h0 : ¬t.val % 7 = 0) (h1 : t.val % 7 = 6) (xs : Vec F S512x512 .f32) (y : S512x512.Idx) :
    ∃ pc ∈ (runC V c t h0 h1 xs).1, y ∈ pc.1.set :=
  View.cover_of_tiledL (runC V c t h0 h1 xs).1 S512x512.size (by sl_kernel_rfl) y

/-- What each case leaves in the accumulator: its pieces read back. -/
def soutA (c : Dev nD) (t : Fin cfg2.N) (h0 : t.val % 7 = 0) (h1 : ¬t.val % 7 = 6) : Vec F S512x512 .f32 :=
  VS2.read (Elt F) (VS2.writes (Elt F) VS2.junk (runA V c t h0 h1).1)
def soutB (c : Dev nD) (t : Fin cfg2.N) (h0 : ¬t.val % 7 = 0) (h1 : ¬t.val % 7 = 6) (xs : Vec F S512x512 .f32) : Vec F S512x512 .f32 :=
  VS2.read (Elt F) (VS2.writes (Elt F) VS2.junk (runB V c t h0 h1 xs).1)
def soutC (c : Dev nD) (t : Fin cfg2.N) (h0 : ¬t.val % 7 = 0) (h1 : t.val % 7 = 6) (xs : Vec F S512x512 .f32) : Vec F S512x512 .f32 :=
  VS2.read (Elt F) (VS2.writes (Elt F) VS2.junk (runC V c t h0 h1 xs).2.1)
/-- What the last step leaves in the output block. -/
def outC (c : Dev nD) (t : Fin cfg2.N) (h0 : ¬t.val % 7 = 0) (h1 : t.val % 7 = 6) (xs : Vec F S512x512 .f32) : Vec F S512x512 .f32 :=
  VO2_4.read (Elt F) (VO2_4.writes (Elt F) VO2_4.junk (runC V c t h0 h1 xs).1)
/-- At a point that stores nothing into the output block: a placeholder nothing consults (the window is idle there and is not
    written back). -/
def outIdle : Vec F S512x512 .f32 :=
  VO2_4.read (Elt F) (VO2_4.writes (Elt F) VO2_4.junk ([] : List (View.Piece (Elt F) S512x512 .f32)))

/-! ## What the output block and the accumulator hold after each point -/

/-- THE ACCUMULATION: the pair (output block, accumulator) after the body at position `n`: the case the residue of `n` modulo 7
    selects, the accumulator it finds being what position `n - 1` left. -/
def outsAt2 (c : Dev nD) : (n : ℕ) → n < cfg2.N → Vec F S512x512 .f32 × Vec F S512x512 .f32
  | 0, hn => (outIdle, soutA V c ⟨0, hn⟩ (Nat.zero_mod _) (by show ¬(0 % 7 = 6); decide))
  | n + 1, hn =>
    if h0 : (n + 1) % 7 = 0 then
      if h1 : (n + 1) % 7 = 6 then False.elim (by omega)
      else (outIdle, soutA V c ⟨n + 1, hn⟩ h0 h1)
    else
      if h1 : (n + 1) % 7 = 6 then
        (outC V c ⟨n + 1, hn⟩ h0 h1 (outsAt2 c n (Nat.lt_of_succ_lt hn)).2, soutC V c ⟨n + 1, hn⟩ h0 h1 (outsAt2 c n (Nat.lt_of_succ_lt hn)).2)
      else
        (outIdle, soutB V c ⟨n + 1, hn⟩ h0 h1 (outsAt2 c n (Nat.lt_of_succ_lt hn)).2)

theorem outsAt2_A (c : Dev nD) (t : Fin cfg2.N) (h0 : t.val % 7 = 0) (h1 : ¬t.val % 7 = 6) :
    outsAt2 V c t.val t.isLt = (outIdle, soutA V c t h0 h1) := by
  obtain ⟨n, hn⟩ := t
  cases n with
  | zero => exact rfl
  | succ n => exact (dif_pos h0).trans ((dif_neg h1).trans rfl)

theorem outsAt2_B (c : Dev nD) (t : Fin cfg2.N) (h0 : ¬t.val % 7 = 0) (h1 : ¬t.val % 7 = 6) :
    outsAt2 V c t.val t.isLt = (outIdle, soutB V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 7 = 0) (h1 : t.val % 7 = 6) :
    outsAt2 V c t.val t.isLt = (outC V c t h0 h1 (outsAt2 V c (t.val - 1) (Nat.lt_of_le_of_lt (Nat.sub_le _ _) t.isLt)).2,
      soutC V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carrying the accumulator -/

/-- Before position `n`: at the start the plain invariant (the accumulator at anything); afterwards the accumulator at what
    the position before left, the other scoped buffers untouched, the generator register at some state. -/
def PhiS (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM2 fullShare ((outsAt2 V c n hn).2) ∗ rest2 c) ∗ (∃ r, prngReg c r)) := rfl
theorem PhiS_pos (c : Dev nD) (n : ℕ) (h : n ≤ cfg2.N) (hz : n ≠ 0) :
    PhiS V c n h = iprop(iprop(owns (c : Thread nD τ) scM2 fullShare ((outsAt2 V c (n - 1) (by omega)).2) ∗ rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 6400000 in
/-- The body at any point: the input buffers hold their blocks; the residue of the point modulo 7 says which case it is in;
    the invariant hands the body the accumulator at what the point before left (at anything at the very first point, and a first
    step does not read it before zeroing it), and takes it back at this point's contents; where nothing is stored into the
    output block its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 56 := lt_of_lt_of_eq t.isLt (show cfg2.N = 56 from N_2)
  by_cases h0 : t.val % 7 = 0
  · have h1 : ¬t.val % 7 = 6 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold soutA; (try dsimp only)
    by_cases hz : t.val = 0
    · rw [PhiS_castSucc V c t, PhiS_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩⟩
      iapply ((runA V c t h0 h1).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_A V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runA V c t h0 h1).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_A V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 7 = 6
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold outC soutC; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg Hrest]
      · isplitl [HS Hrest]
        · isplitl [HS]
          · unfold owns; iexists _; isplitr
            swap; · iexact HS
            ipureintro; exact View.read_writes_of_cover _ _ _ _ _ (scover2_C V c t h0 h1 _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 V c t h0 h1 _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold soutB; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runB V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg Hrest]
      · isplitl [HS Hrest]
        · isplitl [HS]
          · unfold owns; iexists _; isplitr
            swap; · iexact HS
            ipureintro; exact View.read_writes_of_cover _ _ _ _ _ (scover2_B V c t h0 h1 _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 56 := N_2; omega), PhiA2_eq]
  iintro ⟨⟨HS, Hrest⟩, Hg⟩
  isplitl [HS Hrest]
  · isplitl [HS]
    · iexists _; iexact HS
    iexact Hrest
  iexact Hg

end Cert.KernelIdeal.Hand

end
-- ==== Proof.KI.Main.lean ====
/- The whole program's run: the contents of the core's buffers at each boundary between the program's items (the cast of the activations on the host, then the three kernel regions), each region's proof data at the contents it is entered from, each region as a segment of the run, and the run itself: every weakly fair execution terminates, faults nowhere, and ends with every unscoped buffer at the last boundary's contents. Read at the argument arrays this is the frame; read at the result array it names what the program computes. -/
import proofs.«180202_j18279380812578_1_alg».proof.Proof.Gen.KernelIdeal.Launch
import proofs.«180202_j18279380812578_1_alg».proof.Proof.Gen.KernelIdeal.Skeleton
import proofs.«180202_j18279380812578_1_alg».proof.Proof.Gen.KernelIdeal.Points
import proofs.«180202_j18279380812578_1_alg».proof.Proof.KI.Data0
import proofs.«180202_j18279380812578_1_alg».proof.Proof.KI.Data1
import proofs.«180202_j18279380812578_1_alg».proof.Proof.KI.Data2
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev U0 : Dev nD → Valuation τ sig (Elt F) := fun c b => (s₀ m ρ).mem ((c : Dev nD), b)
/-- After the host's cast of the activations (region 0's entry). -/
abbrev U1 : Dev nD → Valuation τ sig (Elt F) := fun c => StableHlo.after hostOps0 (U0 m ρ c)
abbrev Vr1 : (c : Dev nD) → (b : Ref sig .tc) → Buf (Elt F) ((c : Thread nD τ).loc b) := fun c b => U1 m ρ c b
/-- At region 0's exit: its arrays at what the pipeline leaves (the inputs as entered, the output's write-backs folded in),
    every other buffer as entered. -/
def U2 (c : Dev nD) : Valuation τ sig (Elt F) :=
  Pipeline.withArrays spec0 c (U1 m ρ c) fun w => (dat0 (Vr1 m ρ) c).arrAt w cfg0.N
theorem U2_arr (c : Dev nD) (w : Fin cfg0.W) :
    U2 m ρ c (Proc.devRef .tc (Pipeline.arrRef spec0 w)) = (dat0 (Vr1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the TensorCore's references. -/
abbrev Vr2 : (c : Dev nD) → (b : Ref sig .tc) → Buf (Elt F) ((c : Thread nD τ).loc b) := fun c b => U2 m ρ c b
theorem hF0 (c : Dev nD) (w : Fin cfg0.W) : (dat0 (Vr1 m ρ) c).arrAt w cfg0.N = Vr2 m ρ c (Pipeline.arrRef spec0 w) :=
  (U2_arr m ρ c w).symm
theorem hrest0 (c : Dev nD) : ∀ b, b ∉ Finset.univ.image (Pipeline.arrRef spec0) → Vr2 m ρ c b = Vr1 m ρ c b :=
  fun b hb => U2_of_ne m ρ c b fun w e => hb (Finset.mem_image.mpr ⟨w, Finset.mem_univ _, e⟩)

/-- At region 1's exit: its arrays at what the pipeline leaves (the inputs as entered, the output's write-backs folded in),
    every other buffer as entered. -/
def U3 (c : Dev nD) : Valuation τ sig (Elt F) :=
  Pipeline.withArrays spec1 c (U2 m ρ c) fun w => (dat1 (Vr2 m ρ) c).arrAt w cfg1.N
theorem U3_arr (c : Dev nD) (w : Fin cfg1.W) :
    U3 m ρ c (Proc.devRef .tc (Pipeline.arrRef spec1 w)) = (dat1 (Vr2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
/-- The same read at the TensorCore's references. -/
abbrev Vr3 : (c : Dev nD) → (b : Ref sig .tc) → Buf (Elt F) ((c : Thread nD τ).loc b) := fun c b => U3 m ρ c b
theorem hF1 (c : Dev nD) (w : Fin cfg1.W) : (dat1 (Vr2 m ρ) c).arrAt w cfg1.N = Vr3 m ρ c (Pipeline.arrRef spec1 w) :=
  (U3_arr m ρ c w).symm
theorem hrest1 (c : Dev nD) : ∀ b, b ∉ Finset.univ.image (Pipeline.arrRef spec1) → Vr3 m ρ c b = Vr2 m ρ c b :=
  fun b hb => U3_of_ne m ρ c b fun w e => hb (Finset.mem_image.mpr ⟨w, Finset.mem_univ _, e⟩)

/-- At region 2's exit: its arrays at what the pipeline leaves (the inputs as entered, the output's write-backs folded in),
    every other buffer as entered. -/
def U4 (c : Dev nD) : Valuation τ sig (Elt F) :=
  Pipeline.withArrays spec2 c (U3 m ρ c) fun w => (dat2 (Vr3 m ρ) c).arrAt w cfg2.N
theorem U4_arr (c : Dev nD) (w : Fin cfg2.W) :
    U4 m ρ c (Proc.devRef .tc (Pipeline.arrRef spec2 w)) = (dat2 (Vr3 m ρ) c).arrAt w cfg2.N := by
  unfold U4; exact Pipeline.withArrays_arr spec2 launch2.win.arr_inj c _ _ w
theorem U4_of_ne (c : Dev nD) (b : Ref sig .tc) (hb : ∀ w, Pipeline.arrRef spec2 w ≠ b) :
    U4 m ρ c (Proc.devRef .tc b) = U3 m ρ c (Proc.devRef .tc b) := by
  unfold U4; exact Pipeline.withArrays_of_ne spec2 c _ _ b hb
/-- The same read at the TensorCore's references. -/
abbrev Vr4 : (c : Dev nD) → (b : Ref sig .tc) → Buf (Elt F) ((c : Thread nD τ).loc b) := fun c b => U4 m ρ c b
theorem hF2 (c : Dev nD) (w : Fin cfg2.W) : (dat2 (Vr3 m ρ) c).arrAt w cfg2.N = Vr4 m ρ c (Pipeline.arrRef spec2 w) :=
  (U4_arr m ρ c w).symm
theorem hrest2 (c : Dev nD) : ∀ b, b ∉ Finset.univ.image (Pipeline.arrRef spec2) → Vr4 m ρ c b = Vr3 m ρ c b :=
  fun b hb => U4_of_ne m ρ c b fun w e => hb (Finset.mem_image.mpr ⟨w, Finset.mem_univ _, e⟩)

/-! ## What each item leaves unchanged -/

theorem U1_main_arg0 (c : Dev nD) : U1 m ρ c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem U1_main_arg1 (c : Dev nD) : U1 m ρ c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem U1_main_arg2 (c : Dev nD) : U1 m ρ c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
theorem U1_main_arg3 (c : Dev nD) : U1 m ρ c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))
theorem U1_main_arg4 (c : Dev nD) : U1 m ρ c (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    exact StableHlo.devRef_ne_of_ne (by decide)))
theorem U1_main_arg5 (c : Dev nD) : U1 m ρ c (Proc.devRef .tc main_arg5) = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    exact StableHlo.devRef_ne_of_ne (by decide)))
theorem U1_main_arg6 (c : Dev nD) : U1 m ρ c (Proc.devRef .tc main_arg6) = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    exact StableHlo.devRef_ne_of_ne (by decide)))
theorem U1_main_arg7 (c : Dev nD) : U1 m ρ c (Proc.devRef .tc main_arg7) = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    exact StableHlo.devRef_ne_of_ne (by decide)))
theorem U1_main_arg8 (c : Dev nD) : U1 m ρ c (Proc.devRef .tc main_arg8) = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    exact StableHlo.devRef_ne_of_ne (by decide)))
theorem U1_main_arg9 (c : Dev nD) : U1 m ρ c (Proc.devRef .tc main_arg9) = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    exact StableHlo.devRef_ne_of_ne (by decide)))
theorem U2_main_arg0 (c : Dev nD) : U2 m ρ c (Proc.devRef .tc main_arg0) = U1 m ρ c (Proc.devRef .tc main_arg0) := U2_of_ne m ρ c main_arg0 (by decide)
theorem U2_main_arg1 (c : Dev nD) : U2 m ρ c (Proc.devRef .tc main_arg1) = U1 m ρ c (Proc.devRef .tc main_arg1) :=
  (U2_arr m ρ c 1).trans (((dat0 (Vr1 m ρ) c).arrAt_in 1 rfl _).trans (A_eq0 (Vr1 m ρ) c 1))
theorem U2_main_arg2 (c : Dev nD) : U2 m ρ c (Proc.devRef .tc main_arg2) = U1 m ρ c (Proc.devRef .tc main_arg2) :=
  (U2_arr m ρ c 2).trans (((dat0 (Vr1 m ρ) c).arrAt_in 2 rfl _).trans (A_eq0 (Vr1 m ρ) c 2))
theorem U2_main_arg3 (c : Dev nD) : U2 m ρ c (Proc.devRef .tc main_arg3) = U1 m ρ c (Proc.devRef .tc main_arg3) :=
  (U2_arr m ρ c 3).trans (((dat0 (Vr1 m ρ) c).arrAt_in 3 rfl _).trans (A_eq0 (Vr1 m ρ) c 3))
theorem U2_main_arg4 (c : Dev nD) : U2 m ρ c (Proc.devRef .tc main_arg4) = U1 m ρ c (Proc.devRef .tc main_arg4) := U2_of_ne m ρ c main_arg4 (by decide)
theorem U2_main_arg5 (c : Dev nD) : U2 m ρ c (Proc.devRef .tc main_arg5) = U1 m ρ c (Proc.devRef .tc main_arg5) := U2_of_ne m ρ c main_arg5 (by decide)
theorem U2_main_arg6 (c : Dev nD) : U2 m ρ c (Proc.devRef .tc main_arg6) = U1 m ρ c (Proc.devRef .tc main_arg6) := U2_of_ne m ρ c main_arg6 (by decide)
theorem U2_main_arg7 (c : Dev nD) : U2 m ρ c (Proc.devRef .tc main_arg7) = U1 m ρ c (Proc.devRef .tc main_arg7) := U2_of_ne m ρ c main_arg7 (by decide)
theorem U2_main_arg8 (c : Dev nD) : U2 m ρ c (Proc.devRef .tc main_arg8) = U1 m ρ c (Proc.devRef .tc main_arg8) := U2_of_ne m ρ c main_arg8 (by decide)
theorem U2_main_arg9 (c : Dev nD) : U2 m ρ c (Proc.devRef .tc main_arg9) = U1 m ρ c (Proc.devRef .tc main_arg9) := U2_of_ne m ρ c main_arg9 (by decide)
theorem U2_main_v0 (c : Dev nD) : U2 m ρ c (Proc.devRef .tc main_v0) = U1 m ρ c (Proc.devRef .tc main_v0) :=
  (U2_arr m ρ c 0).trans (((dat0 (Vr1 m ρ) c).arrAt_in 0 rfl _).trans (A_eq0 (Vr1 m ρ) c 0))
theorem U2_main_v2 (c : Dev nD) : U2 m ρ c (Proc.devRef .tc main_v2) = U1 m ρ c (Proc.devRef .tc main_v2) := U2_of_ne m ρ c main_v2 (by decide)
theorem U3_main_arg0 (c : Dev nD) : U3 m ρ c (Proc.devRef .tc main_arg0) = U2 m ρ c (Proc.devRef .tc main_arg0) := U3_of_ne m ρ c main_arg0 (by decide)
theorem U3_main_arg1 (c : Dev nD) : U3 m ρ c (Proc.devRef .tc main_arg1) = U2 m ρ c (Proc.devRef .tc main_arg1) := U3_of_ne m ρ c main_arg1 (by decide)
theorem U3_main_arg2 (c : Dev nD) : U3 m ρ c (Proc.devRef .tc main_arg2) = U2 m ρ c (Proc.devRef .tc main_arg2) := U3_of_ne m ρ c main_arg2 (by decide)
theorem U3_main_arg3 (c : Dev nD) : U3 m ρ c (Proc.devRef .tc main_arg3) = U2 m ρ c (Proc.devRef .tc main_arg3) := U3_of_ne m ρ c main_arg3 (by decide)
theorem U3_main_arg4 (c : Dev nD) : U3 m ρ c (Proc.devRef .tc main_arg4) = U2 m ρ c (Proc.devRef .tc main_arg4) := U3_of_ne m ρ c main_arg4 (by decide)
theorem U3_main_arg5 (c : Dev nD) : U3 m ρ c (Proc.devRef .tc main_arg5) = U2 m ρ c (Proc.devRef .tc main_arg5) := U3_of_ne m ρ c main_arg5 (by decide)
theorem U3_main_arg6 (c : Dev nD) : U3 m ρ c (Proc.devRef .tc main_arg6) = U2 m ρ c (Proc.devRef .tc main_arg6) := U3_of_ne m ρ c main_arg6 (by decide)
theorem U3_main_arg7 (c : Dev nD) : U3 m ρ c (Proc.devRef .tc main_arg7) = U2 m ρ c (Proc.devRef .tc main_arg7) :=
  (U3_arr m ρ c 1).trans (((dat1 (Vr2 m ρ) c).arrAt_in 1 rfl _).trans (A_eq1 (Vr2 m ρ) c 1))
theorem U3_main_arg8 (c : Dev nD) : U3 m ρ c (Proc.devRef .tc main_arg8) = U2 m ρ c (Proc.devRef .tc main_arg8) :=
  (U3_arr m ρ c 2).trans (((dat1 (Vr2 m ρ) c).arrAt_in 2 rfl _).trans (A_eq1 (Vr2 m ρ) c 2))
theorem U3_main_arg9 (c : Dev nD) : U3 m ρ c (Proc.devRef .tc main_arg9) = U2 m ρ c (Proc.devRef .tc main_arg9) :=
  (U3_arr m ρ c 3).trans (((dat1 (Vr2 m ρ) c).arrAt_in 3 rfl _).trans (A_eq1 (Vr2 m ρ) c 3))
theorem U3_main_v0 (c : Dev nD) : U3 m ρ c (Proc.devRef .tc main_v0) = U2 m ρ c (Proc.devRef .tc main_v0) :=
  (U3_arr m ρ c 0).trans (((dat1 (Vr2 m ρ) c).arrAt_in 0 rfl _).trans (A_eq1 (Vr2 m ρ) c 0))
theorem U3_main_v1 (c : Dev nD) : U3 m ρ c (Proc.devRef .tc main_v1) = U2 m ρ c (Proc.devRef .tc main_v1) :=
  (U3_arr m ρ c 4).trans (((dat1 (Vr2 m ρ) c).arrAt_in 4 rfl _).trans (A_eq1 (Vr2 m ρ) c 4))
theorem U4_main_arg0 (c : Dev nD) : U4 m ρ c (Proc.devRef .tc main_arg0) = U3 m ρ c (Proc.devRef .tc main_arg0) := U4_of_ne m ρ c main_arg0 (by decide)
theorem U4_main_arg1 (c : Dev nD) : U4 m ρ c (Proc.devRef .tc main_arg1) = U3 m ρ c (Proc.devRef .tc main_arg1) := U4_of_ne m ρ c main_arg1 (by decide)
theorem U4_main_arg2 (c : Dev nD) : U4 m ρ c (Proc.devRef .tc main_arg2) = U3 m ρ c (Proc.devRef .tc main_arg2) := U4_of_ne m ρ c main_arg2 (by decide)
theorem U4_main_arg3 (c : Dev nD) : U4 m ρ c (Proc.devRef .tc main_arg3) = U3 m ρ c (Proc.devRef .tc main_arg3) := U4_of_ne m ρ c main_arg3 (by decide)
theorem U4_main_arg4 (c : Dev nD) : U4 m ρ c (Proc.devRef .tc main_arg4) = U3 m ρ c (Proc.devRef .tc main_arg4) :=
  (U4_arr m ρ c 1).trans (((dat2 (Vr3 m ρ) c).arrAt_in 1 rfl _).trans (A_eq2 (Vr3 m ρ) c 1))
theorem U4_main_arg5 (c : Dev nD) : U4 m ρ c (Proc.devRef .tc main_arg5) = U3 m ρ c (Proc.devRef .tc main_arg5) :=
  (U4_arr m ρ c 2).trans (((dat2 (Vr3 m ρ) c).arrAt_in 2 rfl _).trans (A_eq2 (Vr3 m ρ) c 2))
theorem U4_main_arg6 (c : Dev nD) : U4 m ρ c (Proc.devRef .tc main_arg6) = U3 m ρ c (Proc.devRef .tc main_arg6) :=
  (U4_arr m ρ c 3).trans (((dat2 (Vr3 m ρ) c).arrAt_in 3 rfl _).trans (A_eq2 (Vr3 m ρ) c 3))
theorem U4_main_arg7 (c : Dev nD) : U4 m ρ c (Proc.devRef .tc main_arg7) = U3 m ρ c (Proc.devRef .tc main_arg7) := U4_of_ne m ρ c main_arg7 (by decide)
theorem U4_main_arg8 (c : Dev nD) : U4 m ρ c (Proc.devRef .tc main_arg8) = U3 m ρ c (Proc.devRef .tc main_arg8) := U4_of_ne m ρ c main_arg8 (by decide)
theorem U4_main_arg9 (c : Dev nD) : U4 m ρ c (Proc.devRef .tc main_arg9) = U3 m ρ c (Proc.devRef .tc main_arg9) := U4_of_ne m ρ c main_arg9 (by decide)
theorem U4_main_v0 (c : Dev nD) : U4 m ρ c (Proc.devRef .tc main_v0) = U3 m ρ c (Proc.devRef .tc main_v0) := U4_of_ne m ρ c main_v0 (by decide)
theorem U4_main_v1 (c : Dev nD) : U4 m ρ c (Proc.devRef .tc main_v1) = U3 m ρ c (Proc.devRef .tc main_v1) := U4_of_ne m ρ c main_v1 (by decide)
theorem U4_main_v2 (c : Dev nD) : U4 m ρ c (Proc.devRef .tc main_v2) = U3 m ρ c (Proc.devRef .tc main_v2) :=
  (U4_arr m ρ c 0).trans (((dat2 (Vr3 m ρ) c).arrAt_in 0 rfl _).trans (A_eq2 (Vr3 m ρ) c 0))
theorem U4_end_main_arg0 (c : Dev nD) : U4 m ρ c (Proc.devRef .tc main_arg0) = m ((c : Thread nD τ).loc main_arg0) :=
  (U4_main_arg0 m ρ c).trans ((U3_main_arg0 m ρ c).trans ((U2_main_arg0 m ρ c).trans (U1_main_arg0 m ρ c)))
theorem U4_end_main_arg1 (c : Dev nD) : U4 m ρ c (Proc.devRef .tc main_arg1) = m ((c : Thread nD τ).loc main_arg1) :=
  (U4_main_arg1 m ρ c).trans ((U3_main_arg1 m ρ c).trans ((U2_main_arg1 m ρ c).trans (U1_main_arg1 m ρ c)))
theorem U4_end_main_arg2 (c : Dev nD) : U4 m ρ c (Proc.devRef .tc main_arg2) = m ((c : Thread nD τ).loc main_arg2) :=
  (U4_main_arg2 m ρ c).trans ((U3_main_arg2 m ρ c).trans ((U2_main_arg2 m ρ c).trans (U1_main_arg2 m ρ c)))
theorem U4_end_main_arg3 (c : Dev nD) : U4 m ρ c (Proc.devRef .tc main_arg3) = m ((c : Thread nD τ).loc main_arg3) :=
  (U4_main_arg3 m ρ c).trans ((U3_main_arg3 m ρ c).trans ((U2_main_arg3 m ρ c).trans (U1_main_arg3 m ρ c)))
theorem U4_end_main_arg4 (c : Dev nD) : U4 m ρ c (Proc.devRef .tc main_arg4) = m ((c : Thread nD τ).loc main_arg4) :=
  (U4_main_arg4 m ρ c).trans ((U3_main_arg4 m ρ c).trans ((U2_main_arg4 m ρ c).trans (U1_main_arg4 m ρ c)))
theorem U4_end_main_arg5 (c : Dev nD) : U4 m ρ c (Proc.devRef .tc main_arg5) = m ((c : Thread nD τ).loc main_arg5) :=
  (U4_main_arg5 m ρ c).trans ((U3_main_arg5 m ρ c).trans ((U2_main_arg5 m ρ c).trans (U1_main_arg5 m ρ c)))
theorem U4_end_main_arg6 (c : Dev nD) : U4 m ρ c (Proc.devRef .tc main_arg6) = m ((c : Thread nD τ).loc main_arg6) :=
  (U4_main_arg6 m ρ c).trans ((U3_main_arg6 m ρ c).trans ((U2_main_arg6 m ρ c).trans (U1_main_arg6 m ρ c)))
theorem U4_end_main_arg7 (c : Dev nD) : U4 m ρ c (Proc.devRef .tc main_arg7) = m ((c : Thread nD τ).loc main_arg7) :=
  (U4_main_arg7 m ρ c).trans ((U3_main_arg7 m ρ c).trans ((U2_main_arg7 m ρ c).trans (U1_main_arg7 m ρ c)))
theorem U4_end_main_arg8 (c : Dev nD) : U4 m ρ c (Proc.devRef .tc main_arg8) = m ((c : Thread nD τ).loc main_arg8) :=
  (U4_main_arg8 m ρ c).trans ((U3_main_arg8 m ρ c).trans ((U2_main_arg8 m ρ c).trans (U1_main_arg8 m ρ c)))
theorem U4_end_main_arg9 (c : Dev nD) : U4 m ρ c (Proc.devRef .tc main_arg9) = m ((c : Thread nD τ).loc main_arg9) :=
  (U4_main_arg9 m ρ c).trans ((U3_main_arg9 m ρ c).trans ((U2_main_arg9 m ρ c).trans (U1_main_arg9 m ρ c)))

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- REGION 0 over the thread state: entered from every unscoped buffer at `U1`, left at `U2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `U2`, left at `U3`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(StableHlo.held (c : Thread nD τ) (Pipeline.ucRefs τ sig) (U3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `U3`, left at `U4`. Its arrays are split out
    of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (U3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec2 c from by
    unfold Pipeline.ΦA
    iintro ⟨Hp, -, Hr⟩
    isplitl [Hr]; · iexact Hr
    iexact Hp).trans (hin2 (Vr3 m ρ) c)
  hout c := (hout2 (Vr3 m ρ) c).trans (show Pipeline.ΦA spec2 c ⊢ _ from by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (U0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = U4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c b hb => h c _ (mem_uc b hb))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 (by decide)).trans (U4_end_main_arg0 m ρ c),
    (h c main_arg1 (by decide)).trans (U4_end_main_arg1 m ρ c),
    (h c main_arg2 (by decide)).trans (U4_end_main_arg2 m ρ c),
    (h c main_arg3 (by decide)).trans (U4_end_main_arg3 m ρ c),
    (h c main_arg4 (by decide)).trans (U4_end_main_arg4 m ρ c),
    (h c main_arg5 (by decide)).trans (U4_end_main_arg5 m ρ c),
    (h c main_arg6 (by decide)).trans (U4_end_main_arg6 m ρ c),
    (h c main_arg7 (by decide)).trans (U4_end_main_arg7 m ρ c),
    (h c main_arg8 (by decide)).trans (U4_end_main_arg8 m ρ c),
    (h c main_arg9 (by decide)).trans (U4_end_main_arg9 m ρ c)⟩) (run_all m ρ)

end Cert.KernelIdeal.Hand

end
-- ==== Proof.Spec.lean ====
/- The mathematics of the kernel, stated once over literal shapes and with no program in sight.

   A quantized weight matrix has integer entries `q[r, k]` and, for each group of 64 consecutive rows, a scale `s[r / 64, k]` and
   a zero point `z[r / 64, k]`; its real entry is `(q[r, k] - z[r / 64, k]) * s[r / 64, k]`. The layer is
   `out = (silu (x W1ᵀ) * (x W3ᵀ)) W2ᵀ` with `silu g = g * logistic g`: three contractions, the first two over the 4096 hidden
   coordinates, the last over the 14336 intermediate ones. Each is a finite sum of extended reals, and such sums may be
   regrouped freely (addition there is commutative and associative); `sum_chunks` is the one regrouping law used: a sum over
   `n * m` terms is the sum over `n` chunks of the sums over the `m` terms of each chunk. -/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The shape of a matrix with `a` rows and `b` columns. -/
abbrev S2 (a b : Nat) : Shape := ⟨2, ![a, b]⟩

/-! ## Regrouping a sum by chunks -/

/-- A sum over `n * m` consecutive terms is the sum, over the `n` chunks of length `m`, of each chunk's sum. -/
theorem sum_chunks {M : Type*} [AddCommMonoid M] (n m N : ℕ) (hN : n * m = N) (f : Fin N → M) :
    ∑ k : Fin N, f k
      = ∑ c : Fin n, ∑ j : Fin m, f ⟨c.val * m + j.val, by
          have hc := c.isLt; have hj := j.isLt
          calc c.val * m + j.val < c.val * m + m := by omega
            _ = (c.val + 1) * m := by ring
            _ ≤ n * m := Nat.mul_le_mul_right m hc
            _ = N := hN⟩ := by
  subst hN
  rw [← Equiv.sum_comp finProdFinEquiv f, Fintype.sum_prod_type]
  refine Finset.sum_congr rfl fun c _ => Finset.sum_congr rfl fun j _ => ?_
  congr 1
  apply Fin.ext
  simp [finProdFinEquiv, Nat.mul_comm, Nat.add_comm]

/-! ## The weights -/

/-- The group (of 64 consecutive rows) a row of a 14336-row matrix lies in. -/
def grpA (r : Fin 14336) : Fin 224 := ⟨r.val / 64, by have := r.isLt; omega⟩
/-- The group a row of a 4096-row matrix lies in. -/
def grpB (r : Fin 4096) : Fin 64 := ⟨r.val / 64, by have := r.isLt; omega⟩

/-- One real entry of a quantized weight: the integer less its group's zero point, times its group's scale. -/
def deq (q : BitVec 32) (z s : EReal) : EReal := (FloatOps.sitofp (F := Ideal) .f32 q - z) * s

/-- Entry `(r, k)` of a 14336 × 4096 quantized weight. -/
def wA (q : IVec (S2 14336 4096) 32) (s z : FVec Ideal (S2 224 4096) .f32) (r : Fin 14336) (k : Fin 4096) : EReal :=
  deq (q (ix2 r k)) (z (ix2 (grpA r) k)) (s (ix2 (grpA r) k))
/-- Entry `(r, k)` of a 4096 × 14336 quantized weight. -/
def wB (q : IVec (S2 4096 14336) 32) (s z : FVec Ideal (S2 64 14336) .f32) (r : Fin 4096) (k : Fin 14336) : EReal :=
  deq (q (ix2 r k)) (z (ix2 (grpB r) k)) (s (ix2 (grpB r) k))

/-! ## The three contractions -/

/-- `(x Wᵀ)[t, f]` for a 14336 × 4096 weight: the contraction over the 4096 hidden coordinates. -/
def projAt (x : FVec Ideal (S2 512 4096) .bf16) (q : IVec (S2 14336 4096) 32) (s z : FVec Ideal (S2 224 4096) .f32)
    (t : Fin 512) (f : Fin 14336) : EReal :=
  ∑ k : Fin 4096, x (ix2 t k) * wA q s z f k

/-- `silu g = g * logistic g`. -/
def silu (g : EReal) : EReal := g * Ideal.logistic g

/-- `(h Wᵀ)[t, r]` for a 4096 × 14336 weight: the contraction over the 14336 intermediate coordinates. -/
def downAt (h : FVec Ideal (S2 512 14336) .bf16) (q : IVec (S2 4096 14336) 32) (s z : FVec Ideal (S2 64 14336) .f32)
    (t : Fin 512) (r : Fin 4096) : EReal :=
  ∑ k : Fin 14336, h (ix2 t k) * wB q s z r k

/-- The gate projection as an array. -/
def projArr (x : FVec Ideal (S2 512 4096) .bf16) (q : IVec (S2 14336 4096) 32) (s z : FVec Ideal (S2 224 4096) .f32) :
    FVec Ideal (S2 512 14336) .f32 :=
  fun i => projAt x q s z (i 0) (i 1)

/-- The gated intermediate as an array: `silu gate * up`, the up projection a contraction of its own. -/
def interArr (x : FVec Ideal (S2 512 4096) .bf16) (q : IVec (S2 14336 4096) 32) (s z : FVec Ideal (S2 224 4096) .f32)
    (g : FVec Ideal (S2 512 14336) .f32) : FVec Ideal (S2 512 14336) .bf16 :=
  fun i => silu (g i) * projAt x q s z (i 0) (i 1)

/-- The down projection as an array. -/
def downArr (h : FVec Ideal (S2 512 14336) .bf16) (q : IVec (S2 4096 14336) 32) (s z : FVec Ideal (S2 64 14336) .f32) :
    FVec Ideal (S2 512 4096) .f32 :=
  fun i => downAt h q s z (i 0) (i 1)

/-- The whole layer. -/
def layer (x : FVec Ideal (S2 512 4096) .bf16)
    (q1 : IVec (S2 14336 4096) 32) (s1 z1 : FVec Ideal (S2 224 4096) .f32)
    (q2 : IVec (S2 4096 14336) 32) (s2 z2 : FVec Ideal (S2 64 14336) .f32)
    (q3 : IVec (S2 14336 4096) 32) (s3 z3 : FVec Ideal (S2 224 4096) .f32) : FVec Ideal (S2 512 4096) .f32 :=
  downArr (interArr x q3 s3 z3 (projArr x q1 s1 z1)) q2 s2 z2

end Cert.Spec

end
-- ==== Proof.KI.Value0.lean ====
/- What the gate projection's region leaves in its result array, at the ideal instance: entry (t, f) is the contraction over the 4096 hidden coordinates of the activations' row t with row f of the dequantized gate weight. -/
import proofs.«180202_j18279380812578_1_alg».proof.Proof.KI.Data0
import proofs.«180202_j18279380812578_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

/-! ## One strip's product read at an index -/

/-- The left operand's row is the output's row. -/
theorem lhs_gate0_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's column is the contracted coordinate. -/
theorem lhs_gate0_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- The right operand's row is the output's column. -/
theorem rhs_gate0_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's column is the contracted coordinate. -/
theorem rhs_gate0_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- A strip's product into the zero accumulator, at entry (t, j): row t of the left operand against row j of the right one,
    over the strip's 1024 columns. -/
theorem gate0_matmul_apply (lhs rhs : FVec Ideal S512x1024 .bf16) (t j : Fin 512) :
    matmul dot_S512x1024_S512x1024_S512x512_1_1_0_0_n_n none lhs rhs (constant (F := Ideal) S512x512 .f32 0x00000000#32) (ix2 t j)
      = ∑ k : Fin 1024, lhs (ix2 t k) * rhs (ix2 j k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 t j) ((ValueIdx.contrEquiv1 dot_S512x1024_S512x1024_S512x512_1_1_0_0_n_n 1024 rfl rfl).symm k) = ix2 t k := funext fun a => Fin.ext (by
    match a with
    | ⟨0, _⟩ => exact lhs_gate0_0 _ _
    | ⟨1, _⟩ => exact (lhs_gate0_1 _ _).trans hk)
  have er : dot_S512x1024_S512x1024_S512x512_1_1_0_0_n_n.rhsIdx (ix2 t j) ((ValueIdx.contrEquiv1 dot_S512x1024_S512x1024_S512x512_1_1_0_0_n_n 1024 rfl rfl).symm k) = ix2 j k := funext fun a => Fin.ext (by
    match a with
    | ⟨0, _⟩ => exact rhs_gate0_0 _ _
    | ⟨1, _⟩ => exact (rhs_gate0_1 _ _).trans hk)
  rw [el, er]

/-! ## A strip of the dequantized weight read at an index -/

/-- The group, of the block's 8, that row j of the block lies in. -/
def rowGroup0 (j : Fin 512) : Fin 8 := ⟨j.val / 64, by have := j.isLt; omega⟩

/-- Entry (j, k) of a strip of the dequantized weight block: the integer entry less its group's zero point, times its
    group's scale; the regrouping of the 512 rows as 8 groups of 64 puts row j at (j / 64, j % 64). -/
theorem deqStrip0_apply (w : Vec Ideal S512x1024 .i32) (s z : Vec Ideal S8x1024 .f32) (j : Fin 512) (k : Fin 1024) :
    (truncf .bf16 (shapeCast S512x1024 (mulf (subf (shapeCast S8x64x1024 (sitofp (F := Ideal) .f32 w) shapeCasts_S512x1024_S8x64x1024)
        (broadcastTo S8x64x1024 (shapeCast S8x1x1024 z shapeCasts_S8x1024_S8x1x1024) broadcasts_S8x1x1024_S8x64x1024))
        (broadcastTo S8x64x1024 (shapeCast S8x1x1024 s shapeCasts_S8x1024_S8x1x1024) broadcasts_S8x1x1024_S8x64x1024)) shapeCasts_S8x64x1024_S512x1024) bitsLt_bf16_f32 : FVec Ideal S512x1024 .bf16) (ix2 j k)
      = Cert.Spec.deq (w (ix2 j k)) (z (ix2 (rowGroup0 j) k)) (s (ix2 (rowGroup0 j) k)) := by
  have hj := j.isLt
  have hk := k.isLt
  rw [truncf_apply]
  rw [shapeCast_apply _ shapeCasts_S8x64x1024_S512x1024 (ix2 j k) (ix3 (rowGroup0 j) (⟨j.val % 64, by omega⟩ : Fin 64) k) (by
    rw [Shape.rowMajor_val_three, Shape.rowMajor_val_two]
    show (j.val / 64 * 64 + j.val % 64) * 1024 + k.val = j.val * 1024 + k.val
    omega)]
  rw [mulf_apply, subf_apply]
  rw [shapeCast_apply (sitofp (F := Ideal) .f32 w) shapeCasts_S512x1024_S8x64x1024 (ix3 (rowGroup0 j) (⟨j.val % 64, by omega⟩ : Fin 64) k) (ix2 j k) (by
    rw [Shape.rowMajor_val_three, Shape.rowMajor_val_two]
    show j.val * 1024 + k.val = (j.val / 64 * 64 + j.val % 64) * 1024 + k.val
    omega)]
  rw [broadcastTo_apply (shapeCast S8x1x1024 z shapeCasts_S8x1024_S8x1x1024) broadcasts_S8x1x1024_S8x64x1024 (ix3 (rowGroup0 j) (⟨j.val % 64, by omega⟩ : Fin 64) k) (ix3 (rowGroup0 j) (0 : Fin 1) k) (fun a => by
    match a with
    | ⟨0, _⟩ => rfl
    | ⟨1, _⟩ => rfl
    | ⟨2, _⟩ => rfl)]
  rw [broadcastTo_apply (shapeCast S8x1x1024 s shapeCasts_S8x1024_S8x1x1024) broadcasts_S8x1x1024_S8x64x1024 (ix3 (rowGroup0 j) (⟨j.val % 64, by omega⟩ : Fin 64) k) (ix3 (rowGroup0 j) (0 : Fin 1) k) (fun a => by
    match a with
    | ⟨0, _⟩ => rfl
    | ⟨1, _⟩ => rfl
    | ⟨2, _⟩ => rfl)]
  rw [shapeCast_apply z shapeCasts_S8x1024_S8x1x1024 (ix3 (rowGroup0 j) (0 : Fin 1) k) (ix2 (rowGroup0 j) k) (by
    rw [Shape.rowMajor_val_three, Shape.rowMajor_val_two]
    show (rowGroup0 j).val * 1024 + k.val = ((rowGroup0 j).val * 1 + 0) * 1024 + k.val
    omega)]
  rw [shapeCast_apply s shapeCasts_S8x1024_S8x1x1024 (ix3 (rowGroup0 j) (0 : Fin 1) k) (ix2 (rowGroup0 j) k) (by
    rw [Shape.rowMajor_val_three, Shape.rowMajor_val_two]
    show (rowGroup0 j).val * 1024 + k.val = ((rowGroup0 j).val * 1 + 0) * 1024 + k.val
    omega)]
  rw [sitofp_apply]
  rfl

/-! ## The body's arithmetic over its loaded strips -/

section AnyF
variable {F : FTy → Type} [FloatOps F]

/-- The offsets of an access to a whole block, all zero. -/
theorem zeroOff0 : (![0, 0] : Fin 2 → Nat) = fun _ => 0 := funext fun a => by fin_cases a <;> rfl

/-- Columns [o, o + 1024) of a block with n rows and 4096 columns. -/
abbrev colsR0 (n o : Nat) (h : o + 1024 ≤ 4096) : Rect (⟨2, ![n, 4096]⟩ : Shape) :=
  Rect.unit ![0, o] (⟨2, ![n, 1024]⟩ : Shape).size (Rect.inb₂ (Nat.le_of_eq (Nat.zero_add n)) h)

/-- The output block as the body computes it from the four column strips of each input block: the accumulator starts at
    zero and takes one strip's product after another. -/
def gatePay0 (a0 a1 a2 a3 : Vec F S512x1024 .bf16) (w0 w1 w2 w3 : Vec F S512x1024 .i32)
    (s0 z0 s1 z1 s2 z2 s3 z3 : Vec F S8x1024 .f32) : FVec F S512x512 .f32 :=
  k0_pay1 (k0_pay5 (k0_pay2 a0 w0 s0 z0) (k0_pay3 a1) (k0_pay4 w1 s1 z1) a2 w2 s2 z2) (k0_pay6 a3) (k0_pay7 w3 s3 z3)

/-- What the body leaves in the output block: one whole store of its arithmetic over the strips of the input blocks. -/
theorem out0_4_eq (c : Dev nD) (i : grid0.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole)
    (x0 : Vec F S512x4096 .bf16) (x1 : Vec F S512x4096 .i32) (x2 : Vec F S8x4096 .f32) (x3 : Vec F S8x4096 .f32) :
    out0_4 c i arg1 harg1 arg2 harg2 arg3 harg3 arg4 harg4 arg5 harg5 x0 x1 x2 x3
      = gatePay0 (View.ld x0 (colsR0 512 0 (by decide))) (View.ld x0 (colsR0 512 1024 (by decide))) (View.ld x0 (colsR0 512 2048 (by decide))) (View.ld x0 (colsR0 512 3072 (by decide)))
          (View.ld x1 (colsR0 512 0 (by decide))) (View.ld x1 (colsR0 512 1024 (by decide))) (View.ld x1 (colsR0 512 2048 (by decide))) (View.ld x1 (colsR0 512 3072 (by decide)))
          (View.ld x2 (colsR0 8 0 (by decide))) (View.ld x3 (colsR0 8 0 (by decide))) (View.ld x2 (colsR0 8 1024 (by decide))) (View.ld x3 (colsR0 8 1024 (by decide)))
          (View.ld x2 (colsR0 8 2048 (by decide))) (View.ld x3 (colsR0 8 2048 (by decide))) (View.ld x2 (colsR0 8 3072 (by decide))) (View.ld x3 (colsR0 8 3072 (by decide))) := by
  unfold out0_4
  rw [View.read_writes_eq_canon _ _ _ (cover0_4 c i arg1 harg1 arg2 harg2 arg3 harg3 arg4 harg4 arg5 harg5 x0 x1 x2 x3)]
  unfold kernelRun0
  dsimp only
  sl_unfold_words
  rw [View.canon_unit_zero zeroOff0]
  simp only [View.readAt_eq_ld, Memref.IsWhole.read_unread]
  rfl

end AnyF

/-! ## The output block at an index, at the ideal values -/

/-- Reading columns [o, o + 1024) of a block at (p, k) reads the block at (p, o + k). -/
theorem ld_cols0 {Val : EltTy → Type} {e : EltTy} (n o : Nat) (h : o + 1024 ≤ 4096) (X : (⟨2, ![n, 4096]⟩ : Shape).Idx → Val e)
    (p : Fin n) (k : Fin 1024) :
    View.ld X (colsR0 n o h) (ix2 p k) = X (ix2 p (⟨o + k.val, by have := k.isLt; omega⟩ : Fin 4096)) := by
  show X _ = X _
  refine congrArg X (funext fun a => Fin.ext ?_)
  match a with
  | ⟨0, _⟩ => show 0 + 1 * p.val = p.val; omega
  | ⟨1, _⟩ => show o + 1 * k.val = o + k.val; omega

/-- The body's arithmetic at entry (t, j): from zero, the four strips' sums of products of row t of the activations' strip with
    row j of the dequantized weight's strip, added in the strips' order. -/
theorem gatePay0_apply (a0 a1 a2 a3 : Vec Ideal S512x1024 .bf16) (w0 w1 w2 w3 : Vec Ideal S512x1024 .i32)
    (s0 z0 s1 z1 s2 z2 s3 z3 : Vec Ideal S8x1024 .f32) (t j : Fin 512) :
    gatePay0 a0 a1 a2 a3 w0 w1 w2 w3 s0 z0 s1 z1 s2 z2 s3 z3 (ix2 t j)
      = (((0 + ∑ k : Fin 1024, a0 (ix2 t k) * Cert.Spec.deq (w0 (ix2 j k)) (z0 (ix2 (rowGroup0 j) k)) (s0 (ix2 (rowGroup0 j) k)))
            + ∑ k : Fin 1024, a1 (ix2 t k) * Cert.Spec.deq (w1 (ix2 j k)) (z1 (ix2 (rowGroup0 j) k)) (s1 (ix2 (rowGroup0 j) k)))
          + ∑ k : Fin 1024, a2 (ix2 t k) * Cert.Spec.deq (w2 (ix2 j k)) (z2 (ix2 (rowGroup0 j) k)) (s2 (ix2 (rowGroup0 j) k)))
        + ∑ k : Fin 1024, a3 (ix2 t k) * Cert.Spec.deq (w3 (ix2 j k)) (z3 (ix2 (rowGroup0 j) k)) (s3 (ix2 (rowGroup0 j) k)) := by
  unfold gatePay0 k0_pay1 k0_pay5 k0_pay2 k0_pay3 k0_pay4 k0_pay6 k0_pay7
  dsimp only
  simp only [shapeCast_self]
  rw [addf_apply, addf_apply, addf_apply, addf_apply, gate0_matmul_apply, gate0_matmul_apply, gate0_matmul_apply, gate0_matmul_apply]
  simp only [deqStrip0_apply]
  rw [broadcast_apply]
  show Ideal.ofBits .f32 0x00000000#32 + _ + _ + _ + _ = _
  rw [Ideal.ofBits_zero_f32]

/-- A sum over the 4096 hidden coordinates, from zero, strip by strip. -/
theorem sum_strips0 (f : Fin 4096 → EReal) :
    ∑ k : Fin 4096, f k
      = (((0 + ∑ k : Fin 1024, f ⟨0 + k.val, by have := k.isLt; omega⟩) + ∑ k : Fin 1024, f ⟨1024 + k.val, by have := k.isLt; omega⟩)
          + ∑ k : Fin 1024, f ⟨2048 + k.val, by have := k.isLt; omega⟩) + ∑ k : Fin 1024, f ⟨3072 + k.val, by have := k.isLt; omega⟩ := by
  rw [Cert.Spec.sum_chunks 4 1024 4096 rfl f, Fin.sum_univ_four, zero_add]
  rfl

/-- The output block at entry y, from input blocks that are the arrays' blocks at block index n: the gate projection of
    the arrays at row y₀ and column 512 n + y₁. Row j of the weight block is row 512 n + j of the weight, whose group is
    8 n + j / 64, group j / 64 of the scale and zero blocks. -/
theorem block0_eq (x0 : Vec Ideal S512x4096 .bf16) (x1 : Vec Ideal S512x4096 .i32) (x2 x3 : Vec Ideal S8x4096 .f32)
    (A0 : FVec Ideal (Cert.Spec.S2 512 4096) .bf16) (A1 : IVec (Cert.Spec.S2 14336 4096) 32) (A2 A3 : FVec Ideal (Cert.Spec.S2 224 4096) .f32)
    (n : Nat) (hn : n < 28)
    (h0 : ∀ (p : Fin 512) (k : Fin 4096), x0 (ix2 p k) = A0 (ix2 p k))
    (h1 : ∀ (j : Fin 512) (k : Fin 4096), x1 (ix2 j k) = A1 (ix2 (⟨512 * n + j.val, by have := j.isLt; omega⟩ : Fin 14336) k))
    (h2 : ∀ (g : Fin 8) (k : Fin 4096), x2 (ix2 g k) = A2 (ix2 (⟨8 * n + g.val, by have := g.isLt; omega⟩ : Fin 224) k))
    (h3 : ∀ (g : Fin 8) (k : Fin 4096), x3 (ix2 g k) = A3 (ix2 (⟨8 * n + g.val, by have := g.isLt; omega⟩ : Fin 224) k))
    (y : S512x512.Idx) :
    gatePay0 (View.ld x0 (colsR0 512 0 (by decide))) (View.ld x0 (colsR0 512 1024 (by decide))) (View.ld x0 (colsR0 512 2048 (by decide))) (View.ld x0 (colsR0 512 3072 (by decide)))
          (View.ld x1 (colsR0 512 0 (by decide))) (View.ld x1 (colsR0 512 1024 (by decide))) (View.ld x1 (colsR0 512 2048 (by decide))) (View.ld x1 (colsR0 512 3072 (by decide)))
          (View.ld x2 (colsR0 8 0 (by decide))) (View.ld x3 (colsR0 8 0 (by decide))) (View.ld x2 (colsR0 8 1024 (by decide))) (View.ld x3 (colsR0 8 1024 (by decide)))
          (View.ld x2 (colsR0 8 2048 (by decide))) (View.ld x3 (colsR0 8 2048 (by decide))) (View.ld x2 (colsR0 8 3072 (by decide))) (View.ld x3 (colsR0 8 3072 (by decide))) y
      = Cert.Spec.projAt A0 A1 A2 A3 (⟨(y 0).val, idx2_lt0 y⟩ : Fin 512) (⟨512 * n + (y 1).val, by have := idx2_lt1 y; omega⟩ : Fin 14336) := by
  obtain ⟨p, j, rfl⟩ : ∃ (p : Fin 512) (j : Fin 512), y = ix2 p j := ⟨y 0, y 1, eq_ix2 y⟩
  have hg : Cert.Spec.grpA (⟨512 * n + j.val, by have := j.isLt; omega⟩ : Fin 14336) = (⟨8 * n + (rowGroup0 j).val, by have := (rowGroup0 j).isLt; omega⟩ : Fin 224) :=
    Fin.ext (by show (512 * n + j.val) / 64 = 8 * n + j.val / 64; omega)
  have term : ∀ (o : Nat) (h : o + 1024 ≤ 4096) (k : Fin 1024),
      View.ld x0 (colsR0 512 o h) (ix2 p k) * Cert.Spec.deq (View.ld x1 (colsR0 512 o h) (ix2 j k)) (View.ld x3 (colsR0 8 o h) (ix2 (rowGroup0 j) k)) (View.ld x2 (colsR0 8 o h) (ix2 (rowGroup0 j) k))
        = A0 (ix2 p (⟨o + k.val, by have := k.isLt; omega⟩ : Fin 4096))
            * Cert.Spec.wA A1 A2 A3 (⟨512 * n + j.val, by have := j.isLt; omega⟩ : Fin 14336) (⟨o + k.val, by have := k.isLt; omega⟩ : Fin 4096) := by
    intro o h k
    rw [ld_cols0 512 o h x0 p k, ld_cols0 512 o h x1 j k, ld_cols0 8 o h x3 (rowGroup0 j) k, ld_cols0 8 o h x2 (rowGroup0 j) k, h0, h1, h2, h3]
    unfold Cert.Spec.wA
    rw [hg]
  rw [gatePay0_apply]
  simp only [term]
  unfold Cert.Spec.projAt
  rw [sum_strips0]

/-! ## From the blocks to the array -/

section Blocks
variable (V : (c : Dev nD) → (b : Ref sig .tc) → Buf (Elt Ideal) ((c : Thread nD τ).loc b))

/-- The windows' index maps over the grid: the activations' window stays on its one block; the weight's, the scale's and the
    zero point's move down their rows with the point; the output's moves along its columns with the point. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The activations' block at any point is the whole array. -/
theorem iblk0_0_apply (c : Dev nD) (t : Fin cfg0.N) (p : Fin 512) (k : Fin 4096) :
    (iblk0 V c 0 t : Vec Ideal S512x4096 .bf16) (ix2 p k) = (V c main_v0 : S512x4096.Idx → EReal) (ix2 p k) := by
  obtain ⟨e0, e1, -⟩ := idx_facts0 t
  unfold iblk0
  rw [View.read_apply]
  show V c main_v0 _ = V c main_v0 _
  congr 1
  funext a; apply Fin.ext
  match a with
  | ⟨0, _⟩ => show win0_0.index t (0 : Fin 2) * 512 + 1 * p.val = p.val; rw [e0]; omega
  | ⟨1, _⟩ => show win0_0.index t (1 : Fin 2) * 4096 + 1 * k.val = k.val; rw [e1]; omega

/-- The weight's block at point t is its rows 512 t … 512 t + 511. -/
theorem iblk0_1_apply (c : Dev nD) (t : Fin cfg0.N) (j : Fin 512) (k : Fin 4096) (r : Fin 14336) (hr : r.val = 512 * t.val + j.val) :
    (iblk0 V c 1 t : Vec Ideal S512x4096 .i32) (ix2 j k) = (V c main_arg1 : S14336x4096.Idx → BitVec 32) (ix2 r k) := by
  obtain ⟨-, -, e0, e1, -⟩ := idx_facts0 t
  unfold iblk0
  rw [View.read_apply]
  show V c main_arg1 _ = V c main_arg1 _
  congr 1
  funext a; apply Fin.ext
  match a with
  | ⟨0, _⟩ => show win0_1.index t (0 : Fin 2) * 512 + 1 * j.val = r.val; rw [e0, hr]; omega
  | ⟨1, _⟩ => show win0_1.index t (1 : Fin 2) * 4096 + 1 * k.val = k.val; rw [e1]; omega

/-- The scale's block at point t is its rows 8 t … 8 t + 7. -/
theorem iblk0_2_apply (c : Dev nD) (t : Fin cfg0.N) (g : Fin 8) (k : Fin 4096) (r : Fin 224) (hr : r.val = 8 * t.val + g.val) :
    (iblk0 V c 2 t : Vec Ideal S8x4096 .f32) (ix2 g k) = (V c main_arg2 : S224x4096.Idx → EReal) (ix2 r k) := by
  obtain ⟨-, -, -, -, e0, e1, -⟩ := idx_facts0 t
  unfold iblk0
  rw [View.read_apply]
  show V c main_arg2 _ = V c main_arg2 _
  congr 1
  funext a; apply Fin.ext
  match a with
  | ⟨0, _⟩ => show win0_2.index t (0 : Fin 2) * 8 + 1 * g.val = r.val; rw [e0, hr]; omega
  | ⟨1, _⟩ => show win0_2.index t (1 : Fin 2) * 4096 + 1 * k.val = k.val; rw [e1]; omega

/-- The zero point's block at point t is its rows 8 t … 8 t + 7. -/
theorem iblk0_3_apply (c : Dev nD) (t : Fin cfg0.N) (g : Fin 8) (k : Fin 4096) (r : Fin 224) (hr : r.val = 8 * t.val + g.val) :
    (iblk0 V c 3 t : Vec Ideal S8x4096 .f32) (ix2 g k) = (V c main_arg3 : S224x4096.Idx → EReal) (ix2 r k) := by
  obtain ⟨-, -, -, -, -, -, e0, e1, -⟩ := idx_facts0 t
  unfold iblk0
  rw [View.read_apply]
  show V c main_arg3 _ = V c main_arg3 _
  congr 1
  funext a; apply Fin.ext
  match a with
  | ⟨0, _⟩ => show win0_3.index t (0 : Fin 2) * 8 + 1 * g.val = r.val; rw [e0, hr]; omega
  | ⟨1, _⟩ => show win0_3.index t (1 : Fin 2) * 4096 + 1 * k.val = k.val; rw [e1]; omega

/-- What point t writes back is block t of the gate projection of the arrays as the region finds them: columns
    512 t … 512 t + 511 of every row. -/
theorem flushed0_4_eq (c : Dev nD) (t : Fin cfg0.N) :
    (dat0 V c).flushed 4 t = ((cfg0.win 4).blk t).view.read (Elt Ideal)
      (Cert.Spec.projArr (V c main_v0) (V c main_arg1) (V c main_arg2) (V c main_arg3)) := by
  have hN : grid0.N = 28 := N_0
  have ht : t.val < 28 := Nat.lt_of_lt_of_eq t.isLt N_0
  obtain ⟨-, -, -, -, -, -, -, -, e0, e1⟩ := idx_facts0 t
  show (cfg0.win 4).cut (grid0.coords t) ((dat0 V c).after 4 t) = _
  rw [after0_4, out0_4_eq]
  funext y
  refine (block0_eq (iblk0 V c 0 t) (iblk0 V c 1 t) (iblk0 V c 2 t) (iblk0 V c 3 t) (V c main_v0) (V c main_arg1) (V c main_arg2) (V c main_arg3) t.val ht
    (fun p k => iblk0_0_apply V c t p k) (fun j k => iblk0_1_apply V c t j k _ rfl) (fun g k => iblk0_2_apply V c t g k _ rfl)
    (fun g k => iblk0_3_apply V c t g k _ rfl) _).trans ?_
  rw [View.read_apply]
  show Cert.Spec.projAt (V c main_v0) (V c main_arg1) (V c main_arg2) (V c main_arg3) _ _
     = Cert.Spec.projAt (V c main_v0) (V c main_arg1) (V c main_arg2) (V c main_arg3) _ _
  congr 1 <;> apply Fin.ext
  · show (y 0).val = win0_4.index t (0 : Fin 2) * 512 + 1 * (y 0).val; rw [e0]; omega
  · show 512 * t.val + (y 1).val = win0_4.index t (1 : Fin 2) * 512 + 1 * (y 1).val; rw [e1]; omega

/-- An index of the result array is in point t's block iff each coordinate is in the block's range on its axis. -/
theorem mem_blk0_4 (t : Fin cfg0.N) (i : S512x14336.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v1).slice (win0_4.rect t)).set ↔ _
  rw [View.set_slice_whole, Rect.mem_set_unit]
  exact Iff.rfl

/-- Every entry of the result array is in the block of the point its column falls under. -/
theorem cover0_out (i : S512x14336.Idx) : ∃ t : Fin cfg0.N, (cfg0.win 4).flush t = true ∧ i ∈ ((cfg0.win 4).blk t).view.set := by
  have h0 : (i 0).val < 512 := (i 0).isLt
  have h1 : (i 1).val < 14336 := (i 1).isLt
  have hN : cfg0.N = 28 := N_0
  let t : Fin cfg0.N := ⟨(i 1).val / 512, by rw [hN]; omega⟩
  obtain ⟨-, -, -, -, -, -, -, -, e0, e1⟩ := idx_facts0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 512 ≤ (i 1).val ∧ (i 1).val < win0_4.index t (1 : Fin 2) * 512 + 512; rw [e1]; show (i 1).val / 512 * 512 ≤ (i 1).val ∧ (i 1).val < (i 1).val / 512 * 512 + 512; omega

end Blocks

/-- The array the gate region writes is the gate projection of the arrays it reads. -/
theorem value0 (V : (c : Dev nD) → (b : Ref sig .tc) → Buf (Elt Ideal) ((c : Thread nD τ).loc b)) (c : Dev nD) :
    (dat0 V c).arrAt 4 cfg0.N = Cert.Spec.projArr (V c main_v0) (V c main_arg1) (V c main_arg2) (V c main_arg3) := by
  exact (dat0 V c).arrAt_eq_of_cover 4 _ (fun t _ => flushed0_4_eq V c t) cover0_out

end Cert.KernelIdeal.Hand

end
-- ==== Proof.KI.Value1.lean ====
/- What the up projection and gating region leaves in its result array, at the ideal instance: entry (t, f) is silu of the gate entry times the contraction over the hidden coordinates of the activations' row t with row f of the dequantized up weight. -/
import proofs.«180202_j18279380812578_1_alg».proof.Proof.KI.Data1
import proofs.«180202_j18279380812578_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

variable {α : Type}

/-- Row `j` of 512, regrouped as 8 groups of 64, is row `j % 64` of group `j / 64`. -/
theorem castRows1_apply (y : S8x64x1024.Idx → α) (j : Fin 512) (k : Fin 1024) :
    shapeCast S512x1024 y shapeCasts_S8x64x1024_S512x1024 (ix2 j k)
      = y (ix3 (⟨j.val / 64, by have := j.isLt; omega⟩ : Fin 8) (⟨j.val % 64, by omega⟩ : Fin 64) k) :=
  shapeCast_apply y shapeCasts_S8x64x1024_S512x1024 (ix2 j k) _ (by
    rw [Shape.rowMajor_val_three, Shape.rowMajor_val_two]
    show (j.val / 64 * 64 + j.val % 64) * 1024 + k.val = j.val * 1024 + k.val
    have := j.isLt; omega)

/-- Row `b` of group `a` is row `64 a + b` of the 512. -/
theorem castGroups1_apply (y : S512x1024.Idx → α) (a : Fin 8) (b : Fin 64) (k : Fin 1024) :
    shapeCast S8x64x1024 y shapeCasts_S512x1024_S8x64x1024 (ix3 a b k)
      = y (ix2 (⟨a.val * 64 + b.val, by have := a.isLt; have := b.isLt; omega⟩ : Fin 512) k) :=
  shapeCast_apply y shapeCasts_S512x1024_S8x64x1024 (ix3 a b k) _ (by
    rw [Shape.rowMajor_val_three, Shape.rowMajor_val_two]
    rfl)

/-- A per-group table with a unit row axis put in reads the table. -/
theorem castUnit1_apply (y : S8x1024.Idx → α) (a : Fin 8) (u : Fin 1) (k : Fin 1024) :
    shapeCast S8x1x1024 y shapeCasts_S8x1024_S8x1x1024 (ix3 a u k) = y (ix2 a k) :=
  shapeCast_apply y shapeCasts_S8x1024_S8x1x1024 (ix3 a u k) _ (by
    rw [Shape.rowMajor_val_three, Shape.rowMajor_val_two]
    show a.val * 1024 + k.val = (a.val * 1 + u.val) * 1024 + k.val
    have := u.isLt; omega)

/-- The per-group table spread over the 64 rows of each group. -/
theorem spread1_apply (y : S8x1x1024.Idx → α) (a : Fin 8) (b : Fin 64) (k : Fin 1024) :
    broadcastTo S8x64x1024 y broadcasts_S8x1x1024_S8x64x1024 (ix3 a b k) = y (ix3 a (0 : Fin 1) k) :=
  broadcastTo_apply y broadcasts_S8x1x1024_S8x64x1024 (ix3 a b k) _ (fun d => by
    match d with
    | ⟨0, _⟩ => rfl
    | ⟨1, _⟩ => rfl
    | ⟨2, _⟩ => rfl)

/-- The group of 64 rows a row of a block of 512 lies in. -/
abbrev rowGroup1 (j : Fin 512) : Fin 8 := ⟨j.val / 64, by have := j.isLt; omega⟩

theorem deqStrip1_apply (q : Vec Ideal S512x1024 .i32) (s z : Vec Ideal S8x1024 .f32) (j : Fin 512) (k : Fin 1024) :
    k1_pay4 (F := Ideal) q s z (ix2 j k)
      = Cert.Spec.deq (q (ix2 j k)) (z (ix2 (rowGroup1 j) k)) (s (ix2 (rowGroup1 j) k)) := by
  unfold k1_pay4
  refine (truncf_apply (ψ := .bf16) (φ := .f32) _ bitsLt_bf16_f32 (ix2 j k)).trans ?_
  refine (castRows1_apply _ j k).trans ?_
  refine congrArg₂ (· * ·) (congrArg₂ (· - ·) ?_ ?_) ?_
  · refine (castGroups1_apply _ _ _ k).trans ?_
    refine congrArg (fun r => FloatOps.sitofp (F := Ideal) .f32 (q r)) ?_
    exact congrArg (fun r : Fin 512 => ix2 r k) (Fin.ext (by show j.val / 64 * 64 + j.val % 64 = j.val; omega))
  · exact (spread1_apply _ _ _ k).trans (castUnit1_apply z _ 0 k)
  · exact (spread1_apply _ _ _ k).trans (castUnit1_apply s _ 0 k)

/-! ## The contraction of two row blocks over their 1024 shared coordinates -/

theorem lhs_up1_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_up1_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_up1_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_up1_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Into a zero accumulator the product of a block of activations with a block of weight rows, at `(t, j)`, is the sum over
    the shared coordinate of row `t` of the one times row `j` of the other. -/
theorem up1_matmul_apply (lhs rhs : FVec Ideal S512x1024 .bf16) (t j : Fin 512) :
    matmul dot_S512x1024_S512x1024_S512x512_1_1_0_0_n_n none lhs rhs (constant S512x512 .f32 0x00000000#32) (ix2 t j)
      = ∑ k : Fin 1024, lhs (ix2 t k) * rhs (ix2 j k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 t j) ((ValueIdx.contrEquiv1 dot_S512x1024_S512x1024_S512x512_1_1_0_0_n_n 1024 rfl rfl).symm k) = ix2 t k := funext fun a => Fin.ext (by
    match a with
    | ⟨0, _⟩ => exact lhs_up1_0 _ _
    | ⟨1, _⟩ => exact (lhs_up1_1 _ _).trans hk)
  have er : dot_S512x1024_S512x1024_S512x512_1_1_0_0_n_n.rhsIdx (ix2 t j) ((ValueIdx.contrEquiv1 dot_S512x1024_S512x1024_S512x512_1_1_0_0_n_n 1024 rfl rfl).symm k) = ix2 j k := funext fun a => Fin.ext (by
    match a with
    | ⟨0, _⟩ => exact rhs_up1_0 _ _
    | ⟨1, _⟩ => exact (rhs_up1_1 _ _).trans hk)
  rw [el, er]

/-! ## The payloads at an index -/

/-- The fourth strip's dequantized weight is the same function of its three operands as the second's. -/
theorem pay1_7_eq (q : Vec Ideal S512x1024 .i32) (s z : Vec Ideal S8x1024 .f32) : k1_pay7 (F := Ideal) q s z = k1_pay4 q s z := rfl

/-- The first strip's partial sum: nothing, plus row `t` of the activations' strip against row `j` of the dequantized weight's. -/
theorem pay1_2_apply (xa : Vec Ideal S512x1024 .bf16) (q : Vec Ideal S512x1024 .i32) (s z : Vec Ideal S8x1024 .f32) (t j : Fin 512) :
    k1_pay2 (F := Ideal) xa q s z (ix2 t j)
      = ∑ k : Fin 1024, xa (ix2 t k) * Cert.Spec.deq (q (ix2 j k)) (z (ix2 (rowGroup1 j) k)) (s (ix2 (rowGroup1 j) k)) := by
  have e : k1_pay2 (F := Ideal) xa q s z
      = addf (broadcast S512x512 (Scalar.ofBits (F := Ideal) .f32 0x00000000#32))
          (matmul dot_S512x1024_S512x1024_S512x512_1_1_0_0_n_n none (shapeCast S512x1024 xa shapeCasts_S512x1024_S512x1024) (k1_pay4 q s z) (constant S512x512 .f32 0x00000000#32)) := rfl
  refine (congrFun e (ix2 t j)).trans ?_
  refine (addf_apply _ _ (ix2 t j)).trans ?_
  refine (congrArg₂ (· + ·) Ideal.ofBits_zero_f32 (up1_matmul_apply _ _ t j)).trans ?_
  refine (zero_add _).trans ?_
  refine Finset.sum_congr rfl fun k _ => ?_
  rw [shapeCast_self, deqStrip1_apply]

/-- A later strip's partial sum: what was accumulated, plus the strip carried over from the part before, plus this part's first strip. -/
theorem pay1_5_apply (acc : FVec Ideal S512x512 .f32) (xa wa : FVec Ideal S512x1024 .bf16) (xb : Vec Ideal S512x1024 .bf16)
    (q : Vec Ideal S512x1024 .i32) (s z : Vec Ideal S8x1024 .f32) (t j : Fin 512) :
    k1_pay5 (F := Ideal) acc xa wa xb q s z (ix2 t j)
      = (acc (ix2 t j) + ∑ k : Fin 1024, xa (ix2 t k) * wa (ix2 j k))
        + ∑ k : Fin 1024, xb (ix2 t k) * Cert.Spec.deq (q (ix2 j k)) (z (ix2 (rowGroup1 j) k)) (s (ix2 (rowGroup1 j) k)) := by
  have e : k1_pay5 (F := Ideal) acc xa wa xb q s z
      = addf (addf acc (matmul dot_S512x1024_S512x1024_S512x512_1_1_0_0_n_n none xa wa (constant S512x512 .f32 0x00000000#32)))
          (matmul dot_S512x1024_S512x1024_S512x512_1_1_0_0_n_n none (shapeCast S512x1024 xb shapeCasts_S512x1024_S512x1024) (k1_pay4 q s z) (constant S512x512 .f32 0x00000000#32)) := rfl
  refine (congrFun e (ix2 t j)).trans ?_
  refine (addf_apply _ _ (ix2 t j)).trans ?_
  refine congrArg₂ (· + ·) ((addf_apply _ _ (ix2 t j)).trans (congrArg (acc (ix2 t j) + ·) (up1_matmul_apply _ _ t j))) ((up1_matmul_apply _ _ t j).trans ?_)
  refine Finset.sum_congr rfl fun k _ => ?_
  rw [shapeCast_self, deqStrip1_apply]

/-- The stored block: silu of the gate entry times the whole accumulated contraction. -/
theorem pay1_1_apply (acc : FVec Ideal S512x512 .f32) (xa wa : FVec Ideal S512x1024 .bf16) (g : Vec Ideal S512x512 .f32) (t j : Fin 512) :
    k1_pay1 (F := Ideal) acc xa wa g (ix2 t j)
      = Cert.Spec.silu (g (ix2 t j)) * (acc (ix2 t j) + ∑ k : Fin 1024, xa (ix2 t k) * wa (ix2 j k)) := by
  have e : k1_pay1 (F := Ideal) acc xa wa g
      = truncf .bf16 (mulf (mulf (shapeCast S512x512 g shapeCasts_S512x512_S512x512) (logistic (shapeCast S512x512 g shapeCasts_S512x512_S512x512)))
          (addf acc (matmul dot_S512x1024_S512x1024_S512x512_1_1_0_0_n_n none xa wa (constant S512x512 .f32 0x00000000#32)))) bitsLt_bf16_f32 := rfl
  refine (congrFun e (ix2 t j)).trans ?_
  rw [shapeCast_self]
  refine (truncf_apply (ψ := .bf16) (φ := .f32) _ bitsLt_bf16_f32 (ix2 t j)).trans ?_
  refine (mulf_apply _ _ (ix2 t j)).trans ?_
  exact congrArg₂ (· * ·) rfl ((addf_apply _ _ (ix2 t j)).trans (congrArg (acc (ix2 t j) + ·) (up1_matmul_apply _ _ t j)))

/-! ## The output block as the payloads of the input blocks' strips -/

theorem zeroOff1 : (![0, 0] : Fin 2 → Nat) = fun _ => 0 := funext fun a => by fin_cases a <;> rfl

theorem cols1_inb (o : Nat) (h : o + 1024 ≤ 4096) : ∀ a, (![0, o] : Fin 2 → Nat) a + (![512, 1024] : Fin 2 → Nat) a ≤ S512x4096.size a :=
  Rect.inb₂ (Nat.le_refl _) h
theorem gcols1_inb (o : Nat) (h : o + 1024 ≤ 4096) : ∀ a, (![0, o] : Fin 2 → Nat) a + (![8, 1024] : Fin 2 → Nat) a ≤ S8x4096.size a :=
  Rect.inb₂ (Nat.le_refl _) h

section AnyValues
variable {F : FTy → Type} [FloatOps F]

/-- The 1024 hidden coordinates from `o` on, of a block of 512 rows. -/
abbrev cols1 {e : EltTy} (x : Vec F S512x4096 e) (o : Nat) (h : o + 1024 ≤ 4096) : Vec F S512x1024 e :=
  View.ld (Val := Elt F) x (Rect.unit ![0, o] ![512, 1024] (cols1_inb o h))
/-- The same of a block of 8 groups. -/
abbrev gcols1 (x : Vec F S8x4096 .f32) (o : Nat) (h : o + 1024 ≤ 4096) : Vec F S8x1024 .f32 :=
  View.ld (Val := Elt F) x (Rect.unit ![0, o] ![8, 1024] (gcols1_inb o h))

/-- What the body leaves in the output block: the last payload over the four strips' partial sums and the gate block. -/
theorem out1_5_eq (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec F S512x4096 .bf16) (x1 : Vec F S512x4096 .i32) (x2 : Vec F S8x4096 .f32) (x3 : Vec F S8x4096 .f32) (x4 : Vec F S512x512 .f32) :
    out1_5 c i arg1 harg1 arg2 harg2 arg3 harg3 arg4 harg4 arg5 harg5 arg6 harg6 x0 x1 x2 x3 x4
      = k1_pay1
          (k1_pay5
            (k1_pay2 (cols1 x0 0 (by omega)) (cols1 x1 0 (by omega)) (gcols1 x2 0 (by omega)) (gcols1 x3 0 (by omega)))
            (k1_pay3 (cols1 x0 1024 (by omega)))
            (k1_pay4 (cols1 x1 1024 (by omega)) (gcols1 x2 1024 (by omega)) (gcols1 x3 1024 (by omega)))
            (cols1 x0 2048 (by omega)) (cols1 x1 2048 (by omega)) (gcols1 x2 2048 (by omega)) (gcols1 x3 2048 (by omega)))
          (k1_pay6 (cols1 x0 3072 (by omega)))
          (k1_pay7 (cols1 x1 3072 (by omega)) (gcols1 x2 3072 (by omega)) (gcols1 x3 3072 (by omega)))
          x4 := by
  unfold out1_5
  rw [View.read_writes_eq_canon _ _ _ (cover1_5 c i arg1 harg1 arg2 harg2 arg3 harg3 arg4 harg4 arg5 harg5 arg6 harg6 x0 x1 x2 x3 x4)]
  unfold kernelRun1
  dsimp only
  sl_unfold_words
  rw [View.canon_unit_zero zeroOff1]
  simp only [View.readAt_eq_ld, Memref.IsWhole.read_unread, View.ld_unit_zero (S := S512x512) zeroOff1]

end AnyValues

/-! ## The strips read where they lie in their blocks, and the four partial sums regrouped -/

theorem cols1_apply {e : EltTy} (x : Vec Ideal S512x4096 e) (o : Nat) (h : o + 1024 ≤ 4096) (r : Fin 512) (k : Fin 1024) (k' : Fin 4096)
    (hk : k'.val = o + k.val) : cols1 x o h (ix2 r k) = x (ix2 r k') := by
  show x _ = x _
  refine congrArg x (funext fun a => Fin.ext ?_)
  match a with
  | ⟨0, _⟩ => show 0 + 1 * r.val = r.val; omega
  | ⟨1, _⟩ => show o + 1 * k.val = k'.val; omega

theorem gcols1_apply (x : Vec Ideal S8x4096 .f32) (o : Nat) (h : o + 1024 ≤ 4096) (g : Fin 8) (k : Fin 1024) (k' : Fin 4096)
    (hk : k'.val = o + k.val) : gcols1 x o h (ix2 g k) = x (ix2 g k') := by
  show x _ = x _
  refine congrArg x (funext fun a => Fin.ext ?_)
  match a with
  | ⟨0, _⟩ => show 0 + 1 * g.val = g.val; omega
  | ⟨1, _⟩ => show o + 1 * k.val = k'.val; omega

/-- One term of a block's contraction: the activation at hidden coordinate `k` of row `t` times the dequantized weight there of row `j`. -/
def term1 (x0 : Vec Ideal S512x4096 .bf16) (x1 : Vec Ideal S512x4096 .i32) (x2 x3 : Vec Ideal S8x4096 .f32) (t j : Fin 512) (k : Fin 4096) : EReal :=
  x0 (ix2 t k) * Cert.Spec.deq (x1 (ix2 j k)) (x3 (ix2 (rowGroup1 j) k)) (x2 (ix2 (rowGroup1 j) k))

/-- The partial sum over the strip at `o = 1024 c` is chunk `c` of the whole contraction. -/
theorem chunk1_eq (x0 : Vec Ideal S512x4096 .bf16) (x1 : Vec Ideal S512x4096 .i32) (x2 x3 : Vec Ideal S8x4096 .f32) (t j : Fin 512)
    (c : Fin 4) (o : Nat) (h : o + 1024 ≤ 4096) (ho : o = c.val * 1024) :
    ∑ k : Fin 1024, cols1 x0 o h (ix2 t k) * Cert.Spec.deq (cols1 x1 o h (ix2 j k)) (gcols1 x3 o h (ix2 (rowGroup1 j) k)) (gcols1 x2 o h (ix2 (rowGroup1 j) k))
      = ∑ k : Fin 1024, term1 x0 x1 x2 x3 t j ⟨c.val * 1024 + k.val, by have := c.isLt; have := k.isLt; omega⟩ := by
  refine Finset.sum_congr rfl fun k _ => ?_
  have hk : (⟨c.val * 1024 + k.val, by have := c.isLt; have := k.isLt; omega⟩ : Fin 4096).val = o + k.val := by show c.val * 1024 + k.val = o + k.val; omega
  rw [cols1_apply x0 o h t k _ hk, cols1_apply x1 o h j k _ hk, gcols1_apply x3 o h (rowGroup1 j) k _ hk, gcols1_apply x2 o h (rowGroup1 j) k _ hk]
  rfl

/-- THE OUTPUT BLOCK AT AN ENTRY: silu of the gate block's entry times the contraction over all 4096 hidden coordinates of the
    activations' row with the dequantized weight's row; the four strips' sums are its four chunks, added in order from nothing. -/
theorem block1_apply (c : Dev nD) (i : grid1.Coords) (arg1 : Memref sig .tc .vmem S512x4096 .bf16) (harg1 : arg1.IsWhole) (arg2 : Memref sig .tc .vmem S512x4096 .i32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S512x512 .f32) (harg5 : arg5.IsWhole) (arg6 : Memref sig .tc .vmem S512x512 .bf16) (harg6 : arg6.IsWhole)
    (x0 : Vec Ideal S512x4096 .bf16) (x1 : Vec Ideal S512x4096 .i32) (x2 x3 : Vec Ideal S8x4096 .f32) (x4 : Vec Ideal S512x512 .f32) (t j : Fin 512) :
    out1_5 (F := Ideal) c i arg1 harg1 arg2 harg2 arg3 harg3 arg4 harg4 arg5 harg5 arg6 harg6 x0 x1 x2 x3 x4 (ix2 t j)
      = Cert.Spec.silu (x4 (ix2 t j)) * ∑ k : Fin 4096, term1 x0 x1 x2 x3 t j k := by
  refine (congrFun (out1_5_eq (F := Ideal) c i arg1 harg1 arg2 harg2 arg3 harg3 arg4 harg4 arg5 harg5 arg6 harg6 x0 x1 x2 x3 x4) (ix2 t j)).trans ?_
  refine (pay1_1_apply _ _ _ x4 t j).trans ?_
  refine congrArg (Cert.Spec.silu (x4 (ix2 t j)) * ·) ?_
  rw [pay1_5_apply, pay1_2_apply, pay1_7_eq]
  simp only [k1_pay3, k1_pay6, shapeCast_self, deqStrip1_apply]
  rw [chunk1_eq x0 x1 x2 x3 t j 0 0 (by omega) rfl, chunk1_eq x0 x1 x2 x3 t j 1 1024 (by omega) rfl,
    chunk1_eq x0 x1 x2 x3 t j 2 2048 (by omega) rfl, chunk1_eq x0 x1 x2 x3 t j 3 3072 (by omega) rfl]
  rw [Cert.Spec.sum_chunks 4 1024 4096 rfl, Fin.sum_univ_four]

/-! ## The blocks read where the output block's rectangle says -/

/-- The printed index maps, decided over the grid: the activations' window never moves; the weight's and its two tables' move down
    the rows with the point; the gate's and the output's move along the columns with it. -/
theorem idx_facts1 : ∀ p : Fin cfg1.N,
    win1_0.index p (0 : Fin 2) = 0 ∧ win1_0.index p (1 : Fin 2) = 0
    ∧ win1_1.index p (0 : Fin 2) = p.val ∧ win1_1.index p (1 : Fin 2) = 0
    ∧ win1_2.index p (0 : Fin 2) = p.val ∧ win1_2.index p (1 : Fin 2) = 0
    ∧ win1_3.index p (0 : Fin 2) = p.val ∧ win1_3.index p (1 : Fin 2) = 0
    ∧ win1_4.index p (0 : Fin 2) = 0 ∧ win1_4.index p (1 : Fin 2) = p.val
    ∧ win1_5.index p (0 : Fin 2) = 0 ∧ win1_5.index p (1 : Fin 2) = p.val :=
  (by decide +kernel : ∀ p : Fin grid1.N, _)

section Arrays
variable (V : (c : Dev nD) → (b : Ref sig .tc) → Buf (Elt Ideal) ((c : Thread nD τ).loc b))

/-- The activations' block is the whole array. -/
theorem iblk1_0_apply (c : Dev nD) (p : Fin cfg1.N) (t : Fin 512) (k : Fin 4096) :
    (iblk1 V c 0 p : Vec Ideal S512x4096 .bf16) (ix2 t k) = (V c main_v0 : S512x4096.Idx → Ideal .bf16) (ix2 t k) := by
  obtain ⟨e0, e1, -⟩ := idx_facts1 p
  unfold iblk1
  rw [View.read_apply]
  show V c main_v0 _ = V c main_v0 _
  congr 1
  funext a; apply Fin.ext
  match a with
  | ⟨0, _⟩ => show win1_0.index p 0 * 512 + 1 * t.val = t.val; rw [e0]; omega
  | ⟨1, _⟩ => show win1_0.index p 1 * 4096 + 1 * k.val = k.val; rw [e1]; omega

/-- Row `j` of the weight's block at point `p` is row `512 p + j` of the weight. -/
theorem iblk1_1_apply (c : Dev nD) (p : Fin cfg1.N) (j : Fin 512) (k : Fin 4096) (r : Fin 14336) (hr : r.val = p.val * 512 + j.val) :
    (iblk1 V c 1 p : Vec Ideal S512x4096 .i32) (ix2 j k) = (V c main_arg7 : S14336x4096.Idx → BitVec 32) (ix2 r k) := by
  obtain ⟨-, -, e0, e1, -⟩ := idx_facts1 p
  unfold iblk1
  rw [View.read_apply]
  show V c main_arg7 _ = V c main_arg7 _
  congr 1
  funext a; apply Fin.ext
  match a with
  | ⟨0, _⟩ => show win1_1.index p 0 * 512 + 1 * j.val = r.val; rw [e0, hr]; omega
  | ⟨1, _⟩ => show win1_1.index p 1 * 4096 + 1 * k.val = k.val; rw [e1]; omega

/-- Group `g` of the scale table's block at point `p` is group `8 p + g` of the table. -/
theorem iblk1_2_apply (c : Dev nD) (p : Fin cfg1.N) (g : Fin 8) (k : Fin 4096) (r : Fin 224) (hr : r.val = p.val * 8 + g.val) :
    (iblk1 V c 2 p : Vec Ideal S8x4096 .f32) (ix2 g k) = (V c main_arg8 : S224x4096.Idx → Ideal .f32) (ix2 r k) := by
  obtain ⟨-, -, -, -, e0, e1, -⟩ := idx_facts1 p
  unfold iblk1
  rw [View.read_apply]
  show V c main_arg8 _ = V c main_arg8 _
  congr 1
  funext a; apply Fin.ext
  match a with
  | ⟨0, _⟩ => show win1_2.index p 0 * 8 + 1 * g.val = r.val; rw [e0, hr]; omega
  | ⟨1, _⟩ => show win1_2.index p 1 * 4096 + 1 * k.val = k.val; rw [e1]; omega

/-- The same of the zero-point table. -/
theorem iblk1_3_apply (c : Dev nD) (p : Fin cfg1.N) (g : Fin 8) (k : Fin 4096) (r : Fin 224) (hr : r.val = p.val * 8 + g.val) :
    (iblk1 V c 3 p : Vec Ideal S8x4096 .f32) (ix2 g k) = (V c main_arg9 : S224x4096.Idx → Ideal .f32) (ix2 r k) := by
  obtain ⟨-, -, -, -, -, -, e0, e1, -⟩ := idx_facts1 p
  unfold iblk1
  rw [View.read_apply]
  show V c main_arg9 _ = V c main_arg9 _
  congr 1
  funext a; apply Fin.ext
  match a with
  | ⟨0, _⟩ => show win1_3.index p 0 * 8 + 1 * g.val = r.val; rw [e0, hr]; omega
  | ⟨1, _⟩ => show win1_3.index p 1 * 4096 + 1 * k.val = k.val; rw [e1]; omega

/-- Column `j` of the gate's block at point `p` is column `512 p + j` of the gate array. -/
theorem iblk1_4_apply (c : Dev nD) (p : Fin cfg1.N) (t j : Fin 512) (f : Fin 14336) (hf : f.val = p.val * 512 + j.val) :
    (iblk1 V c 4 p : Vec Ideal S512x512 .f32) (ix2 t j) = (V c main_v1 : S512x14336.Idx → Ideal .f32) (ix2 t f) := by
  obtain ⟨-, -, -, -, -, -, -, -, e0, e1, -⟩ := idx_facts1 p
  unfold iblk1
  rw [View.read_apply]
  show V c main_v1 _ = V c main_v1 _
  congr 1
  funext a; apply Fin.ext
  match a with
  | ⟨0, _⟩ => show win1_4.index p 0 * 512 + 1 * t.val = t.val; rw [e0]; omega
  | ⟨1, _⟩ => show win1_4.index p 1 * 512 + 1 * j.val = f.val; rw [e1, hf]; omega

end Arrays

section Arrays
variable (V : (c : Dev nD) → (b : Ref sig .tc) → Buf (Elt Ideal) ((c : Thread nD τ).loc b))

/-! ## From the blocks to the array -/

/-- WHAT POINT `p` WRITES BACK is block `p` of the gated intermediate of the arrays as the region finds them: entry `(t, j)` of the
    block sits at column `512 p + j`, whose weight row is row `j` of the weight's block and whose group is group `j / 64` of the
    tables' blocks. -/
theorem flushed1_5_eq (c : Dev nD) (p : Fin cfg1.N) :
    (dat1 V c).flushed 5 p = ((cfg1.win 5).blk p).view.read (Elt Ideal)
      (Cert.Spec.interArr (V c main_v0) (V c main_arg7) (V c main_arg8) (V c main_arg9) (V c main_v1)) := by
  show (cfg1.win 5).cut (grid1.coords p) ((dat1 V c).after 5 p) = _
  rw [after1_5]
  funext y
  obtain ⟨t, j, rfl⟩ : ∃ (t : Fin 512) (j : Fin 512), y = ix2 t j := ⟨y 0, y 1, eq_ix2 y⟩
  have hN : cfg1.N = 28 := N_1
  have hp : p.val < 28 := lt_of_lt_of_eq p.isLt hN
  obtain ⟨-, -, -, -, -, -, -, -, -, -, e0, e1⟩ := idx_facts1 p
  obtain ⟨f, hf⟩ : ∃ f : Fin 14336, f.val = p.val * 512 + j.val := ⟨⟨p.val * 512 + j.val, by have := j.isLt; omega⟩, rfl⟩
  have hemb : ((cfg1.win 5).blk p).view.emb (ix2 t j) = (ix2 t f : S512x14336.Idx) := by
    funext a; apply Fin.ext
    match a with
    | ⟨0, _⟩ => show win1_5.index p 0 * 512 + 1 * t.val = t.val; rw [e0]; omega
    | ⟨1, _⟩ => show win1_5.index p 1 * 512 + 1 * j.val = f.val; rw [e1, hf]; omega
  show out1_5 (F := Ideal) c (grid1.coords p) (ms1_0 p) (hs1_0 p) (ms1_1 p) (hs1_1 p) (ms1_2 p) (hs1_2 p) (ms1_3 p) (hs1_3 p) (ms1_4 p) (hs1_4 p) (ms1_5 p) (hs1_5 p) (iblk1 V c 0 p) (iblk1 V c 1 p) (iblk1 V c 2 p) (iblk1 V c 3 p) (iblk1 V c 4 p) (ix2 t j)
    = Cert.Spec.interArr (V c main_v0) (V c main_arg7) (V c main_arg8) (V c main_arg9) (V c main_v1) (((cfg1.win 5).blk p).view.emb (ix2 t j))
  rw [hemb]
  refine (block1_apply c (grid1.coords p) (ms1_0 p) (hs1_0 p) (ms1_1 p) (hs1_1 p) (ms1_2 p) (hs1_2 p) (ms1_3 p) (hs1_3 p) (ms1_4 p) (hs1_4 p) (ms1_5 p) (hs1_5 p) (iblk1 V c 0 p) (iblk1 V c 1 p) (iblk1 V c 2 p) (iblk1 V c 3 p) (iblk1 V c 4 p) t j).trans ?_
  show _ = Cert.Spec.silu ((V c main_v1 : S512x14336.Idx → Ideal .f32) (ix2 t f)) * Cert.Spec.projAt (V c main_v0) (V c main_arg7) (V c main_arg8) (V c main_arg9) t f
  rw [iblk1_4_apply V c p t j f hf]
  refine congrArg (Cert.Spec.silu _ * ·) ?_
  unfold Cert.Spec.projAt
  refine Finset.sum_congr rfl fun k _ => ?_
  have hg : (Cert.Spec.grpA f).val = p.val * 8 + (rowGroup1 j).val := by
    show f.val / 64 = p.val * 8 + j.val / 64
    rw [hf]; omega
  unfold term1 Cert.Spec.wA
  rw [iblk1_0_apply V c p t k, iblk1_1_apply V c p j k f hf, iblk1_3_apply V c p (rowGroup1 j) k (Cert.Spec.grpA f) hg, iblk1_2_apply V c p (rowGroup1 j) k (Cert.Spec.grpA f) hg]

/-- An index of the result array is in point `p`'s block iff each coordinate is in the block's range on its axis. -/
theorem mem_blk1_5 (p : Fin cfg1.N) (i : S512x14336.Idx) :
    i ∈ ((cfg1.win 5).blk p).view.set ↔ ∀ a : Fin 2, win1_5.index p a * S512x512.size a ≤ (i a).val ∧ (i a).val < win1_5.index p a * S512x512.size a + S512x512.size a := by
  show i ∈ ((View.whole main_v2).slice (win1_5.rect p)).set ↔ _
  rw [View.set_slice_whole, Rect.mem_set_unit]
  exact Iff.rfl

/-- Every column lies in the block of the point that is its quotient by 512, and every point writes back. -/
theorem cover1_out (i : S512x14336.Idx) : ∃ p : Fin cfg1.N, (cfg1.win 5).flush p = true ∧ i ∈ ((cfg1.win 5).blk p).view.set := by
  have hN : cfg1.N = 28 := N_1
  have h0 : (i 0).val < 512 := (i 0).isLt
  have h1 : (i 1).val < 14336 := (i 1).isLt
  obtain ⟨p, hp⟩ : ∃ p : Fin cfg1.N, p.val = (i 1).val / 512 := ⟨⟨(i 1).val / 512, by rw [hN]; omega⟩, rfl⟩
  obtain ⟨-, -, -, -, -, -, -, -, -, -, e0, e1⟩ := idx_facts1 p
  refine ⟨p, flush1_5 p, ?_⟩
  rw [mem_blk1_5]
  intro a
  match a with
  | ⟨0, _⟩ => show win1_5.index p 0 * 512 ≤ (i 0).val ∧ (i 0).val < win1_5.index p 0 * 512 + 512; rw [e0]; omega
  | ⟨1, _⟩ => show win1_5.index p 1 * 512 ≤ (i 1).val ∧ (i 1).val < win1_5.index p 1 * 512 + 512; rw [e1, hp]; omega

end Arrays

/-- The array the up-and-combine region writes is the gated intermediate of the arrays it reads. -/
theorem value1 (V : (c : Dev nD) → (b : Ref sig .tc) → Buf (Elt Ideal) ((c : Thread nD τ).loc b)) (c : Dev nD) :
    (dat1 V c).arrAt 5 cfg1.N = Cert.Spec.interArr (V c main_v0) (V c main_arg7) (V c main_arg8) (V c main_arg9) (V c main_v1) := by
  exact (dat1 V c).arrAt_eq_of_cover 5 _ (fun p _ => flushed1_5_eq V c p) cover1_out

end Cert.KernelIdeal.Hand
end
-- ==== Proof.KI.Value2.lean ====
/- What the down projection's region leaves in its result array, at the ideal instance: entry (t, r) is the contraction over the 14336 intermediate coordinates of the intermediate's row t with row r of the dequantized down weight, accumulated over the seven reduction steps of each output block. -/
import proofs.«180202_j18279380812578_1_alg».proof.Proof.KI.Data2
import proofs.«180202_j18279380812578_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

/-! ## One reduction step's partial product, from the step's blocks -/

/-- The group of 64 weight rows a row of a 512-row block lies in. -/
def grp2_8 (j : Fin 512) : Fin 8 := ⟨j.val / 64, by have := j.isLt; omega⟩

/-- Entry (t', j) of one step's partial product: the contraction over the step's 2048 intermediate coordinates of the
    intermediate block's row t' with row j of the dequantized weight block (scale block xs, zero-point block xz). -/
def step2At (x0 : FVec Ideal S512x2048 .bf16) (x1 : IVec S512x2048 32) (xs xz : FVec Ideal S8x2048 .f32) (t' j : Fin 512) : EReal :=
  ∑ k : Fin 2048, x0 (ix2 t' k) * Cert.Spec.deq (x1 (ix2 j k)) (xz (ix2 (grp2_8 j) k)) (xs (ix2 (grp2_8 j) k))

theorem lhs_down2_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_down2_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_down2_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_down2_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The matrix product into a zero accumulator, contracting axis 1 of both operands, at an entry: the sum over the 2048 contracted coordinates. -/
theorem down2_matmul_apply (a : FVec Ideal S512x2048 .bf16) (b : FVec Ideal S512x2048 .bf16) (t' j : Fin 512) :
    matmul dot_S512x2048_S512x2048_S512x512_1_1_0_0_n_n none a b (constant (F := Ideal) S512x512 .f32 0x00000000#32) (ix2 t' j)
      = ∑ k : Fin 2048, a (ix2 t' k) * b (ix2 j k) := by
  simp only [matmul]
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 t' j) ((ValueIdx.contrEquiv1 dot_S512x2048_S512x2048_S512x512_1_1_0_0_n_n 2048 rfl rfl).symm k) = ix2 t' k := funext fun a => Fin.ext (by
    match a with
    | ⟨0, _⟩ => exact lhs_down2_0 _ _
    | ⟨1, _⟩ => exact (lhs_down2_1 _ _).trans hk)
  have er : dot_S512x2048_S512x2048_S512x512_1_1_0_0_n_n.rhsIdx (ix2 t' j) ((ValueIdx.contrEquiv1 dot_S512x2048_S512x2048_S512x512_1_1_0_0_n_n 2048 rfl rfl).symm k) = ix2 j k := funext fun a => Fin.ext (by
    match a with
    | ⟨0, _⟩ => exact rhs_down2_0 _ _
    | ⟨1, _⟩ => exact (rhs_down2_1 _ _).trans hk)
  rw [el, er]

/-- The dequantized weight block at an entry: the 512 x 2048 integers regrouped as 8 groups of 64 rows, each group's
    zero-point row subtracted and its scale row multiplied, and regrouped back. -/
theorem deq2_block_apply (x1 : IVec S512x2048 32) (xs xz : FVec Ideal S8x2048 .f32) (j : Fin 512) (k : Fin 2048) :
    (truncf .bf16 (shapeCast S512x2048
        (mulf (subf (shapeCast S8x64x2048 (sitofp (F := Ideal) .f32 x1) shapeCasts_S512x2048_S8x64x2048)
                (broadcastTo S8x64x2048 (shapeCast S8x1x2048 xz shapeCasts_S8x2048_S8x1x2048) broadcasts_S8x1x2048_S8x64x2048))
          (broadcastTo S8x64x2048 (shapeCast S8x1x2048 xs shapeCasts_S8x2048_S8x1x2048) broadcasts_S8x1x2048_S8x64x2048))
        shapeCasts_S8x64x2048_S512x2048) bitsLt_bf16_f32 : FVec Ideal S512x2048 .bf16) (ix2 j k)
      = Cert.Spec.deq (x1 (ix2 j k)) (xz (ix2 (grp2_8 j) k)) (xs (ix2 (grp2_8 j) k)) := by
  have hj := j.isLt
  have hk := k.isLt
  rw [truncf_apply]
  refine (shapeCast_apply _ shapeCasts_S8x64x2048_S512x2048 (ix2 j k) (ix3 (grp2_8 j) (⟨j.val % 64, by omega⟩ : Fin 64) k) ?_).trans ?_
  · rw [Shape.rowMajor_val_three, Shape.rowMajor_val_two]
    show (j.val / 64 * 64 + j.val % 64) * 2048 + k.val = j.val * 2048 + k.val
    omega
  rw [mulf_apply, subf_apply]
  unfold Cert.Spec.deq
  congr 1
  · congr 1
    · refine (shapeCast_apply _ shapeCasts_S512x2048_S8x64x2048 (ix3 (grp2_8 j) (⟨j.val % 64, by omega⟩ : Fin 64) k) (ix2 j k) ?_).trans ?_
      · rw [Shape.rowMajor_val_three, Shape.rowMajor_val_two]
        show j.val * 2048 + k.val = (j.val / 64 * 64 + j.val % 64) * 2048 + k.val
        omega
      rfl
    · refine (broadcastTo_apply _ broadcasts_S8x1x2048_S8x64x2048 (ix3 (grp2_8 j) (⟨j.val % 64, by omega⟩ : Fin 64) k) (ix3 (grp2_8 j) (0 : Fin 1) k) ?_).trans ?_
      · intro a
        match a with
        | ⟨0, _⟩ => rfl
        | ⟨1, _⟩ => rfl
        | ⟨2, _⟩ => rfl
      refine shapeCast_apply _ shapeCasts_S8x2048_S8x1x2048 (ix3 (grp2_8 j) (0 : Fin 1) k) (ix2 (grp2_8 j) k) ?_
      rw [Shape.rowMajor_val_three, Shape.rowMajor_val_two]
      show (j.val / 64) * 2048 + k.val = ((j.val / 64) * 1 + 0) * 2048 + k.val
      omega
  · refine (broadcastTo_apply _ broadcasts_S8x1x2048_S8x64x2048 (ix3 (grp2_8 j) (⟨j.val % 64, by omega⟩ : Fin 64) k) (ix3 (grp2_8 j) (0 : Fin 1) k) ?_).trans ?_
    · intro a
      match a with
      | ⟨0, _⟩ => rfl
      | ⟨1, _⟩ => rfl
      | ⟨2, _⟩ => rfl
    refine shapeCast_apply _ shapeCasts_S8x2048_S8x1x2048 (ix3 (grp2_8 j) (0 : Fin 1) k) (ix2 (grp2_8 j) k) ?_
    rw [Shape.rowMajor_val_three, Shape.rowMajor_val_two]
    show (j.val / 64) * 2048 + k.val = ((j.val / 64) * 1 + 0) * 2048 + k.val
    omega

/-- THE STEP'S PAYLOAD AT AN ENTRY: the accumulator found plus the step's partial product. -/
theorem k2_pay2_apply (x0 : FVec Ideal S512x2048 .bf16) (x1 : IVec S512x2048 32) (xs xz : FVec Ideal S8x2048 .f32)
    (acc : FVec Ideal S512x512 .f32) (t' j : Fin 512) :
    k2_pay2 (F := Ideal) x1 xs xz x0 acc (ix2 t' j) = acc (ix2 t' j) + step2At x0 x1 xs xz t' j := by
  unfold k2_pay2
  rw [shapeCast_self, addf_apply, shapeCast_self]
  congr 1
  refine (down2_matmul_apply _ _ t' j).trans ?_
  unfold step2At
  refine Finset.sum_congr rfl fun k _ => ?_
  congr 1
  exact deq2_block_apply x1 xs xz j k

/-- The reset payload is zero everywhere. -/
theorem k2_pay1_apply (i : S512x512.Idx) : k2_pay1 (F := Ideal) i = 0 := by
  unfold k2_pay1
  rw [shapeCast_self, broadcast_apply]
  exact Ideal.ofBits_zero_f32

theorem hz2 : (![0, 0] : Fin 2 → Nat) = fun _ => 0 := funext fun a => by fin_cases a <;> rfl

/-! ## What each control case leaves, as the step's payload of the blocks it loaded -/

section Pieces
variable {F : FTy → Type} [FloatOps F]

/-- FIRST STEP: the accumulator is reset, read back, and left at the step's payload of the reset value. -/
theorem accA2_eq (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole)
    (hc0 : cond2_0 i) (hc1 : ¬cond2_1 i)
    (x0 : Vec F S512x2048 .bf16) (x1 : Vec F S512x2048 .i32) (x2 : Vec F S8x2048 .f32) (x3 : Vec F S8x2048 .f32)
    (hcov : ∀ y : S512x512.Idx, ∃ pc ∈ (kernelRun2_A (F := F) c i arg2 harg2 arg3 harg3 arg4 harg4 arg5 harg5 arg6 harg6 arg7 harg7 hc0 hc1 x0 x1 x2 x3).1, y ∈ pc.1.set) :
    VS2.read (Elt F) (VS2.writes (Elt F) VS2.junk (kernelRun2_A (F := F) c i arg2 harg2 arg3 harg3 arg4 harg4 arg5 harg5 arg6 harg6 arg7 harg7 hc0 hc1 x0 x1 x2 x3).1)
      = k2_pay2 x1 x2 x3 x0 (k2_pay1 (F := F)) := by
  rw [View.read_writes_eq_canon _ _ _ hcov]
  unfold kernelRun2_A
  dsimp only
  sl_unfold_words
  rw [View.canon_cons_unit_zero (S := S512x512) hz2, View.readCov_unit_zero (S := S512x512) _ hz2]
  simp only [View.readAt_eq_ld, Memref.IsWhole.read_unread, View.ld_unit_zero (S := S512x2048) hz2, View.ld_unit_zero (S := S8x2048) hz2]

/-- MIDDLE STEP: the accumulator, found at xs, is left at the step's payload of xs. -/
theorem accB2_eq (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole)
    (hc0 : ¬cond2_0 i) (hc1 : ¬cond2_1 i)
    (x0 : Vec F S512x2048 .bf16) (x1 : Vec F S512x2048 .i32) (x2 : Vec F S8x2048 .f32) (x3 : Vec F S8x2048 .f32) (xs : Vec F S512x512 .f32)
    (hcov : ∀ y : S512x512.Idx, ∃ pc ∈ (kernelRun2_B (F := F) c i arg2 harg2 arg3 harg3 arg4 harg4 arg5 harg5 arg6 harg6 arg7 harg7 hc0 hc1 x0 x1 x2 x3 xs).1, y ∈ pc.1.set) :
    VS2.read (Elt F) (VS2.writes (Elt F) VS2.junk (kernelRun2_B (F := F) c i arg2 harg2 arg3 harg3 arg4 harg4 arg5 harg5 arg6 harg6 arg7 harg7 hc0 hc1 x0 x1 x2 x3 xs).1)
      = k2_pay2 x1 x2 x3 x0 xs := by
  rw [View.read_writes_eq_canon _ _ _ hcov]
  unfold kernelRun2_B
  dsimp only
  sl_unfold_words
  rw [View.canon_unit_zero (S := S512x512) hz2]
  simp only [View.readAt_eq_ld, Memref.IsWhole.read_unread, View.ld_unit_zero (S := S512x2048) hz2, View.ld_unit_zero (S := S8x2048) hz2, View.ld_unit_zero (S := S512x512) hz2]

/-- LAST STEP, the accumulator: as in a middle step. -/
theorem accC2_eq (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole)
    (hc0 : ¬cond2_0 i) (hc1 : cond2_1 i)
    (x0 : Vec F S512x2048 .bf16) (x1 : Vec F S512x2048 .i32) (x2 : Vec F S8x2048 .f32) (x3 : Vec F S8x2048 .f32) (xs : Vec F S512x512 .f32)
    (hcov : ∀ y : S512x512.Idx, ∃ pc ∈ (kernelRun2_C (F := F) c i arg2 harg2 arg3 harg3 arg4 harg4 arg5 harg5 arg6 harg6 arg7 harg7 hc0 hc1 x0 x1 x2 x3 xs).2.1, y ∈ pc.1.set) :
    VS2.read (Elt F) (VS2.writes (Elt F) VS2.junk (kernelRun2_C (F := F) c i arg2 harg2 arg3 harg3 arg4 harg4 arg5 harg5 arg6 harg6 arg7 harg7 hc0 hc1 x0 x1 x2 x3 xs).2.1)
      = k2_pay2 x1 x2 x3 x0 xs := by
  rw [View.read_writes_eq_canon _ _ _ hcov]
  unfold kernelRun2_C
  dsimp only
  sl_unfold_words
  rw [View.canon_unit_zero (S := S512x512) hz2]
  simp only [View.readAt_eq_ld, Memref.IsWhole.read_unread, View.ld_unit_zero (S := S512x2048) hz2, View.ld_unit_zero (S := S8x2048) hz2, View.ld_unit_zero (S := S512x512) hz2]

/-- LAST STEP, the output block: the accumulator loaded after its store, hence the same payload. -/
theorem outC2_eq (c : Dev nD) (i : grid2.Coords)
    (arg2 : Memref sig .tc .vmem S512x2048 .bf16) (harg2 : arg2.IsWhole) (arg3 : Memref sig .tc .vmem S512x2048 .i32) (harg3 : arg3.IsWhole)
    (arg4 : Memref sig .tc .vmem S8x2048 .f32) (harg4 : arg4.IsWhole) (arg5 : Memref sig .tc .vmem S8x2048 .f32) (harg5 : arg5.IsWhole)
    (arg6 : Memref sig .tc .vmem S512x512 .f32) (harg6 : arg6.IsWhole) (arg7 : Memref sig .tc .vmem S512x512 .f32) (harg7 : arg7.IsWhole)
    (hc0 : ¬cond2_0 i) (hc1 : cond2_1 i)
    (x0 : Vec F S512x2048 .bf16) (x1 : Vec F S512x2048 .i32) (x2 : Vec F S8x2048 .f32) (x3 : Vec F S8x2048 .f32) (xs : Vec F S512x512 .f32)
    (hcov : ∀ y : S512x512.Idx, ∃ pc ∈ (kernelRun2_C (F := F) c i arg2 harg2 arg3 harg3 arg4 harg4 arg5 harg5 arg6 harg6 arg7 harg7 hc0 hc1 x0 x1 x2 x3 xs).1, y ∈ pc.1.set) :
    VO2_4.read (Elt F) (VO2_4.writes (Elt F) VO2_4.junk (kernelRun2_C (F := F) c i arg2 harg2 arg3 harg3 arg4 harg4 arg5 harg5 arg6 harg6 arg7 harg7 hc0 hc1 x0 x1 x2 x3 xs).1)
      = k2_pay2 x1 x2 x3 x0 xs := by
  rw [View.read_writes_eq_canon _ _ _ hcov]
  unfold kernelRun2_C
  dsimp only
  sl_unfold_words
  rw [View.canon_unit_zero (S := S512x512) hz2, View.readCov_unit_zero (S := S512x512) _ hz2]
  simp only [View.readAt_eq_ld, Memref.IsWhole.read_unread, View.ld_unit_zero (S := S512x2048) hz2, View.ld_unit_zero (S := S8x2048) hz2, View.ld_unit_zero (S := S512x512) hz2]

end Pieces

/-! ## The arrays and the blocks, named at their literal types -/

section Value
variable (V : (c : Dev nD) → (b : Ref sig .tc) → Buf (Elt Ideal) ((c : Thread nD τ).loc b)) (c : Dev nD)

/-- The intermediate, the integer weight, its scales and its zero points, as the region finds them. -/
abbrev arrH2 : FVec Ideal (Cert.Spec.S2 512 14336) .bf16 := V c main_v2
abbrev arrQ2 : IVec (Cert.Spec.S2 4096 14336) 32 := V c main_arg4
abbrev arrS2 : FVec Ideal (Cert.Spec.S2 64 14336) .f32 := V c main_arg5
abbrev arrZ2 : FVec Ideal (Cert.Spec.S2 64 14336) .f32 := V c main_arg6

/-- Their blocks at a grid point. -/
abbrev blkH2 (t : Fin cfg2.N) : FVec Ideal S512x2048 .bf16 := iblk2 V c 0 t
abbrev blkQ2 (t : Fin cfg2.N) : IVec S512x2048 32 := iblk2 V c 1 t
abbrev blkS2 (t : Fin cfg2.N) : FVec Ideal S8x2048 .f32 := iblk2 V c 2 t
abbrev blkZ2 (t : Fin cfg2.N) : FVec Ideal S8x2048 .f32 := iblk2 V c 3 t

/-- The block indices over the grid: point t is output block t / 7 at reduction step t % 7. -/
theorem idx_facts2 : ∀ t : Fin cfg2.N,
    win2_0.index t (0 : Fin 2) = 0 ∧ win2_0.index t (1 : Fin 2) = t.val % 7
    ∧ win2_1.index t (0 : Fin 2) = t.val / 7 ∧ win2_1.index t (1 : Fin 2) = t.val % 7
    ∧ win2_2.index t (0 : Fin 2) = t.val / 7 ∧ win2_2.index t (1 : Fin 2) = t.val % 7
    ∧ win2_3.index t (0 : Fin 2) = t.val / 7 ∧ win2_3.index t (1 : Fin 2) = t.val % 7
    ∧ win2_4.index t (0 : Fin 2) = 0 ∧ win2_4.index t (1 : Fin 2) = t.val / 7 :=
  (by decide +kernel : ∀ t : Fin grid2.N, _)

/-- The intermediate's block at step t % 7 holds columns [2048 (t % 7), +2048). -/
theorem blkH2_apply (t : Fin cfg2.N) (t' : Fin 512) (k : Fin 2048) :
    blkH2 V c t (ix2 t' k) = arrH2 V c (ix2 t' ⟨t.val % 7 * 2048 + k.val, by have := k.isLt; omega⟩) := by
  obtain ⟨e0, e1, -⟩ := idx_facts2 t
  show V c main_v2 (((cfg2.win 0).blk t).view.emb (ix2 t' k)) = V c main_v2 _
  congr 1
  funext a; apply Fin.ext
  match a with
  | ⟨0, _⟩ => show win2_0.index t (0 : Fin 2) * 512 + 1 * t'.val = t'.val; rw [e0]; omega
  | ⟨1, _⟩ => show win2_0.index t (1 : Fin 2) * 2048 + 1 * k.val = t.val % 7 * 2048 + k.val; rw [e1]; omega

/-- The weight's block holds rows [512 (t / 7), +512) and the same columns. -/
theorem blkQ2_apply (t : Fin cfg2.N) (j : Fin 512) (k : Fin 2048) :
    blkQ2 V c t (ix2 j k) = arrQ2 V c (ix2 ⟨t.val / 7 % 8 * 512 + j.val, by have := j.isLt; omega⟩ ⟨t.val % 7 * 2048 + k.val, by have := k.isLt; omega⟩) := by
  obtain ⟨-, -, e0, e1, -⟩ := idx_facts2 t
  have hN : t.val < 56 := lt_of_lt_of_eq t.isLt (show cfg2.N = 56 from N_2)
  show V c main_arg4 (((cfg2.win 1).blk t).view.emb (ix2 j k)) = V c main_arg4 _
  congr 1
  funext a; apply Fin.ext
  match a with
  | ⟨0, _⟩ => show win2_1.index t (0 : Fin 2) * 512 + 1 * j.val = t.val / 7 % 8 * 512 + j.val; rw [e0]; omega
  | ⟨1, _⟩ => show win2_1.index t (1 : Fin 2) * 2048 + 1 * k.val = t.val % 7 * 2048 + k.val; rw [e1]; omega

/-- The scales' block holds the 8 groups of those rows: row j of the block is in group (512 (t / 7) + j) / 64 of the weight. -/
theorem blkS2_apply (t : Fin cfg2.N) (j : Fin 512) (k : Fin 2048) :
    blkS2 V c t (ix2 (grp2_8 j) k) = arrS2 V c (ix2 (Cert.Spec.grpB ⟨t.val / 7 % 8 * 512 + j.val, by have := j.isLt; omega⟩) ⟨t.val % 7 * 2048 + k.val, by have := k.isLt; omega⟩) := by
  obtain ⟨-, -, -, -, e0, e1, -⟩ := idx_facts2 t
  have hN : t.val < 56 := lt_of_lt_of_eq t.isLt (show cfg2.N = 56 from N_2)
  have hj := j.isLt
  show V c main_arg5 (((cfg2.win 2).blk t).view.emb (ix2 (grp2_8 j) k)) = V c main_arg5 _
  congr 1
  funext a; apply Fin.ext
  match a with
  | ⟨0, _⟩ => show win2_2.index t (0 : Fin 2) * 8 + 1 * (j.val / 64) = (t.val / 7 % 8 * 512 + j.val) / 64; rw [e0]; omega
  | ⟨1, _⟩ => show win2_2.index t (1 : Fin 2) * 2048 + 1 * k.val = t.val % 7 * 2048 + k.val; rw [e1]; omega

/-- The zero points' block likewise. -/
theorem blkZ2_apply (t : Fin cfg2.N) (j : Fin 512) (k : Fin 2048) :
    blkZ2 V c t (ix2 (grp2_8 j) k) = arrZ2 V c (ix2 (Cert.Spec.grpB ⟨t.val / 7 % 8 * 512 + j.val, by have := j.isLt; omega⟩) ⟨t.val % 7 * 2048 + k.val, by have := k.isLt; omega⟩) := by
  obtain ⟨-, -, -, -, -, -, e0, e1, -⟩ := idx_facts2 t
  have hN : t.val < 56 := lt_of_lt_of_eq t.isLt (show cfg2.N = 56 from N_2)
  have hj := j.isLt
  show V c main_arg6 (((cfg2.win 3).blk t).view.emb (ix2 (grp2_8 j) k)) = V c main_arg6 _
  congr 1
  funext a; apply Fin.ext
  match a with
  | ⟨0, _⟩ => show win2_3.index t (0 : Fin 2) * 8 + 1 * (j.val / 64) = (t.val / 7 % 8 * 512 + j.val) / 64; rw [e0]; omega
  | ⟨1, _⟩ => show win2_3.index t (1 : Fin 2) * 2048 + 1 * k.val = t.val % 7 * 2048 + k.val; rw [e1]; omega

/-! ## One reduction step's addend, read off the arrays -/

/-- Position s's addend to entry (t', j) of its output block: the contraction of the intermediate's row t' with the
    dequantized weight's row 512 (s / 7) + j over the 2048 columns of reduction step s % 7. (The position is reduced modulo
    the grid's extents so that the definition asks for no bound.) -/
def part2At (s : ℕ) (t' j : Fin 512) : EReal :=
  ∑ k : Fin 2048, arrH2 V c (ix2 t' ⟨s % 7 * 2048 + k.val, by have := k.isLt; omega⟩)
    * Cert.Spec.wB (arrQ2 V c) (arrS2 V c) (arrZ2 V c) ⟨s / 7 % 8 * 512 + j.val, by have := j.isLt; omega⟩ ⟨s % 7 * 2048 + k.val, by have := k.isLt; omega⟩

/-- The partial product of the blocks at point t is position t's addend. -/
theorem step2At_blocks (t : Fin cfg2.N) (t' j : Fin 512) :
    step2At (blkH2 V c t) (blkQ2 V c t) (blkS2 V c t) (blkZ2 V c t) t' j = part2At V c t.val t' j := by
  unfold step2At part2At Cert.Spec.wB
  refine Finset.sum_congr rfl fun k _ => ?_
  rw [blkH2_apply V c t t' k, blkQ2_apply V c t j k, blkS2_apply V c t j k, blkZ2_apply V c t j k]

/-! ## The three cases at an entry -/

/-- A first step leaves its own addend. -/
theorem soutA2_apply (t : Fin cfg2.N) (h0 : t.val % 7 = 0) (h1 : ¬t.val % 7 = 6) (t' j : Fin 512) :
    (soutA V c t h0 h1 : FVec Ideal S512x512 .f32) (ix2 t' j) = part2At V c t.val t' j := by
  unfold soutA
  refine (congrFun (accA2_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t) (scover2_A V c t h0 h1)) (ix2 t' j)).trans ?_
  refine (k2_pay2_apply (blkH2 V c t) (blkQ2 V c t) (blkS2 V c t) (blkZ2 V c t) (k2_pay1 (F := Ideal)) t' j).trans ?_
  rw [k2_pay1_apply, zero_add]
  exact step2At_blocks V c t t' j

/-- A middle step adds its addend to what it finds. -/
theorem soutB2_apply (t : Fin cfg2.N) (h0 : ¬t.val % 7 = 0) (h1 : ¬t.val % 7 = 6) (xs : FVec Ideal S512x512 .f32) (t' j : Fin 512) :
    (soutB V c t h0 h1 xs : FVec Ideal S512x512 .f32) (ix2 t' j) = xs (ix2 t' j) + part2At V c t.val t' j := by
  unfold soutB
  refine (congrFun (accB2_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs (scover2_B V c t h0 h1 xs)) (ix2 t' j)).trans ?_
  refine (k2_pay2_apply (blkH2 V c t) (blkQ2 V c t) (blkS2 V c t) (blkZ2 V c t) xs t' j).trans ?_
  rw [step2At_blocks V c t t' j]

/-- So does the last step, -/
theorem soutC2_apply (t : Fin cfg2.N) (h0 : ¬t.val % 7 = 0) (h1 : t.val % 7 = 6) (xs : FVec Ideal S512x512 .f32) (t' j : Fin 512) :
    (soutC V c t h0 h1 xs : FVec Ideal S512x512 .f32) (ix2 t' j) = xs (ix2 t' j) + part2At V c t.val t' j := by
  unfold soutC
  refine (congrFun (accC2_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs (scover2_C V c t h0 h1 xs)) (ix2 t' j)).trans ?_
  refine (k2_pay2_apply (blkH2 V c t) (blkQ2 V c t) (blkS2 V c t) (blkZ2 V c t) xs t' j).trans ?_
  rw [step2At_blocks V c t t' j]

/-- and its output block is the accumulator it leaves. -/
theorem outC2_apply (t : Fin cfg2.N) (h0 : ¬t.val % 7 = 0) (h1 : t.val % 7 = 6) (xs : FVec Ideal S512x512 .f32) (t' j : Fin 512) :
    (outC V c t h0 h1 xs : FVec Ideal S512x512 .f32) (ix2 t' j) = xs (ix2 t' j) + part2At V c t.val t' j := by
  unfold outC
  refine (congrFun (outC2_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) xs (cover2_C_4 V c t h0 h1 xs)) (ix2 t' j)).trans ?_
  refine (k2_pay2_apply (blkH2 V c t) (blkQ2 V c t) (blkS2 V c t) (blkZ2 V c t) xs t' j).trans ?_
  rw [step2At_blocks V c t t' j]

/-! ## The invariant: the accumulator is the running sum of its block's addends -/

/-- After position n the accumulator holds, at each entry, the sum of the addends of the positions from the first step
    of n's output block (position n - n % 7) up to n. -/
theorem acc2_inv (n : ℕ) : ∀ (hn : n < cfg2.N) (t' j : Fin 512),
    ((outsAt2 V c n hn).2 : FVec Ideal S512x512 .f32) (ix2 t' j) = ∑ s ∈ Finset.range (n % 7 + 1), part2At V c (n - n % 7 + s) t' j := by
  induction n with
  | zero =>
    intro hn t' j
    rw [outsAt2_A V c ⟨0, hn⟩ (Nat.zero_mod 7) (by show ¬(0 % 7 = 6); decide)]
    dsimp only
    refine (soutA2_apply V c ⟨0, hn⟩ (Nat.zero_mod 7) (by show ¬(0 % 7 = 6); decide) t' j).trans ?_
    simp
  | succ n ih =>
    intro hn t' j
    by_cases h0 : (n + 1) % 7 = 0
    · have h1 : ¬(n + 1) % 7 = 6 := by omega
      rw [outsAt2_A V c ⟨n + 1, hn⟩ h0 h1]
      dsimp only
      refine (soutA2_apply V c ⟨n + 1, hn⟩ h0 h1 t' j).trans ?_
      rw [h0]
      simp
    · have e1 : (n + 1) % 7 = n % 7 + 1 := by omega
      have e2 : n + 1 - (n % 7 + 1) = n - n % 7 := by omega
      have e3 : n - n % 7 + (n % 7 + 1) = n + 1 := by have := Nat.mod_le n 7; omega
      by_cases h1 : (n + 1) % 7 = 6
      · rw [outsAt2_C V c ⟨n + 1, hn⟩ h0 h1]
        dsimp only
        refine (soutC2_apply V c ⟨n + 1, hn⟩ h0 h1 _ t' j).trans ?_
        show ((outsAt2 V c n (Nat.lt_of_succ_lt hn)).2 : FVec Ideal S512x512 .f32) (ix2 t' j) + part2At V c (n + 1) t' j = _
        rw [ih (Nat.lt_of_succ_lt hn) t' j, e1, e2, Finset.sum_range_succ _ (n % 7 + 1), e3]
      · rw [outsAt2_B V c ⟨n + 1, hn⟩ h0 h1]
        dsimp only
        refine (soutB2_apply V c ⟨n + 1, hn⟩ h0 h1 _ t' j).trans ?_
        show ((outsAt2 V c n (Nat.lt_of_succ_lt hn)).2 : FVec Ideal S512x512 .f32) (ix2 t' j) + part2At V c (n + 1) t' j = _
        rw [ih (Nat.lt_of_succ_lt hn) t' j, e1, e2, Finset.sum_range_succ _ (n % 7 + 1), e3]

/-! ## The output block after its last step is the block of the down projection -/

/-- A position's addend depends on the position only through its reduction step f and its output block b. -/
theorem part2At_of (s : ℕ) (b : Fin 8) (f : Fin 7) (hf : s % 7 = f.val) (hb : s / 7 % 8 = b.val) (t' j : Fin 512) :
    part2At V c s t' j = ∑ k : Fin 2048, arrH2 V c (ix2 t' ⟨f.val * 2048 + k.val, by have := k.isLt; have := f.isLt; omega⟩)
      * Cert.Spec.wB (arrQ2 V c) (arrS2 V c) (arrZ2 V c) ⟨b.val * 512 + j.val, by have := j.isLt; have := b.isLt; omega⟩
          ⟨f.val * 2048 + k.val, by have := k.isLt; have := f.isLt; omega⟩ := by
  unfold part2At
  refine Finset.sum_congr rfl fun k _ => ?_
  have eA : (⟨s % 7 * 2048 + k.val, by have := k.isLt; omega⟩ : Fin 14336) = ⟨f.val * 2048 + k.val, by have := k.isLt; have := f.isLt; omega⟩ :=
    Fin.ext (by show s % 7 * 2048 + k.val = f.val * 2048 + k.val; rw [hf])
  have eB : (⟨s / 7 % 8 * 512 + j.val, by have := j.isLt; omega⟩ : Fin 4096) = ⟨b.val * 512 + j.val, by have := j.isLt; have := b.isLt; omega⟩ :=
    Fin.ext (by show s / 7 % 8 * 512 + j.val = b.val * 512 + j.val; rw [hb])
  rw [eA, eB]

/-- At a last step the output block holds the sum of its seven steps' addends: the whole contraction over the 14336
    intermediate coordinates, cut into seven chunks of 2048. -/
theorem out2_total (t : Fin cfg2.N) (h1 : t.val % 7 = 6) (t' j : Fin 512) :
    ((outsAt2 V c t.val t.isLt).1 : FVec Ideal S512x512 .f32) (ix2 t' j)
      = Cert.Spec.downAt (arrH2 V c) (arrQ2 V c) (arrS2 V c) (arrZ2 V c) t'
          ⟨t.val / 7 * 512 + j.val, by have := j.isLt; have := lt_of_lt_of_eq t.isLt (show cfg2.N = 56 from N_2); omega⟩ := by
  have hN : t.val < 56 := lt_of_lt_of_eq t.isLt (show cfg2.N = 56 from N_2)
  have h0 : ¬t.val % 7 = 0 := by omega
  rw [outsAt2_C V c t h0 h1]
  dsimp only
  refine (outC2_apply V c t h0 h1 _ t' j).trans ?_
  rw [acc2_inv V c (t.val - 1) _ t' j]
  have e1 : (t.val - 1) % 7 + 1 = 6 := by omega
  have e2 : t.val - 1 - (t.val - 1) % 7 = t.val - 6 := by omega
  have e3 : part2At V c t.val t' j = part2At V c (t.val - 6 + 6) t' j := by congr 1; omega
  rw [e1, e2, e3, ← Finset.sum_range_succ (fun s => part2At V c (t.val - 6 + s) t' j) 6]
  unfold Cert.Spec.downAt
  rw [Cert.Spec.sum_chunks 7 2048 14336 rfl, Finset.sum_range]
  refine Finset.sum_congr rfl fun f _ => ?_
  have hf := f.isLt
  refine (part2At_of V c (t.val - 6 + f.val) ⟨t.val / 7, by omega⟩ f (by omega) (by show (t.val - 6 + f.val) / 7 % 8 = t.val / 7; omega) t' j).trans ?_
  rfl

/-- The same at any index of the block. -/
theorem out2_total' (t : Fin cfg2.N) (h1 : t.val % 7 = 6) (z : S512x512.Idx) :
    ((outsAt2 V c t.val t.isLt).1 : FVec Ideal S512x512 .f32) z
      = Cert.Spec.downAt (arrH2 V c) (arrQ2 V c) (arrS2 V c) (arrZ2 V c) ⟨(z 0).val, (z 0).isLt⟩
          ⟨t.val / 7 * 512 + (z 1).val, by have : (z 1).val < 512 := (z 1).isLt; have := lt_of_lt_of_eq t.isLt (show cfg2.N = 56 from N_2); omega⟩ := by
  obtain ⟨p, q, rfl⟩ : ∃ (p q : Fin 512), z = ix2 p q := ⟨z 0, z 1, eq_ix2 z⟩
  exact out2_total V c t h1 p q

/-! ## From blocks to the array -/

/-- The down projection's array at an index whose coordinates are known. -/
theorem downArr2_at (h : FVec Ideal (Cert.Spec.S2 512 14336) .bf16) (q : IVec (Cert.Spec.S2 4096 14336) 32) (s z : FVec Ideal (Cert.Spec.S2 64 14336) .f32)
    (i : (Cert.Spec.S2 512 4096).Idx) (a : Fin 512) (b : Fin 4096) (ha : a.val = (i 0).val) (hb : b.val = (i 1).val) :
    Cert.Spec.downAt h q s z a b = Cert.Spec.downArr h q s z i := by
  unfold Cert.Spec.downArr
  have e0 : a = i 0 := Fin.ext ha
  have e1 : b = i 1 := Fin.ext hb
  rw [e0, e1]

/-- What a last step writes back is its block of the down projection of the arrays. -/
theorem flushed2_4_eq (t : Fin cfg2.N) (hf : (cfg2.win 4).flush t = true) :
    (dat2 V c).flushed 4 t = ((cfg2.win 4).blk t).view.read (Elt Ideal)
      (Cert.Spec.downArr (V c main_v2) (V c main_arg4) (V c main_arg5) (V c main_arg6)) := by
  have h1 : t.val % 7 = 6 := (flush2_4 t).mp hf
  obtain ⟨-, -, -, -, -, -, -, -, e0, e1⟩ := idx_facts2 t
  show (cfg2.win 4).cut (grid2.coords t) ((dat2 V c).after 4 t) = _
  rw [after2_4]
  funext y
  show ((outsAt2 V c t.val t.isLt).1 : FVec Ideal S512x512 .f32) ((cfg2.win 4).xinj (grid2.coords t) y)
    = Cert.Spec.downArr (V c main_v2) (V c main_arg4) (V c main_arg5) (V c main_arg6) (((cfg2.win 4).blk t).view.emb y)
  refine (out2_total' V c t h1 ((cfg2.win 4).xinj (grid2.coords t) y)).trans ?_
  refine downArr2_at (V c main_v2) (V c main_arg4) (V c main_arg5) (V c main_arg6) (((cfg2.win 4).blk t).view.emb y) _ _ ?_ ?_
  · show (y 0).val = win2_4.index t (0 : Fin 2) * 512 + 1 * (y 0).val
    rw [e0]; omega
  · show t.val / 7 * 512 + (y 1).val = win2_4.index t (1 : Fin 2) * 512 + 1 * (y 1).val
    rw [e1]; omega

/-- An index of the result array is in point t's block iff each coordinate is in the block's range on its axis. -/
theorem mem_blk2_4 (t : Fin cfg2.N) (i : S512x4096.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v3).slice (win2_4.rect t)).set ↔ _
  rw [View.set_slice_whole, Rect.mem_set_unit]
  exact Iff.rfl

end Value

/-- The array the down region writes is the down projection of the arrays it reads. -/
theorem value2 (V : (c : Dev nD) → (b : Ref sig .tc) → Buf (Elt Ideal) ((c : Thread nD τ).loc b)) (c : Dev nD) :
    (dat2 V c).arrAt 4 cfg2.N = Cert.Spec.downArr (V c main_v2) (V c main_arg4) (V c main_arg5) (V c main_arg6) := by
  have hN : cfg2.N = 56 := N_2
  refine (dat2 V c).arrAt_eq_of_cover 4 _ (fun t hf => flushed2_4_eq V c t hf) fun i => ?_
  have hi0 : (i 0).val < 512 := (i 0).isLt
  have hi1 : (i 1).val < 4096 := (i 1).isLt
  obtain ⟨t, ht⟩ : ∃ t : Fin cfg2.N, t.val = 7 * ((i 1).val / 512) + 6 := ⟨⟨7 * ((i 1).val / 512) + 6, by omega⟩, rfl⟩
  obtain ⟨-, -, -, -, -, -, -, -, e0, e1⟩ := idx_facts2 t
  refine ⟨t, (flush2_4 t).mpr (by omega), ?_⟩
  rw [mem_blk2_4]
  intro a
  match a with
  | ⟨0, _⟩ =>
    show win2_4.index t (0 : Fin 2) * 512 ≤ (i 0).val ∧ (i 0).val < win2_4.index t (0 : Fin 2) * 512 + 512
    rw [e0]; omega
  | ⟨1, _⟩ =>
    show win2_4.index t (1 : Fin 2) * 512 ≤ (i 1).val ∧ (i 1).val < win2_4.index t (1 : Fin 2) * 512 + 512
    rw [e1]; omega

end Cert.KernelIdeal.Hand

end
-- ==== Proof.KI.Value.lean ====
/- The idealized kernel's run with its result named: the result array ends at the specification's layer of the argument arrays.
   The host's cast of the activations is the identity at the ideal instance; each region's result array is its contraction of the
   arrays it reads (the three region lemmas); every array a region only reads, and every array it does not touch, reaches the
   next region as it was. -/
import proofs.«180202_j18279380812578_1_alg».proof.Proof.KI.Main
import proofs.«180202_j18279380812578_1_alg».proof.Proof.KI.Value0
import proofs.«180202_j18279380812578_1_alg».proof.Proof.KI.Value1
import proofs.«180202_j18279380812578_1_alg».proof.Proof.KI.Value2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- After the host's cast the activations' buffer holds the argument itself: a change of float format is the identity on extended
    reals. -/
theorem U1_main_v0 (c : Dev nD) :
    (U1 m ρ c (Proc.devRef .tc main_v0) : FVec Ideal S512x4096 .bf16) = (m ((c : Thread nD τ).loc main_arg0) : FVec Ideal S512x4096 .f32) := by
  show StableHlo.after hostOps0 (fun b => m (c, b)) (Proc.devRef .tc main_v0) = _
  after_results; rfl

/-- The result array at the last boundary is the layer of the launch contents of the arguments. -/
theorem U4_main_v3 (c : Dev nD) :
    U4 m ρ c (Proc.devRef .tc main_v3)
      = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have ex : (Vr1 m ρ c main_v0 : FVec Ideal S512x4096 .bf16) = ((m ((c : Thread nD τ).loc main_arg0)) : FVec Ideal S512x4096 .f32) := U1_main_v0 m ρ c
  have ex2 : (Vr2 m ρ c main_v0 : FVec Ideal S512x4096 .bf16) = ((m ((c : Thread nD τ).loc main_arg0)) : FVec Ideal S512x4096 .f32) := (U2_main_v0 m ρ c).trans ex
  have e0 : Vr2 m ρ c main_v1 = Cert.Spec.projArr (m ((c : Thread nD τ).loc main_arg0)) (m ((c : Thread nD τ).loc main_arg1)) (m ((c : Thread nD τ).loc main_arg2)) (m ((c : Thread nD τ).loc main_arg3)) := by
    refine ((U2_arr m ρ c 4).trans (value0 (Vr1 m ρ) c)).trans ?_
    rw [ex, show Vr1 m ρ c main_arg1 = _ from U1_main_arg1 m ρ c, show Vr1 m ρ c main_arg2 = _ from U1_main_arg2 m ρ c, show Vr1 m ρ c main_arg3 = _ from U1_main_arg3 m ρ c]
  have e1 : Vr3 m ρ c main_v2 = Cert.Spec.interArr (m ((c : Thread nD τ).loc main_arg0)) (m ((c : Thread nD τ).loc main_arg7)) (m ((c : Thread nD τ).loc main_arg8)) (m ((c : Thread nD τ).loc main_arg9)) (Cert.Spec.projArr (m ((c : Thread nD τ).loc main_arg0)) (m ((c : Thread nD τ).loc main_arg1)) (m ((c : Thread nD τ).loc main_arg2)) (m ((c : Thread nD τ).loc main_arg3))) := by
    refine ((U3_arr m ρ c 5).trans (value1 (Vr2 m ρ) c)).trans ?_
    rw [ex2, e0, show Vr2 m ρ c main_arg7 = _ from (U2_main_arg7 m ρ c).trans (U1_main_arg7 m ρ c),
      show Vr2 m ρ c main_arg8 = _ from (U2_main_arg8 m ρ c).trans (U1_main_arg8 m ρ c),
      show Vr2 m ρ c main_arg9 = _ from (U2_main_arg9 m ρ c).trans (U1_main_arg9 m ρ c)]
  refine ((U4_arr m ρ c 4).trans (value2 (Vr3 m ρ) c)).trans ?_
  rw [e1, show Vr3 m ρ c main_arg4 = _ from (U3_main_arg4 m ρ c).trans ((U2_main_arg4 m ρ c).trans (U1_main_arg4 m ρ c)),
    show Vr3 m ρ c main_arg5 = _ from (U3_main_arg5 m ρ c).trans ((U2_main_arg5 m ρ c).trans (U1_main_arg5 m ρ c)),
    show Vr3 m ρ c main_arg6 = _ from (U3_main_arg6 m ρ c).trans ((U2_main_arg6 m ρ c).trans (U1_main_arg6 m ρ c))]
  rfl

/-- THE VALUE RUN: every weakly fair execution terminates, nothing faulting, with the result array at the layer of the argument
    arrays and the arguments unchanged. -/
theorem value_run : θ_run (defs (F := Ideal)) (onTc (τ := τ) (main (F := Ideal))) ⟨m, fun _ => 0, ρ⟩ (fun r => ∀ c : Dev nD,
      r.2.mem ((c.tc : Thread nD τ).loc main_v3) = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_v3 (by decide)).trans (U4_main_v3 m ρ c),
    (h c main_arg0 (by decide)).trans (U4_end_main_arg0 m ρ c),
    (h c main_arg1 (by decide)).trans (U4_end_main_arg1 m ρ c),
    (h c main_arg2 (by decide)).trans (U4_end_main_arg2 m ρ c),
    (h c main_arg3 (by decide)).trans (U4_end_main_arg3 m ρ c),
    (h c main_arg4 (by decide)).trans (U4_end_main_arg4 m ρ c),
    (h c main_arg5 (by decide)).trans (U4_end_main_arg5 m ρ c),
    (h c main_arg6 (by decide)).trans (U4_end_main_arg6 m ρ c),
    (h c main_arg7 (by decide)).trans (U4_end_main_arg7 m ρ c),
    (h c main_arg8 (by decide)).trans (U4_end_main_arg8 m ρ c),
    (h c main_arg9 (by decide)).trans (U4_end_main_arg9 m ρ c)⟩) (run_all m ρ)

end Cert.KernelIdeal.Hand

end
-- ==== Proof.RefSide.lean ====
/- The reference's side of the bridge: its result, read one operation at a time, is the layer of the specification. -/
import proofs.«180202_j18279380812578_1_alg».proof.Proof.Gen.ReferenceIdeal.Read
import proofs.«180202_j18279380812578_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The literal word of the reference's constant is the number one. -/
theorem ofBits_one_f32 : Ideal.ofBits .f32 0x3F800000#32 = 1 := by
  simp [Ideal.ofBits, Ideal.ieee, -EReal.coe_mul]; norm_num

/-- Through transpose, regroup and ungroup, entry (k, f) of the transposed weight reads the integer at (f, k). -/
theorem idxq_A (k : Fin 4096) (f : Fin 14336) :
    idx_main_v0 (idx_main_v8 (idx_main_v9 (ix2 k f))) = ix2 f k :=
  funext fun a => Fin.ext (by
    have hk := k.isLt; have hf := f.isLt
    match a with
    | ⟨0, _⟩ =>
      show ((((f.val * 4096 + k.val) / 262144) * 64 + (f.val * 4096 + k.val) / 4096 % 64) * 4096 + (f.val * 4096 + k.val) % 4096) / 4096 = f.val
      omega
    | ⟨1, _⟩ =>
      show ((((f.val * 4096 + k.val) / 262144) * 64 + (f.val * 4096 + k.val) / 4096 % 64) * 4096 + (f.val * 4096 + k.val) % 4096) % 4096 = k.val
      omega)

/-- The zero point read for entry (k, f) is the one of row f's group, column k. -/
theorem idxz_A (k : Fin 4096) (f : Fin 14336) :
    idx_main_v2 (idx_main_v3 (idx_main_v8 (idx_main_v9 (ix2 k f)))) = ix2 (Cert.Spec.grpA f) k :=
  funext fun a => Fin.ext (by
    have hk := k.isLt; have hf := f.isLt
    match a with
    | ⟨0, _⟩ =>
      show (f.val * 4096 + k.val) / 262144 = f.val / 64
      omega
    | ⟨1, _⟩ =>
      show (f.val * 4096 + k.val) % 4096 = k.val
      omega)

/-- The scale read for entry (k, f) is the one of row f's group, column k. -/
theorem idxs_A (k : Fin 4096) (f : Fin 14336) :
    idx_main_v5 (idx_main_v6 (idx_main_v8 (idx_main_v9 (ix2 k f)))) = ix2 (Cert.Spec.grpA f) k :=
  funext fun a => Fin.ext (by
    have hk := k.isLt; have hf := f.isLt
    match a with
    | ⟨0, _⟩ =>
      show (f.val * 4096 + k.val) / 262144 = f.val / 64
      omega
    | ⟨1, _⟩ =>
      show (f.val * 4096 + k.val) % 4096 = k.val
      omega)

/-- The gate weight, dequantized and transposed, at (k, f) is the specification's entry (f, k). -/
theorem v9_eq (x1 : (⟨S14336x4096, .i32⟩ : BufTy).Contents (Elt Ideal)) (x2 x3 : (⟨S224x4096, .f32⟩ : BufTy).Contents (Elt Ideal))
    (k : Fin 4096) (f : Fin 14336) :
    val_main_v9 (F := Ideal) x1 x2 x3 (ix2 k f) = Cert.Spec.wA x1 x2 x3 f k := by
  rw [val_main_v9_apply, val_main_v8_apply, val_main_v7_apply, val_main_v6_apply, val_main_v5_apply, val_main_v4_apply,
    val_main_v3_apply, val_main_v2_apply, val_main_v1_apply, val_main_v0_apply, idxq_A, idxz_A, idxs_A]
  rfl

/-! ## The up weight (the same arrangement as the gate weight) -/

theorem idxq_U (k : Fin 4096) (f : Fin 14336) :
    idx_main_v11 (idx_main_v19 (idx_main_v20 (ix2 k f))) = ix2 f k :=
  funext fun a => Fin.ext (by
    have hk := k.isLt; have hf := f.isLt
    match a with
    | ⟨0, _⟩ =>
      show ((((f.val * 4096 + k.val) / 262144) * 64 + (f.val * 4096 + k.val) / 4096 % 64) * 4096 + (f.val * 4096 + k.val) % 4096) / 4096 = f.val
      omega
    | ⟨1, _⟩ =>
      show ((((f.val * 4096 + k.val) / 262144) * 64 + (f.val * 4096 + k.val) / 4096 % 64) * 4096 + (f.val * 4096 + k.val) % 4096) % 4096 = k.val
      omega)

theorem idxz_U (k : Fin 4096) (f : Fin 14336) :
    idx_main_v13 (idx_main_v14 (idx_main_v19 (idx_main_v20 (ix2 k f)))) = ix2 (Cert.Spec.grpA f) k :=
  funext fun a => Fin.ext (by
    have hk := k.isLt; have hf := f.isLt
    match a with
    | ⟨0, _⟩ =>
      show (f.val * 4096 + k.val) / 262144 = f.val / 64
      omega
    | ⟨1, _⟩ =>
      show (f.val * 4096 + k.val) % 4096 = k.val
      omega)

theorem idxs_U (k : Fin 4096) (f : Fin 14336) :
    idx_main_v16 (idx_main_v17 (idx_main_v19 (idx_main_v20 (ix2 k f)))) = ix2 (Cert.Spec.grpA f) k :=
  funext fun a => Fin.ext (by
    have hk := k.isLt; have hf := f.isLt
    match a with
    | ⟨0, _⟩ =>
      show (f.val * 4096 + k.val) / 262144 = f.val / 64
      omega
    | ⟨1, _⟩ =>
      show (f.val * 4096 + k.val) % 4096 = k.val
      omega)

/-- The up weight, dequantized and transposed, at (k, f) is the specification's entry (f, k). -/
theorem v20_eq (x7 : (⟨S14336x4096, .i32⟩ : BufTy).Contents (Elt Ideal)) (x8 x9 : (⟨S224x4096, .f32⟩ : BufTy).Contents (Elt Ideal))
    (k : Fin 4096) (f : Fin 14336) :
    val_main_v20 (F := Ideal) x7 x8 x9 (ix2 k f) = Cert.Spec.wA x7 x8 x9 f k := by
  rw [val_main_v20_apply, val_main_v19_apply, val_main_v18_apply, val_main_v17_apply, val_main_v16_apply, val_main_v15_apply,
    val_main_v14_apply, val_main_v13_apply, val_main_v12_apply, val_main_v11_apply, idxq_U, idxz_U, idxs_U]
  rfl

/-! ## The down weight: 4096 rows in 64 groups of 64, 14336 columns -/

theorem idxq_D (k : Fin 14336) (r : Fin 4096) :
    idx_main_v24 (idx_main_v32 (idx_main_v33 (ix2 k r))) = ix2 r k :=
  funext fun a => Fin.ext (by
    have hk := k.isLt; have hr := r.isLt
    match a with
    | ⟨0, _⟩ =>
      show ((((r.val * 14336 + k.val) / 917504) * 64 + (r.val * 14336 + k.val) / 14336 % 64) * 14336 + (r.val * 14336 + k.val) % 14336) / 14336 = r.val
      omega
    | ⟨1, _⟩ =>
      show ((((r.val * 14336 + k.val) / 917504) * 64 + (r.val * 14336 + k.val) / 14336 % 64) * 14336 + (r.val * 14336 + k.val) % 14336) % 14336 = k.val
      omega)

theorem idxz_D (k : Fin 14336) (r : Fin 4096) :
    idx_main_v26 (idx_main_v27 (idx_main_v32 (idx_main_v33 (ix2 k r)))) = ix2 (Cert.Spec.grpB r) k :=
  funext fun a => Fin.ext (by
    have hk := k.isLt; have hr := r.isLt
    match a with
    | ⟨0, _⟩ =>
      show (r.val * 14336 + k.val) / 917504 = r.val / 64
      omega
    | ⟨1, _⟩ =>
      show (r.val * 14336 + k.val) % 14336 = k.val
      omega)

theorem idxs_D (k : Fin 14336) (r : Fin 4096) :
    idx_main_v29 (idx_main_v30 (idx_main_v32 (idx_main_v33 (ix2 k r)))) = ix2 (Cert.Spec.grpB r) k :=
  funext fun a => Fin.ext (by
    have hk := k.isLt; have hr := r.isLt
    match a with
    | ⟨0, _⟩ =>
      show (r.val * 14336 + k.val) / 917504 = r.val / 64
      omega
    | ⟨1, _⟩ =>
      show (r.val * 14336 + k.val) % 14336 = k.val
      omega)

/-- The down weight, dequantized and transposed, at (k, r) is the specification's entry (r, k). -/
theorem v33_eq (x4 : (⟨S4096x14336, .i32⟩ : BufTy).Contents (Elt Ideal)) (x5 x6 : (⟨S64x14336, .f32⟩ : BufTy).Contents (Elt Ideal))
    (k : Fin 14336) (r : Fin 4096) :
    val_main_v33 (F := Ideal) x4 x5 x6 (ix2 k r) = Cert.Spec.wB x4 x5 x6 r k := by
  rw [val_main_v33_apply, val_main_v32_apply, val_main_v31_apply, val_main_v30_apply, val_main_v29_apply, val_main_v28_apply,
    val_main_v27_apply, val_main_v26_apply, val_main_v25_apply, val_main_v24_apply, idxq_D, idxz_D, idxs_D]
  rfl

/-! ## The contractions' operand indices -/

theorem lidx10 (t : Fin 512) (f : Fin 14336) (k : Fin 4096) : lidx_main_v10 (ix2 t f) k = ix2 t k :=
  funext fun a => by match a with | ⟨0, _⟩ => rfl | ⟨1, _⟩ => rfl
theorem ridx10 (t : Fin 512) (f : Fin 14336) (k : Fin 4096) : ridx_main_v10 (ix2 t f) k = ix2 k f :=
  funext fun a => by match a with | ⟨0, _⟩ => rfl | ⟨1, _⟩ => rfl
theorem lidx21 (t : Fin 512) (f : Fin 14336) (k : Fin 4096) : lidx_main_v21 (ix2 t f) k = ix2 t k :=
  funext fun a => by match a with | ⟨0, _⟩ => rfl | ⟨1, _⟩ => rfl
theorem ridx21 (t : Fin 512) (f : Fin 14336) (k : Fin 4096) : ridx_main_v21 (ix2 t f) k = ix2 k f :=
  funext fun a => by match a with | ⟨0, _⟩ => rfl | ⟨1, _⟩ => rfl
theorem lidx34 (t : Fin 512) (r : Fin 4096) (k : Fin 14336) : lidx_main_v34 (ix2 t r) k = ix2 t k :=
  funext fun a => by match a with | ⟨0, _⟩ => rfl | ⟨1, _⟩ => rfl
theorem ridx34 (t : Fin 512) (r : Fin 4096) (k : Fin 14336) : ridx_main_v34 (ix2 t r) k = ix2 k r :=
  funext fun a => by match a with | ⟨0, _⟩ => rfl | ⟨1, _⟩ => rfl

/-! ## The two projections -/

/-- The gate projection at (t, f) is the contraction of row t of the input with row f of the gate weight. -/
theorem v10_eq (x0 : (⟨S512x4096, .f32⟩ : BufTy).Contents (Elt Ideal)) (x1 : (⟨S14336x4096, .i32⟩ : BufTy).Contents (Elt Ideal))
    (x2 x3 : (⟨S224x4096, .f32⟩ : BufTy).Contents (Elt Ideal)) (t : Fin 512) (f : Fin 14336) :
    val_main_v10 (F := Ideal) x0 x1 x2 x3 (ix2 t f) = Cert.Spec.projAt x0 x1 x2 x3 t f := by
  rw [val_main_v10_apply]
  unfold Cert.Spec.projAt
  refine Finset.sum_congr rfl fun k _ => ?_
  rw [lidx10, ridx10, v9_eq]

/-- The up projection at (t, f) is the contraction of row t of the input with row f of the up weight. -/
theorem v21_eq (x0 : (⟨S512x4096, .f32⟩ : BufTy).Contents (Elt Ideal)) (x7 : (⟨S14336x4096, .i32⟩ : BufTy).Contents (Elt Ideal))
    (x8 x9 : (⟨S224x4096, .f32⟩ : BufTy).Contents (Elt Ideal)) (t : Fin 512) (f : Fin 14336) :
    val_main_v21 (F := Ideal) x0 x7 x8 x9 (ix2 t f) = Cert.Spec.projAt x0 x7 x8 x9 t f := by
  rw [val_main_v21_apply]
  unfold Cert.Spec.projAt
  refine Finset.sum_congr rfl fun k _ => ?_
  rw [lidx21, ridx21, v20_eq]

/-! ## silu -/

/-- Negate, exponential, add one, divide one by it, multiply by the argument: that is g times the logistic of g. -/
theorem v22_eq (x0 : (⟨S512x4096, .f32⟩ : BufTy).Contents (Elt Ideal)) (x1 : (⟨S14336x4096, .i32⟩ : BufTy).Contents (Elt Ideal))
    (x2 x3 : (⟨S224x4096, .f32⟩ : BufTy).Contents (Elt Ideal)) (i : S512x14336.Idx) :
    val_main_v22 (F := Ideal) x0 x1 x2 x3 i = Cert.Spec.silu (val_main_v10 (F := Ideal) x0 x1 x2 x3 i) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply]
  unfold Cert.Spec.silu Ideal.logistic
  simp only [Ideal.mulf_def, Ideal.hostDivf_def, Ideal.addf_def, Ideal.hostUnary_exp_def, Ideal.hostNegf_def, Ideal.negf_def,
    Ideal.ofBits_def, ofBits_one_f32]

/-! ## The gated intermediate and the layer -/

/-- silu of the gate projection times the up projection, as an array. -/
theorem v23_eq (x0 : (⟨S512x4096, .f32⟩ : BufTy).Contents (Elt Ideal)) (x1 : (⟨S14336x4096, .i32⟩ : BufTy).Contents (Elt Ideal))
    (x2 x3 : (⟨S224x4096, .f32⟩ : BufTy).Contents (Elt Ideal)) (x7 : (⟨S14336x4096, .i32⟩ : BufTy).Contents (Elt Ideal))
    (x8 x9 : (⟨S224x4096, .f32⟩ : BufTy).Contents (Elt Ideal)) (t : Fin 512) (f : Fin 14336) :
    val_main_v23 (F := Ideal) x0 x1 x2 x3 x7 x8 x9 (ix2 t f)
      = Cert.Spec.interArr x0 x7 x8 x9 (Cert.Spec.projArr x0 x1 x2 x3) (ix2 t f) := by
  rw [val_main_v23_apply, v22_eq, v10_eq, v21_eq]
  rfl

/-- The reference's result, as a function of its ten arguments, is the specification's layer. -/
theorem ref_is_layer (x0 : (⟨S512x4096, .f32⟩ : BufTy).Contents (Elt Ideal)) (x1 : (⟨S14336x4096, .i32⟩ : BufTy).Contents (Elt Ideal)) (x2 x3 : (⟨S224x4096, .f32⟩ : BufTy).Contents (Elt Ideal)) (x4 : (⟨S4096x14336, .i32⟩ : BufTy).Contents (Elt Ideal)) (x5 x6 : (⟨S64x14336, .f32⟩ : BufTy).Contents (Elt Ideal)) (x7 : (⟨S14336x4096, .i32⟩ : BufTy).Contents (Elt Ideal)) (x8 x9 : (⟨S224x4096, .f32⟩ : BufTy).Contents (Elt Ideal)) :
    val_main_v34 (F := Ideal) x0 x1 x2 x3 x4 x5 x6 x7 x8 x9 = Cert.Spec.layer x0 x1 x2 x3 x4 x5 x6 x7 x8 x9 := by
  funext i
  obtain ⟨t, r, rfl⟩ : ∃ (t : Fin 512) (r : Fin 4096), i = ix2 t r := ⟨i 0, i 1, eq_ix2 i⟩
  rw [val_main_v34_apply]
  show _ = ∑ k : Fin 14336, Cert.Spec.interArr x0 x7 x8 x9 (Cert.Spec.projArr x0 x1 x2 x3) (ix2 t k) * Cert.Spec.wB x4 x5 x6 r k
  refine Finset.sum_congr rfl fun k _ => ?_
  rw [lidx34, ridx34, v23_eq, v33_eq]

end Cert.ReferenceIdeal.RefValue

end
-- ==== Proof.lean ====
/- The proof of `Cert.Claim`: the three frames, the (empty) idealization ledger, and the equivalence over the extended reals of
   the quantized gated feed-forward kernel with its reference.

   The layer is `out = (silu (x W1ᵀ) * (x W3ᵀ)) W2ᵀ`, each weight given by integers with a scale and a zero point per group of 64
   rows. The kernel computes it in three regions: the gate projection and the up projection (with the gating) each tile the 14336
   output columns into 28 blocks and split the contraction over the 4096 hidden coordinates into four strips; the down projection
   tiles its 4096 output columns into 8 blocks and accumulates the contraction over the 14336 intermediate coordinates in seven
   steps in a buffer it carries from step to step. The reference contracts whole. At the ideal instance the two differ only in how
   finite sums of extended reals are grouped, and such sums regroup freely; the logistic function of the kernel is the
   reference's `1 / (1 + exp (-g))`; the changes of float format are the identity. No hypothesis on the inputs is used.

   The frames of the two kernel programs (word level and idealized) are one argument, generic in the float instance: each
   region's body run symbolically once per control case, the accumulator tracked through the down projection's invariant, the
   regions chained over the contents the core's buffers hold between them. The reference's frame is its run. -/
import proofs.«180202_j18279380812578_1_alg».proof.Defs
import proofs.«180202_j18279380812578_1_alg».proof.Proof.Gen.Kernel
import proofs.«180202_j18279380812578_1_alg».proof.Proof.Gen.KernelIdeal
import proofs.«180202_j18279380812578_1_alg».proof.Proof.Gen.ReferenceIdeal
import proofs.«180202_j18279380812578_1_alg».proof.Proof.Gen.Pre_finite_inputs
import proofs.«180202_j18279380812578_1_alg».proof.Proof.Gen.ReferenceIdeal.Run
import proofs.«180202_j18279380812578_1_alg».proof.Proof.K.Main
import proofs.«180202_j18279380812578_1_alg».proof.Proof.KI.Value
import proofs.«180202_j18279380812578_1_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the specification's layer of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_is_layer,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
